-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S3072x1024 : Shape := ⟨2, ![3072, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x4096x1024 .f32) (main_arg1 : FVec F S3072x1024 .f32) (main_arg2 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S4x4096x1024 : Shape := ⟨3, ![4, 4096, 1024]⟩
abbrev S3072x1024 : Shape := ⟨2, ![3072, 1024]⟩
abbrev S1024x1024 : Shape := ⟨2, ![1024, 1024]⟩
abbrev S4x1024 : Shape := ⟨2, ![4, 1024]⟩
abbrev S4x512x1024 : Shape := ⟨3, ![4, 512, 1024]⟩
abbrev S4x1x1024 : Shape := ⟨3, ![4, 1, 1024]⟩

abbrev nBuf : Space → Nat
  | .hbm => 9
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S3072x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S4x1024, .f32⟩
  | .hbm, ⟨8, _⟩ => ⟨S4x4096x1024, .f32⟩
  | .local _ .vmem, ⟨0, _⟩ => ⟨S4x512x1024, .f32⟩
  | .local _ .vmem, ⟨1, _⟩ => ⟨S4x512x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S1024x1024, .f32⟩
  | .local _ .vmem, ⟨6, _⟩ => ⟨S4x512x1024, .f32⟩
  | .local _ .vmem, ⟨7, _⟩ => ⟨S4x512x1024, .f32⟩
  | .local _ .vmem, ⟨8, _⟩ => ⟨S4x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc1_scratch0 : Ref sig .tc := ⟨.vmem, 8, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem2_0 : DmaSem sig := 5
abbrev cc1_sem2_1 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v10 : BitVec 1 := Scalar.cmpi .eq arg0 c7_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .vmem S4x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4x512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S3072x1024_S1024x1024_2048_0 : S3072x1024.Slices ![2048, 0] S1024x1024
  transposes_S1024x1024_S1024x1024_1_0 : S1024x1024.Transposes [1, 0] S1024x1024
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  inb_S4x512x1024_S4x512x1024_0_0_0 : ∀ a, (![0, 0, 0] : Fin 3 → Nat) a + S4x512x1024.size a ≤ S4x512x1024.size a
  h_S4x512x1024 : 0 < S4x512x1024.numel
  reduces_S4x512x1024_S4x1024 : S4x512x1024.Reduces [1] S4x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S4x1024_S4x1x1024 : S4x1024.ShapeCasts S4x1x1024
  shapeCasts_S4x1x1024_S4x1x1024 : S4x1x1024.ShapeCasts S4x1x1024
  broadcasts_S4x1x1024_S4x512x1024 : S4x1x1024.Broadcasts S4x512x1024
  dot_S1024x1024_S1024x1024_S1024x1024_1_0_0_1_n_n_wf : DotDims.WF S1024x1024 S1024x1024 S1024x1024 [1] [0] [0] [1] [] []
  dot_S4x1024_S1024x1024_S4x1024_1_0_0_1_n_n_wf : DotDims.WF S4x1024 S1024x1024 S4x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x1024.size a ≤ S4x4096x1024.size a
  hwx0_0 : ∀ i : grid0.Coords, EltTy.bits .f32 = 32 ∨ (Rect.block (s := S4x4096x1024) S4x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x1024.size a ≤ S4x1024.size a
  hwx0_1 : ∀ i : grid0.Coords, EltTy.bits .f32 = 32 ∨ (Rect.block (s := S4x1024) S4x1024.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4x1024.size a ≤ S4x1024.size a
  hwx1_0 : ∀ i : grid1.Coords, EltTy.bits .f32 = 32 ∨ (Rect.block (s := S4x1024) S4x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x512x1024.size a ≤ S4x4096x1024.size a
  hwx1_2 : ∀ i : grid1.Coords, EltTy.bits .f32 = 32 ∨ (Rect.block (s := S4x4096x1024) S4x512x1024.size (cc1_transform_2 i) (hinb1_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S4x1024_S1024x1024_S4x1024_1_0_0_1_n_n : DotDims S4x1024 S1024x1024 S4x1024 where
  lhsContracting := [1]
  rhsContracting := [0]
  lhsNonContracting := [0]
  rhsNonContracting := [1]
  lhsBatch := []
  rhsBatch := []
  wf := dot_S4x1024_S1024x1024_S4x1024_1_0_0_1_n_n_wf

abbrev win0_0 : Pipeline.Window sig grid0 :=
  Pipeline.Window.ofSpec (Memref.whole main_arg0) S4x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4x1024.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v4) S4x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S4x512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S3072x1024 : Shape := ⟨2, ![3072, 1024]⟩
abbrev S1024x1024 : Shape := ⟨2, ![1024, 1024]⟩
abbrev S4x4096x3072 : Shape := ⟨3, ![4, 4096, 3072]⟩
abbrev S4x4096x1x3072 : Shape := ⟨4, ![4, 4096, 1, 3072]⟩
abbrev S4x1x4096x3072 : Shape := ⟨4, ![4, 1, 4096, 3072]⟩
abbrev S4x1x4096x1024 : Shape := ⟨4, ![4, 1, 4096, 1024]⟩
abbrev S4x1x4096x4096 : Shape := ⟨4, ![4, 1, 4096, 4096]⟩
abbrev S_ : Shape := ⟨0, ![]⟩
abbrev S4x4096x4096 : Shape := ⟨3, ![4, 4096, 4096]⟩
abbrev S4x4096x1x1024 : Shape := ⟨4, ![4, 4096, 1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S3072x1024, .f32⟩
  | .hbm, ⟨2, _⟩ => ⟨S1024x1024, .f32⟩
  | .hbm, ⟨3, _⟩ => ⟨S4x4096x3072, .f32⟩
  | .hbm, ⟨4, _⟩ => ⟨S4x4096x1x3072, .f32⟩
  | .hbm, ⟨5, _⟩ => ⟨S4x1x4096x3072, .f32⟩
  | .hbm, ⟨6, _⟩ => ⟨S4x1x4096x1024, .f32⟩
  | .hbm, ⟨7, _⟩ => ⟨S4x1x4096x1024, .f32⟩
  | .hbm, ⟨8, _⟩ => ⟨S4x1x4096x1024, .f32⟩
  | .hbm, ⟨9, _⟩ => ⟨S4x1x4096x4096, .f32⟩
  | .hbm, ⟨10, _⟩ => ⟨S_, .f32⟩
  | .hbm, ⟨11, _⟩ => ⟨S4x1x4096x4096, .f32⟩
  | .hbm, ⟨12, _⟩ => ⟨S4x1x4096x4096, .f32⟩
  | .hbm, ⟨13, _⟩ => ⟨S_, .f32⟩
  | .hbm, ⟨14, _⟩ => ⟨S4x4096x4096, .f32⟩
  | .hbm, ⟨15, _⟩ => ⟨S_, .f32⟩
  | .hbm, ⟨16, _⟩ => ⟨S4x4096x4096, .f32⟩
  | .hbm, ⟨17, _⟩ => ⟨S4x4096x4096, .f32⟩
  | .hbm, ⟨18, _⟩ => ⟨S4x1x4096x4096, .f32⟩
  | .hbm, ⟨19, _⟩ => ⟨S4x1x4096x4096, .f32⟩
  | .hbm, ⟨20, _⟩ => ⟨S4x1x4096x4096, .f32⟩
  | .hbm, ⟨21, _⟩ => ⟨S_, .f32⟩
  | .hbm, ⟨22, _⟩ => ⟨S4x4096x4096, .f32⟩
  | .hbm, ⟨23, _⟩ => ⟨S4x1x4096x4096, .f32⟩
  | .hbm, ⟨24, _⟩ => ⟨S4x1x4096x4096, .f32⟩
  | .hbm, ⟨25, _⟩ => ⟨S4x1x4096x1024, .f32⟩
  | .hbm, ⟨26, _⟩ => ⟨S4x4096x1x1024, .f32⟩
  | .hbm, ⟨27, _⟩ => ⟨S4x4096x1024, .f32⟩
  | .hbm, ⟨28, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  shapeCasts_S4x4096x3072_S4x4096x1x3072 : S4x4096x3072.ShapeCasts S4x4096x1x3072
  transposes_S4x4096x1x3072_S4x1x4096x3072_0_2_1_3 : S4x4096x1x3072.Transposes [0, 2, 1, 3] S4x1x4096x3072
  slices_S4x1x4096x3072_S4x1x4096x1024_0_0_0_0 : S4x1x4096x3072.Slices ![0, 0, 0, 0] S4x1x4096x1024
  slices_S4x1x4096x3072_S4x1x4096x1024_0_0_0_1024 : S4x1x4096x3072.Slices ![0, 0, 0, 1024] S4x1x4096x1024
  slices_S4x1x4096x3072_S4x1x4096x1024_0_0_0_2048 : S4x1x4096x3072.Slices ![0, 0, 0, 2048] S4x1x4096x1024
  bcast_S_S4x1x4096x4096 : S_.BroadcastsInDim S4x1x4096x4096 (![] : Fin 0 → Fin S4x1x4096x4096.rank)
  reducesTo_S4x1x4096x4096_S4x4096x4096_d1 : S4x1x4096x4096.ReducesTo [1] S4x4096x4096
  h_S_ : 0 < S_.numel
  bcast_S_S4x4096x4096 : S_.BroadcastsInDim S4x4096x4096 (![] : Fin 0 → Fin S4x4096x4096.rank)
  bcast_S4x4096x4096_S4x1x4096x4096_0_2_3 : S4x4096x4096.BroadcastsInDim S4x1x4096x4096 (![0, 2, 3] : Fin 3 → Fin S4x1x4096x4096.rank)
  transposes_S4x1x4096x1024_S4x4096x1x1024_0_2_1_3 : S4x1x4096x1024.Transposes [0, 2, 1, 3] S4x4096x1x1024
  shapeCasts_S4x4096x1x1024_S4x4096x1024 : S4x4096x1x1024.ShapeCasts S4x4096x1024
  dot_S4x4096x1024_S3072x1024_S4x4096x3072_2_1_01_0_n_n_wf : DotDims.WF S4x4096x1024 S3072x1024 S4x4096x3072 [2] [1] [0, 1] [0] [] []
  dot_S4x1x4096x1024_S4x1x4096x1024_S4x1x4096x4096_3_3_2_2_01_01_wf : DotDims.WF S4x1x4096x1024 S4x1x4096x1024 S4x1x4096x4096 [3] [3] [2] [2] [0, 1] [0, 1]
  dot_S4x1x4096x4096_S4x1x4096x1024_S4x1x4096x1024_3_2_2_3_01_01_wf : DotDims.WF S4x1x4096x4096 S4x1x4096x1024 S4x1x4096x1024 [3] [2] [2] [3] [0, 1] [0, 1]
  dot_S4x4096x1024_S1024x1024_S4x4096x1024_2_1_01_0_n_n_wf : DotDims.WF S4x4096x1024 S1024x1024 S4x4096x1024 [2] [1] [0, 1] [0] [] []

variable [Facts₀]

def dot_S4x4096x1024_S3072x1024_S4x4096x3072_2_1_01_0_n_n : DotDims S4x4096x1024 S3072x1024 S4x4096x3072 where
  lhsContracting := [2]
  rhsContracting := [1]
  lhsNonContracting := [0, 1]
  rhsNonContracting := [0]
  lhsBatch := []
  rhsBatch := []
  wf := dot_S4x4096x1024_S3072x1024_S4x4096x3072_2_1_01_0_n_n_wf
def dot_S4x1x4096x1024_S4x1x4096x1024_S4x1x4096x4096_3_3_2_2_01_01 : DotDims S4x1x4096x1024 S4x1x4096x1024 S4x1x4096x4096 where
  lhsContracting := [3]
  rhsContracting := [3]
  lhsNonContracting := [2]
  rhsNonContracting := [2]
  lhsBatch := [0, 1]
  rhsBatch := [0, 1]
  wf := dot_S4x1x4096x1024_S4x1x4096x1024_S4x1x4096x4096_3_3_2_2_01_01_wf
def dot_S4x1x4096x4096_S4x1x4096x1024_S4x1x4096x1024_3_2_2_3_01_01 : DotDims S4x1x4096x4096 S4x1x4096x1024 S4x1x4096x1024 where
  lhsContracting := [3]
  rhsContracting := [2]
  lhsNonContracting := [2]
  rhsNonContracting := [3]
  lhsBatch := [0, 1]
  rhsBatch := [0, 1]
  wf := dot_S4x1x4096x4096_S4x1x4096x1024_S4x1x4096x1024_3_2_2_3_01_01_wf
def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf

class Facts : Prop extends Facts₀ where

variable [Facts]
-- ==== Proof.Spec.lean ====
/-
  The two programs as functions of the three argument arrays, over the extended reals.

  With a single attention head the softmax over the head axis is the constant 1 on real logits, so the
  layer returns, at every sequence position, the column sums of the value projection pushed through the
  output projection.  The kernel computes that as (column sums of x) · (w_vᵀ · w_oᵀ); the layer as written
  contracts x with w_v first, sums over the sequence, and contracts with w_o last.  Both are the triple sum
  ∑ e k f, x[b,k,e] · w_v[f,e] · w_o[o,f]; regrouping it needs distributivity, hence real entries.
-/
import Idealize.ShloMosaic.PureOps.Ideal
import Idealize.ShloMosaic.Lib.ValueIdx
import Mathlib.Data.EReal.Operations
import Mathlib.Algebra.BigOperators.Ring.Finset

noncomputable section

namespace Cert.Spec

open Idealize.ShloMosaic Idealize.ShloMosaic.ValueIdx

/-- x : batch × sequence × feature. -/
abbrev SX : Shape := ⟨3, ![4, 4096, 1024]⟩
/-- w_qkv : (q, k, v rows stacked) × feature. -/
abbrev SQ : Shape := ⟨2, ![3072, 1024]⟩
/-- w_o, and the combined weight: feature × feature. -/
abbrev SO : Shape := ⟨2, ![1024, 1024]⟩
/-- One row per batch entry. -/
abbrev SB : Shape := ⟨2, ![4, 1024]⟩

/-- Row `2048 + f` of w_qkv: row `f` of the value projection. -/
abbrev vrow (f : Fin 1024) : Fin 3072 := ⟨2048 + f.val, by omega⟩

/-- The column sums of x over the sequence axis. -/
def xsum (x : SX.Idx → EReal) : SB.Idx → EReal :=
  fun j => ∑ k : Fin 4096, x (ix3 (j 0) k (j 1))

/-- The combined weight w_vᵀ · w_oᵀ. -/
def wcomb (wq : SQ.Idx → EReal) (wo : SO.Idx → EReal) : SO.Idx → EReal :=
  fun j => ∑ f : Fin 1024, wq (ix2 (vrow f) (j 0)) * wo (ix2 (j 1) f)

/-- A row vector per batch entry times a matrix, repeated at every sequence position. -/
def bcast (s : SB.Idx → EReal) (W : SO.Idx → EReal) : SX.Idx → EReal :=
  fun j => ∑ e : Fin 1024, s (ix2 (j 0) e) * W (ix2 e (j 2))

/-- What the kernel's program returns. -/
def kernelOut (x : SX.Idx → EReal) (wq : SQ.Idx → EReal) (wo : SO.Idx → EReal) : SX.Idx → EReal :=
  bcast (xsum x) (wcomb wq wo)

/-- What the layer returns once its attention weights are the constant 1. -/
def refOut (x : SX.Idx → EReal) (wq : SQ.Idx → EReal) (wo : SO.Idx → EReal) : SX.Idx → EReal :=
  fun j => ∑ f : Fin 1024, (∑ k : Fin 4096, (1 : EReal) * ∑ e : Fin 1024, x (ix3 (j 0) k e) * wq (ix2 (vrow f) e)) * wo (ix2 (j 2) f)

/-- An array all of whose entries are real numbers. -/
def AllReal {S : Shape} (a : S.Idx → EReal) : Prop := ∀ i, ∃ r : ℝ, a i = (r : EReal)

/-- The coercion of the reals into the extended reals commutes with finite sums. -/
private theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The regrouping over the reals: both sides are the triple sum ∑ e k f, X k e · Wv f e · Wo f. -/
private theorem real_law {K E Fo : Type*} [Fintype K] [Fintype E] [Fintype Fo]
    (X : K → E → ℝ) (Wv : Fo → E → ℝ) (Wo : Fo → ℝ) :
    ∑ e, (∑ k, X k e) * (∑ f, Wv f e * Wo f) = ∑ f, (∑ k, ∑ e, X k e * Wv f e) * Wo f := by
  calc ∑ e, (∑ k, X k e) * (∑ f, Wv f e * Wo f)
      = ∑ e, ∑ f, ∑ k, X k e * Wv f e * Wo f := by
        refine Finset.sum_congr rfl fun e _ => ?_
        rw [Finset.mul_sum]
        refine Finset.sum_congr rfl fun f _ => ?_
        rw [Finset.sum_mul]
        refine Finset.sum_congr rfl fun k _ => ?_
        ring
    _ = ∑ f, ∑ e, ∑ k, X k e * Wv f e * Wo f := Finset.sum_comm
    _ = ∑ f, ∑ k, ∑ e, X k e * Wv f e * Wo f :=
        Finset.sum_congr rfl fun f _ => Finset.sum_comm
    _ = ∑ f, (∑ k, ∑ e, X k e * Wv f e) * Wo f := by
        refine Finset.sum_congr rfl fun f _ => ?_
        rw [Finset.sum_mul]
        refine Finset.sum_congr rfl fun k _ => ?_
        rw [Finset.sum_mul]

theorem law (x : SX.Idx → EReal) (wq : SQ.Idx → EReal) (wo : SO.Idx → EReal)
    (hx : AllReal x) (hq : AllReal wq) (ho : AllReal wo) :
    kernelOut x wq wo = refOut x wq wo := by
  funext j
  show ∑ e : Fin 1024, (∑ k : Fin 4096, x (ix3 (j 0) k e))
        * (∑ f : Fin 1024, wq (ix2 (vrow f) e) * wo (ix2 (j 2) f))
      = ∑ f : Fin 1024, (∑ k : Fin 4096, (1 : EReal)
        * ∑ e : Fin 1024, x (ix3 (j 0) k e) * wq (ix2 (vrow f) e)) * wo (ix2 (j 2) f)
  choose X hX using hx
  choose Q hQ using hq
  choose O hO using ho
  simp only [hX, hQ, hO, one_mul, ← EReal.coe_mul, ← coe_sum]
  exact congrArg _ (real_law (fun k e => X (ix3 (j 0) k e)) (fun f e => Q (ix2 (vrow f) e))
    (fun f => O (ix2 (j 2) f)))

end Cert.Spec

end
-- ==== Proof.Finite.lean ====
/-
  The precondition says every entry of the three arrays has absolute value below +∞; over the extended reals
  that is: every entry is a real number.
-/
import proofs.«110568_j7017976561954_1_alg».proof.Pre_finite_inputs
import proofs.«110568_j7017976561954_1_alg».proof.Proof.Gen.Pre_finite_inputs
import proofs.«110568_j7017976561954_1_alg».proof.Proof.Spec
import Idealize.ShloMosaic.Lib.ReduceAll

noncomputable section

namespace Cert.Finite

open Idealize.ShloMosaic Idealize.ShloMosaic.ValueIdx

/-- The scalar shape has one index. -/
instance : Subsingleton Cert.Pre_finite_inputs.S_.Idx := ⟨fun a b => funext fun d => d.elim0⟩

/-- The pattern 0x7F800000 denotes +∞. -/
private theorem ofBits_inf : Ideal.ofBits .f32 0x7F800000#32 = ⊤ := by simp [Ideal.ofBits, Ideal.ieee]

/-- An extended real whose absolute value compares below +∞ is a real number. -/
private theorem real_of_abs_lt_inf (r : EReal)
    (h : FloatOps.cmpf (F := Ideal) (φ := .f32) .olt (FloatOps.hostAbsf (F := Ideal) (φ := .f32) r)
      (FloatOps.ofBits (F := Ideal) .f32 0x7F800000#32) = 1#1) :
    ∃ q : ℝ, r = (q : EReal) := by
  change Ideal.cmp .olt (max r (-r)) (Ideal.ofBits .f32 0x7F800000#32) = 1#1 at h
  rw [ofBits_inf] at h
  induction r using EReal.rec with
  | bot => simp [Ideal.cmp] at h
  | coe q => exact ⟨q, rfl⟩
  | top => simp [Ideal.cmp] at h

/-- The precondition, evaluated all ones, makes each of the three arrays real-valued. -/
theorem allReal_of_pre [Cert.Pre_finite_inputs.Facts]
    (x : FVec Ideal Cert.Pre_finite_inputs.S4x4096x1024 .f32) (wq : FVec Ideal Cert.Pre_finite_inputs.S3072x1024 .f32)
    (wo : FVec Ideal Cert.Pre_finite_inputs.S1024x1024 .f32)
    (h : Cert.Pre_finite_inputs.fn (F := Ideal) x wq wo = fun _ => 1#1) :
    Cert.Spec.AllReal (S := Cert.Spec.SX) x ∧ Cert.Spec.AllReal (S := Cert.Spec.SQ) wq ∧ Cert.Spec.AllReal (S := Cert.Spec.SO) wo := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  refine ⟨fun i => ?_, fun i => ?_, fun i => ?_⟩
  · exact real_of_abs_lt_inf _ (Host.reduce_andi_all _ _ _ _ _ h1 i)
  · exact real_of_abs_lt_inf _ (Host.reduce_andi_all _ _ _ _ _ h2 i)
  · exact real_of_abs_lt_inf _ (Host.reduce_andi_all _ _ _ _ _ h3 i)

end Cert.Finite

end
-- ==== Proof.RefValue.lean ====
/-
  The layer as written, read at the exact reals: with one head the softmax over the head axis is the constant 1
  on real logits, so the result is the value projection summed over the sequence and pushed through the output
  projection.
-/
import proofs.«110568_j7017976561954_1_alg».proof.Proof.Gen.ReferenceIdeal.Run
import proofs.«110568_j7017976561954_1_alg».proof.Proof.Gen.ReferenceIdeal.Read
import proofs.«110568_j7017976561954_1_alg».proof.Proof.Spec

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open Cert.ReferenceIdeal.Read

/-! ## Constants and sums of reals -/

/-- The pattern 0xFF800000 is −∞, the bottom of the extended reals. -/
private theorem ofBits_negInf : Ideal.ofBits .f32 0xFF800000#32 = (⊥ : EReal) := by
  simp [Ideal.ofBits, Ideal.ieee]

/-- The pattern 0x3D000000 (2⁻⁵) is a real number. -/
private theorem ofBits_scale_real : ∃ r : ℝ, Ideal.ofBits .f32 0x3D000000#32 = (r : EReal) := by
  refine ⟨(1 : ℝ) / 32, ?_⟩
  simp [Ideal.ofBits, Ideal.ieee, -EReal.coe_mul]; norm_num

/-- A finite sum of real numbers is a real number. -/
private theorem sum_real {ι : Type} (s : Finset ι) (f : ι → EReal) (h : ∀ i, ∃ r : ℝ, f i = (r : EReal)) :
    ∃ r : ℝ, ∑ i ∈ s, f i = (r : EReal) := by
  classical
  choose g hg using h
  refine ⟨∑ i ∈ s, g i, ?_⟩
  induction s using Finset.induction_on with
  | empty => simp
  | insert a s ha ih => rw [Finset.sum_insert ha, Finset.sum_insert ha, EReal.coe_add, ih, hg]

section

variable (x0 : (⟨S4x4096x1024, .f32⟩ : BufTy).Contents (Elt Ideal)) (x1 : (⟨S3072x1024, .f32⟩ : BufTy).Contents (Elt Ideal))
  (hx : Cert.Spec.AllReal (S := Cert.Spec.SX) x0) (hq : Cert.Spec.AllReal (S := Cert.Spec.SQ) x1)

/-! ## Every logit is real -/

include hx hq in
/-- Every entry of x · w_qkvᵀ is real. -/
private theorem v0_real (j : S4x4096x3072.Idx) : ∃ r : ℝ, val_main_v0 (F := Ideal) x0 x1 j = (r : EReal) := by
  rw [val_main_v0_apply]
  refine sum_real _ _ fun k => ?_
  obtain ⟨a, ha⟩ := hx (lidx_main_v0 j k)
  obtain ⟨b, hb⟩ := hq (ridx_main_v0 j k)
  exact ⟨a * b, by rw [ha, hb, EReal.coe_mul]⟩

include hx hq in
/-- Every logit (q · kᵀ) · 2⁻⁵ is real. -/
private theorem v8_real (i : S4x1x4096x4096.Idx) : ∃ r : ℝ, val_main_v8 (F := Ideal) x0 x1 i = (r : EReal) := by
  rw [val_main_v8_apply, val_main_v6_apply, val_main_v7_apply, val_main_cst_apply]
  obtain ⟨c, hc⟩ := ofBits_scale_real
  obtain ⟨s, hs⟩ := sum_real Finset.univ
    (fun k : Fin 1024 => val_main_v3 (F := Ideal) x0 x1 (lidx_main_v6 i k) * val_main_v4 (F := Ideal) x0 x1 (ridx_main_v6 i k))
    (fun k => by
      dsimp only
      rw [val_main_v3_apply, val_main_v2_apply, val_main_v1_apply, val_main_v4_apply, val_main_v2_apply, val_main_v1_apply]
      obtain ⟨a, ha⟩ := v0_real x0 x1 hx hq (idx_main_v1 (idx_main_v2 (idx_main_v3 (lidx_main_v6 i k))))
      obtain ⟨b, hb⟩ := v0_real x0 x1 hx hq (idx_main_v1 (idx_main_v2 (idx_main_v4 (ridx_main_v6 i k))))
      exact ⟨a * b, by rw [ha, hb, EReal.coe_mul]⟩)
  refine ⟨s * c, ?_⟩
  rw [hs, Ideal.mulf_def, Ideal.ofBits_def, hc, EReal.coe_mul]

/-! ## The maximum over the one head -/

/-- A fold over the one-element index set is one application of the operation. -/
private theorem fold_fin_one {α : Type} (op : α → α → α) [Std.Commutative op] [Std.Associative op] (b : α) (f : Fin 1 → α) :
    (Finset.univ : Finset (Fin 1)).fold op b f = op (f 0) b := by
  rw [Finset.univ_unique, Finset.fold_singleton]; rfl

/-- With the head coordinate put back, the reduced index of j is j itself: the head axis has one coordinate. -/
private theorem lift_idx12 (h : S4x1x4096x4096.Reduces [1] S4x4096x4096) (j : S4x1x4096x4096.Idx) (k : Fin 1) :
    h.lift (idx_main_v12 j) k = j := by
  have hk : k.val < 1 := k.isLt
  have hj : (j 1).val < 1 := (j 1).isLt
  funext c; apply Fin.ext
  match c with
  | ⟨0, _⟩ => rfl
  | ⟨1, _⟩ => show k.val = (j 1).val; omega
  | ⟨2, _⟩ => rfl
  | ⟨3, _⟩ => rfl

/-- The maximum over the head axis from −∞, read where the broadcast reads it, is the entry itself. -/
private theorem reduce_max_head (L : FVec Ideal S4x1x4096x4096 .f32) (j : S4x1x4096x4096.Idx) :
    Host.reduce (α := Ideal .f32) (FloatOps.maximumf (F := Ideal) (φ := .f32)) L (val_main_cst_0 (F := Ideal))
        reducesTo_S4x1x4096x4096_S4x4096x4096_d1 h_S_ (idx_main_v12 j)
      = L j := by
  have h : S4x1x4096x4096.Reduces [1] S4x4096x4096 := by decide
  rw [Host.reduce_eq_fold_single (FloatOps.maximumf (F := Ideal) (φ := .f32)) L _ reducesTo_S4x1x4096x4096_S4x4096x4096_d1 h h_S_]
  refine (fold_fin_one (FloatOps.maximumf (F := Ideal) (φ := .f32)) _ (L ∘ h.lift (idx_main_v12 j))).trans ?_
  show max (L (h.lift (idx_main_v12 j) (0 : Fin 1))) (Ideal.ofBits .f32 0xFF800000#32) = L j
  rw [lift_idx12 h j (0 : Fin 1), ofBits_negInf]
  exact max_eq_left bot_le

/-! ## The attention weights are 1 -/

include hx hq in
/-- Every shifted exponential is 1: a real logit minus itself is 0. -/
private theorem v14_one (j : S4x1x4096x4096.Idx) : val_main_v14 (F := Ideal) x0 x1 j = 1 := by
  rw [val_main_v14_apply, val_main_v13_apply, val_main_v12_apply, val_main_v11_apply, val_main_v10_apply, val_main_cst_1_apply]
  have h9 : val_main_v9 (F := Ideal) x0 x1 (idx_main_v12 j) = val_main_v8 (F := Ideal) x0 x1 j := by
    unfold val_main_v9
    exact reduce_max_head (val_main_v8 (F := Ideal) x0 x1) j
  rw [h9]
  obtain ⟨r, hr⟩ := v8_real x0 x1 hx hq j
  rw [hr, Ideal.ofBits_def, ofBits_negInf, Ideal.maximumf_def, Ideal.subf_def, Ideal.hostUnary_exp_def,
    max_eq_right bot_le, ← EReal.coe_sub, sub_self, Ideal.exp_coe, Real.exp_zero, EReal.coe_one]

include hx hq in
/-- Every attention weight is 1. -/
private theorem v17_one (i : S4x1x4096x4096.Idx) : val_main_v17 (F := Ideal) x0 x1 i = 1 := by
  rw [val_main_v17_apply, val_main_v16_apply, val_main_v15_apply, val_main_cst_2_apply]
  simp only [v14_one x0 x1 hx hq, Ideal.hostDivf_def, Ideal.ofBits_def, Ideal.ofBits_zero_f32, Finset.sum_const,
    Finset.card_univ, Fintype.card_fin, one_smul, zero_add]
  rw [← EReal.coe_one, Ideal.div_coe one_ne_zero]
  norm_num

/-! ## Where the last stages read -/

/-- The reshape back to three axes reads (b, s, 0, f). -/
private theorem e20 (i : S4x4096x1024.Idx) (f : Fin 1024) :
    idx_main_v20 (lidx_main_v21 i f)
      = ix4 (⟨(i 0).val, (i 0).isLt⟩ : Fin 4) (⟨(i 1).val, (i 1).isLt⟩ : Fin 4096) (0 : Fin 1) f := by
  have h0 : (i 0).val < 4 := (i 0).isLt
  have h1 : (i 1).val < 4096 := (i 1).isLt
  have h2 : f.val < 1024 := f.isLt
  funext a; apply Fin.ext
  match a with
  | ⟨0, _⟩ => show (((i 0).val * 4096 + (i 1).val) * 1024 + f.val) / 4194304 = (i 0).val; omega
  | ⟨1, _⟩ => show (((i 0).val * 4096 + (i 1).val) * 1024 + f.val) / 1024 % 4096 = (i 1).val; omega
  | ⟨2, _⟩ => rfl
  | ⟨3, _⟩ => show (((i 0).val * 4096 + (i 1).val) * 1024 + f.val) % 1024 = f.val; omega

private theorem e19 (a : Fin 4) (b : Fin 4096) (c : Fin 1) (d : Fin 1024) :
    idx_main_v19 (ix4 a b c d) = ix4 a c b d := by
  funext t; apply Fin.ext
  match t with
  | ⟨0, _⟩ => rfl
  | ⟨1, _⟩ => rfl
  | ⟨2, _⟩ => rfl
  | ⟨3, _⟩ => rfl

private theorem e18r (a : Fin 4) (c : Fin 1) (b : Fin 4096) (d : Fin 1024) (k : Fin 4096) :
    ridx_main_v18 (ix4 a c b d) k = ix4 a c k d := by
  funext t; apply Fin.ext
  match t with
  | ⟨0, _⟩ => rfl
  | ⟨1, _⟩ => rfl
  | ⟨2, _⟩ => rfl
  | ⟨3, _⟩ => rfl

private theorem e5 (a : Fin 4) (c : Fin 1) (k : Fin 4096) (d : Fin 1024) :
    idx_main_v5 (ix4 a c k d) = ix4 a c k (Cert.Spec.vrow d) := by
  funext t; apply Fin.ext
  match t with
  | ⟨0, _⟩ => rfl
  | ⟨1, _⟩ => rfl
  | ⟨2, _⟩ => rfl
  | ⟨3, _⟩ => rfl

private theorem e2 (a : Fin 4) (c : Fin 1) (k : Fin 4096) (d : Fin 3072) :
    idx_main_v2 (ix4 a c k d) = ix4 a k c d := by
  funext t; apply Fin.ext
  match t with
  | ⟨0, _⟩ => rfl
  | ⟨1, _⟩ => rfl
  | ⟨2, _⟩ => rfl
  | ⟨3, _⟩ => rfl

/-- The reshape that inserts the head axis reads (b, k, d). -/
private theorem e1 (a : Fin 4) (k : Fin 4096) (c : Fin 1) (d : Fin 3072) :
    idx_main_v1 (ix4 a k c d) = ix3 a k d := by
  have h0 : a.val < 4 := a.isLt
  have h1 : k.val < 4096 := k.isLt
  have h2 : c.val < 1 := c.isLt
  have h3 : d.val < 3072 := d.isLt
  funext t; apply Fin.ext
  match t with
  | ⟨0, _⟩ => show (((a.val * 4096 + k.val) * 1 + c.val) * 3072 + d.val) / 12582912 = a.val; omega
  | ⟨1, _⟩ => show (((a.val * 4096 + k.val) * 1 + c.val) * 3072 + d.val) / 3072 % 4096 = k.val; omega
  | ⟨2, _⟩ => show (((a.val * 4096 + k.val) * 1 + c.val) * 3072 + d.val) % 3072 = d.val; omega

private theorem e0l (a : Fin 4) (k : Fin 4096) (d : Fin 3072) (e : Fin 1024) :
    lidx_main_v0 (ix3 a k d) e = ix3 a k e := by
  funext t; apply Fin.ext
  match t with
  | ⟨0, _⟩ => rfl
  | ⟨1, _⟩ => rfl
  | ⟨2, _⟩ => rfl

private theorem e0r (a : Fin 4) (k : Fin 4096) (d : Fin 3072) (e : Fin 1024) :
    ridx_main_v0 (ix3 a k d) e = ix2 d e := by
  funext t; apply Fin.ext
  match t with
  | ⟨0, _⟩ => rfl
  | ⟨1, _⟩ => rfl

private theorem e21r (i : S4x4096x1024.Idx) (f : Fin 1024) : ridx_main_v21 i f = ix2 (i 2) f := by
  funext t; apply Fin.ext
  match t with
  | ⟨0, _⟩ => rfl
  | ⟨1, _⟩ => rfl

end

/-- On real entries the layer's last stage is `Spec.refOut` of its three arguments. -/
theorem result_eq (x0 : (⟨S4x4096x1024, .f32⟩ : BufTy).Contents (Elt Ideal)) (x1 : (⟨S3072x1024, .f32⟩ : BufTy).Contents (Elt Ideal))
    (x2 : (⟨S1024x1024, .f32⟩ : BufTy).Contents (Elt Ideal))
    (hx : Cert.Spec.AllReal (S := Cert.Spec.SX) x0) (hq : Cert.Spec.AllReal (S := Cert.Spec.SQ) x1) :
    Cert.ReferenceIdeal.Read.val_main_v21 (F := Ideal) x0 x1 x2 = Cert.Spec.refOut x0 x1 x2 := by
  funext i
  rw [val_main_v21_apply]
  show _ = ∑ f : Fin 1024, (∑ k : Fin 4096, (1 : EReal) * ∑ e : Fin 1024,
    x0 (ix3 (i 0) k e) * x1 (ix2 (Cert.Spec.vrow f) e)) * x2 (ix2 (i 2) f)
  refine Finset.sum_congr rfl fun f _ => ?_
  refine congrArg₂ (· * ·) ?_ (congrArg x2 (e21r i f))
  rw [val_main_v20_apply, val_main_v19_apply, val_main_v18_apply, e20, e19]
  refine Finset.sum_congr rfl fun k _ => ?_
  rw [v17_one x0 x1 hx hq, val_main_v5_apply, val_main_v2_apply, val_main_v1_apply, val_main_v0_apply, e18r, e5, e2, e1]
  refine congrArg ((1 : EReal) * ·) (Finset.sum_congr rfl fun e _ => ?_)
  exact congrArg₂ (· * ·) (congrArg x0 (e0l _ _ _ _)) (congrArg x1 (e0r _ _ _ _))

end Cert.ReferenceIdeal.RefValue

end
-- ==== Proof.KbSum.lean ====
/-
  Region 0 of the kernel's program: the streaming column sum.  The grid walks the eight sequence tiles of x;
  a scratch accumulator is zeroed at the first tile, gains each tile's column sums, and is copied to the
  output block at the last tile.
-/
import proofs.«110568_j7017976561954_1_alg».proof.Proof.Gen.Kernel.Launch
import proofs.«110568_j7017976561954_1_alg».proof.Proof.Gen.Kernel.Skeleton
import proofs.«110568_j7017976561954_1_alg».proof.Proof.Gen.Kernel.Points
import proofs.«110568_j7017976561954_1_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.PureOps.Ideal.Laws
import Mathlib.Data.Fintype.BigOperators
import Mathlib.Algebra.BigOperators.Group.Finset.Basic

set_option maxRecDepth 16384

noncomputable section

namespace Cert.Kernel.Sum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The contents a core's buffers hold when the region is entered. -/
abbrev Entry (F : FTy → Type) : Type := (c : Dev nD) → (b : Ref sig .tc) → Buf (Elt F) ((c : Thread nD τ).loc b)

/-! ## The two conditionals of the body, in closed form over the grid -/

/-- The body's first conditional: the tile index is 0 (the accumulator is zeroed). -/
abbrev atFirst (i : grid0.Coords) : Prop :=
  (Scalar.cmpi .ne (Scalar.extui (Scalar.cmpi .eq (BitVec.ofNat 32 (i 0).val) 0#32)) 0#32) = 1#1
/-- It holds at tile 0 only. -/
theorem atFirst_iff : ∀ t : Fin cfg0.N, atFirst (grid0.coords t) ↔ t.val = 0 :=
  (by decide +kernel : ∀ t : Fin grid0.N, atFirst (grid0.coords t) ↔ t.val = 0)

/-- The body's second conditional: the tile index is 7 (the accumulator is copied out). -/
abbrev atLast (i : grid0.Coords) : Prop := k0_cond2 i = 1#1
/-- It holds at tile 7 only. -/
theorem atLast_iff : ∀ t : Fin cfg0.N, atLast (grid0.coords t) ↔ t.val = 7 :=
  (by decide +kernel : ∀ t : Fin grid0.N, atLast (grid0.coords t) ↔ t.val = 7)

/-! ## Where the two windows are stored into -/

/-- The x window is staged at every tile. -/
theorem xLive : ∀ t : Fin cfg0.N, cfg0.idle 0 (grid0.coords t) = false := by decide +kernel
/-- Before the last tile nothing is stored into the output block, -/
theorem outIdle : ∀ t : Fin cfg0.N, ¬atLast (grid0.coords t) → cfg0.idle 1 (grid0.coords t) = true := by decide +kernel
/-- and it is not written back there; -/
theorem outKept : ∀ t : Fin cfg0.N, ¬atLast (grid0.coords t) → (cfg0.win 1).flush t = false := by decide +kernel
/-- at the last tile it is stored. -/
theorem outLive : ∀ t : Fin cfg0.N, atLast (grid0.coords t) → cfg0.idle 1 (grid0.coords t) = false := by decide +kernel

/-! ## The buffers the body touches -/

/-- The x window's current staging buffer at tile `t`, and the output block's. -/
abbrev xBuf (t : Fin cfg0.N) : Memref sig .tc .vmem S4x512x1024 .f32 := win0_0.stage (cfg0.slots t 0)
abbrev xBuf_whole (t : Fin cfg0.N) : (xBuf t).IsWhole := hstage0_0 ((cfg0.slots t 0).cast nbuf0_0)
abbrev oBuf (t : Fin cfg0.N) : Memref sig .tc .vmem S4x1024 .f32 := win0_1.stage (cfg0.slots t 1)
abbrev oBuf_whole (t : Fin cfg0.N) : (oBuf t).IsWhole := hstage0_1 ((cfg0.slots t 1).cast nbuf0_1)
/-- The accumulator: a scratch buffer of one row per batch entry, kept from tile to tile. -/
abbrev accBuf : Memref sig .tc .vmem S4x1024 .f32 := Memref.whole cc0_scratch0
abbrev accView : View sig .tc .vmem S4x1024 .f32 := accBuf.view
/-- The view through which the output block's contents are stated. -/
abbrev outView : View sig .tc .vmem S4x1024 .f32 := (Memref.whole cc0_stg1_0 : Memref sig .tc .vmem S4x1024 .f32).view

/-- The scoped buffers of the later region, each at some contents: they pass through this region untouched. -/
def laterScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- What the region is entered with: the accumulator at some contents, the later region's scoped buffers, the random-number register. -/
theorem entry_eq (c : Dev nD) :
    (Pipeline.ΦA spec0 c : sProp 𝕄)
      = iprop(iprop((∃ d, owns (c : Thread nD τ) accBuf fullShare d) ∗ laterScoped (F := F) c) ∗ (∃ r, prngReg c r)) := by
  unfold Pipeline.ΦA laterScoped; rw [scopedRest0_eq]; simp only [accBuf, owns_whole]; try rfl

/-! ## The body on any whole buffers, case by case

Each run is a pair: the pieces the body's stores leave in the buffers it writes, and the proof that from the buffers'
contents before the body it reaches the continuation with those pieces written. -/

set_option maxHeartbeats 1000000 in
/-- The first tile (zeroing taken, copy-out not taken): the x buffer at `x0`, the output block at any `xo` handed
    back untouched, the accumulator at anything; it ends at its pieces. -/
noncomputable def runFirst (c : Dev nD) (i : grid0.Coords) (arg1 : Memref sig .tc .vmem S4x512x1024 .f32) (harg1 : arg1.IsWhole) (arg2 : Memref sig .tc .vmem S4x1024 .f32) (harg2 : arg2.IsWhole) (arg3 : Memref sig .tc .vmem S4x1024 .f32) (harg3 : arg3.IsWhole) (h0 : atFirst i) (h7 : ¬atLast i)
    (x0 : Vec F S4x512x1024 .f32) :
    Σ' (LO : List (View.Piece (Elt F) S4x1024 .f32)), { LA : List (View.Piece (Elt F) S4x1024 .f32) //
      ∀ (xo : Vec F S4x1024 .f32) (E : Set ℕ) (K : PUnit → sProp 𝕄),
        iprop(owns (c : Thread nD τ) arg1 fullShare x0 ∗ owns (c : Thread nD τ) arg2 fullShare xo ∗ (∃ d, owns (c : Thread nD τ) arg3 fullShare d)
            ∗ (iprop(owns (c : Thread nD τ) arg1 fullShare x0 ∗ owns (c : Thread nD τ) arg2 fullShare xo ∗ (∃ f, arg3.view.loc (c : Thread nD τ) ↦[arg3.view.set]{fullShare} arg3.view.writes (Elt F) f LA)) -∗ K ⟨⟩))
          ⊢ wp frame (wpE (defs₀ (F := F)) Variants.none c none) E (cc0__sum_kernel i arg1 harg1 arg2 harg2 arg3 harg3) K } := by
  refine ⟨[], ?_, fun xo E K => ?run⟩
  case run =>
    simp only [cc0__sum_kernel_eq_skeleton]; unfold cc0__sum_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact h0 | exact h7)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- A middle tile (neither conditional taken): the accumulator at what the tile before left, `xa`. -/
noncomputable def runMid (c : Dev nD) (i : grid0.Coords) (arg1 : Memref sig .tc .vmem S4x512x1024 .f32) (harg1 : arg1.IsWhole) (arg2 : Memref sig .tc .vmem S4x1024 .f32) (harg2 : arg2.IsWhole) (arg3 : Memref sig .tc .vmem S4x1024 .f32) (harg3 : arg3.IsWhole) (h0 : ¬atFirst i) (h7 : ¬atLast i)
    (x0 : Vec F S4x512x1024 .f32) (xa : Vec F S4x1024 .f32) :
    Σ' (LO : List (View.Piece (Elt F) S4x1024 .f32)), { LA : List (View.Piece (Elt F) S4x1024 .f32) //
      ∀ (xo : Vec F S4x1024 .f32) (E : Set ℕ) (K : PUnit → sProp 𝕄),
        iprop(owns (c : Thread nD τ) arg1 fullShare x0 ∗ owns (c : Thread nD τ) arg2 fullShare xo ∗ owns (c : Thread nD τ) arg3 fullShare xa
            ∗ (iprop(owns (c : Thread nD τ) arg1 fullShare x0 ∗ owns (c : Thread nD τ) arg2 fullShare xo ∗ (∃ f, arg3.view.loc (c : Thread nD τ) ↦[arg3.view.set]{fullShare} arg3.view.writes (Elt F) f LA)) -∗ K ⟨⟩))
          ⊢ wp frame (wpE (defs₀ (F := F)) Variants.none c none) E (cc0__sum_kernel i arg1 harg1 arg2 harg2 arg3 harg3) K } := by
  refine ⟨[], ?_, fun xo E K => ?run⟩
  case run =>
    simp only [cc0__sum_kernel_eq_skeleton]; unfold cc0__sum_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact h0 | exact h7)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- The last tile (copy-out taken): the output block at anything; it ends at its pieces too. -/
noncomputable def runLast (c : Dev nD) (i : grid0.Coords) (arg1 : Memref sig .tc .vmem S4x512x1024 .f32) (harg1 : arg1.IsWhole) (arg2 : Memref sig .tc .vmem S4x1024 .f32) (harg2 : arg2.IsWhole) (arg3 : Memref sig .tc .vmem S4x1024 .f32) (harg3 : arg3.IsWhole) (h0 : ¬atFirst i) (h7 : atLast i)
    (x0 : Vec F S4x512x1024 .f32) (xa : Vec F S4x1024 .f32) :
    Σ' (LO : List (View.Piece (Elt F) S4x1024 .f32)), { LA : List (View.Piece (Elt F) S4x1024 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xa
            ∗ (iprop(owns (c : Thread nD τ) arg1 fullShare x0 ∗ (∃ f, arg2.view.loc (c : Thread nD τ) ↦[arg2.view.set]{fullShare} arg2.view.writes (Elt F) f LO) ∗ (∃ f, arg3.view.loc (c : Thread nD τ) ↦[arg3.view.set]{fullShare} arg3.view.writes (Elt F) f LA)) -∗ K ⟨⟩))
          ⊢ wp frame (wpE (defs₀ (F := F)) Variants.none c none) E (cc0__sum_kernel i arg1 harg1 arg2 harg2 arg3 harg3) K } := by
  refine ⟨?_, ?_, fun E K => ?run⟩
  case run =>
    simp only [cc0__sum_kernel_eq_skeleton]; unfold cc0__sum_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact h0 | exact h7)
    sl_step
    iapply Hk
    isplitl [H0]
    · iexists _; isplitr; · ipureintro; exact harg1.read_unread _
      iexact H0
    isplitl [H1]; · iexists _; iexact H1
    iexists _; iexact HS0

/-! ## What each case leaves: the accumulator, and at the last tile the output block -/

/-- Each case's stores into the accumulator cover it. -/
theorem accCover_first (c : Dev nD) (i : grid0.Coords) (arg1 : Memref sig .tc .vmem S4x512x1024 .f32) (harg1 : arg1.IsWhole) (arg2 : Memref sig .tc .vmem S4x1024 .f32) (harg2 : arg2.IsWhole) (arg3 : Memref sig .tc .vmem S4x1024 .f32) (harg3 : arg3.IsWhole) (h0 : atFirst i) (h7 : ¬atLast i)
    (x0 : Vec F S4x512x1024 .f32) (y : S4x1024.Idx) :
    ∃ pc ∈ (runFirst c i arg1 harg1 arg2 harg2 arg3 harg3 h0 h7 x0).2.1, y ∈ pc.1.set :=
  View.cover_of_tiledL (runFirst c i arg1 harg1 arg2 harg2 arg3 harg3 h0 h7 x0).2.1 S4x1024.size (by sl_kernel_rfl) y

theorem accCover_mid (c : Dev nD) (i : grid0.Coords) (arg1 : Memref sig .tc .vmem S4x512x1024 .f32) (harg1 : arg1.IsWhole) (arg2 : Memref sig .tc .vmem S4x1024 .f32) (harg2 : arg2.IsWhole) (arg3 : Memref sig .tc .vmem S4x1024 .f32) (harg3 : arg3.IsWhole) (h0 : ¬atFirst i) (h7 : ¬atLast i)
    (x0 : Vec F S4x512x1024 .f32) (xa : Vec F S4x1024 .f32) (y : S4x1024.Idx) :
    ∃ pc ∈ (runMid c i arg1 harg1 arg2 harg2 arg3 harg3 h0 h7 x0 xa).2.1, y ∈ pc.1.set :=
  View.cover_of_tiledL (runMid c i arg1 harg1 arg2 harg2 arg3 harg3 h0 h7 x0 xa).2.1 S4x1024.size (by sl_kernel_rfl) y

theorem accCover_last (c : Dev nD) (i : grid0.Coords) (arg1 : Memref sig .tc .vmem S4x512x1024 .f32) (harg1 : arg1.IsWhole) (arg2 : Memref sig .tc .vmem S4x1024 .f32) (harg2 : arg2.IsWhole) (arg3 : Memref sig .tc .vmem S4x1024 .f32) (harg3 : arg3.IsWhole) (h0 : ¬atFirst i) (h7 : atLast i)
    (x0 : Vec F S4x512x1024 .f32) (xa : Vec F S4x1024 .f32) (y : S4x1024.Idx) :
    ∃ pc ∈ (runLast c i arg1 harg1 arg2 harg2 arg3 harg3 h0 h7 x0 xa).2.1, y ∈ pc.1.set :=
  View.cover_of_tiledL (runLast c i arg1 harg1 arg2 harg2 arg3 harg3 h0 h7 x0 xa).2.1 S4x1024.size (by sl_kernel_rfl) y

/-- The last tile's store into the output block covers it. -/
theorem outCover_last (c : Dev nD) (i : grid0.Coords) (arg1 : Memref sig .tc .vmem S4x512x1024 .f32) (harg1 : arg1.IsWhole) (arg2 : Memref sig .tc .vmem S4x1024 .f32) (harg2 : arg2.IsWhole) (arg3 : Memref sig .tc .vmem S4x1024 .f32) (harg3 : arg3.IsWhole) (h0 : ¬atFirst i) (h7 : atLast i)
    (x0 : Vec F S4x512x1024 .f32) (xa : Vec F S4x1024 .f32) (y : S4x1024.Idx) :
    ∃ pc ∈ (runLast c i arg1 harg1 arg2 harg2 arg3 harg3 h0 h7 x0 xa).1, y ∈ pc.1.set :=
  View.cover_of_tiledL (runLast c i arg1 harg1 arg2 harg2 arg3 harg3 h0 h7 x0 xa).1 S4x1024.size (by sl_kernel_rfl) y

/-- The accumulator after the first tile: its pieces read back. -/
def accFirst (c : Dev nD) (i : grid0.Coords) (arg1 : Memref sig .tc .vmem S4x512x1024 .f32) (harg1 : arg1.IsWhole) (arg2 : Memref sig .tc .vmem S4x1024 .f32) (harg2 : arg2.IsWhole) (arg3 : Memref sig .tc .vmem S4x1024 .f32) (harg3 : arg3.IsWhole) (h0 : atFirst i) (h7 : ¬atLast i)
    (x0 : Vec F S4x512x1024 .f32) : Vec F S4x1024 .f32 :=
  accView.read (Elt F) (accView.writes (Elt F) accView.junk (runFirst c i arg1 harg1 arg2 harg2 arg3 harg3 h0 h7 x0).2.1)

/-- The accumulator after a middle tile. -/
def accMid (c : Dev nD) (i : grid0.Coords) (arg1 : Memref sig .tc .vmem S4x512x1024 .f32) (harg1 : arg1.IsWhole) (arg2 : Memref sig .tc .vmem S4x1024 .f32) (harg2 : arg2.IsWhole) (arg3 : Memref sig .tc .vmem S4x1024 .f32) (harg3 : arg3.IsWhole) (h0 : ¬atFirst i) (h7 : ¬atLast i)
    (x0 : Vec F S4x512x1024 .f32) (xa : Vec F S4x1024 .f32) : Vec F S4x1024 .f32 :=
  accView.read (Elt F) (accView.writes (Elt F) accView.junk (runMid c i arg1 harg1 arg2 harg2 arg3 harg3 h0 h7 x0 xa).2.1)

/-- The accumulator after the last tile, -/
def accLast (c : Dev nD) (i : grid0.Coords) (arg1 : Memref sig .tc .vmem S4x512x1024 .f32) (harg1 : arg1.IsWhole) (arg2 : Memref sig .tc .vmem S4x1024 .f32) (harg2 : arg2.IsWhole) (arg3 : Memref sig .tc .vmem S4x1024 .f32) (harg3 : arg3.IsWhole) (h0 : ¬atFirst i) (h7 : atLast i)
    (x0 : Vec F S4x512x1024 .f32) (xa : Vec F S4x1024 .f32) : Vec F S4x1024 .f32 :=
  accView.read (Elt F) (accView.writes (Elt F) accView.junk (runLast c i arg1 harg1 arg2 harg2 arg3 harg3 h0 h7 x0 xa).2.1)

/-- and the output block. -/
def outLast (c : Dev nD) (i : grid0.Coords) (arg1 : Memref sig .tc .vmem S4x512x1024 .f32) (harg1 : arg1.IsWhole) (arg2 : Memref sig .tc .vmem S4x1024 .f32) (harg2 : arg2.IsWhole) (arg3 : Memref sig .tc .vmem S4x1024 .f32) (harg3 : arg3.IsWhole) (h0 : ¬atFirst i) (h7 : atLast i)
    (x0 : Vec F S4x512x1024 .f32) (xa : Vec F S4x1024 .f32) : Vec F S4x1024 .f32 :=
  outView.read (Elt F) (outView.writes (Elt F) outView.junk (runLast c i arg1 harg1 arg2 harg2 arg3 harg3 h0 h7 x0 xa).1)

/-! ## The tiles of x and the running accumulator -/

section Region
variable (V : Entry F)

/-- Window `w`'s block at tile `t`, read off its array as the region finds it. -/
def tile (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's current staging buffer holds tile `t` of x when the body runs there, for any proof data whose
    array is the entry contents and whose body leaves the tile in place. -/
theorem xBefore_of {c : Dev nD} (dat : Dat τ (Elt F) Unit ℕ (UR sig nD τ) ℕ cfg0 c) (hA : dat.A 0 = V c (Pipeline.arrRef spec0 0))
    (hafter : ∀ t, dat.after 0 t = tile V c 0 t) (t : Fin cfg0.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- THE ACCUMULATION. What the output block and the accumulator hold after the body at tile `n` (the pair: output
    block, accumulator): tile 0 starts from zero, tile `n + 1` continues from what tile `n` left, tile 7 also copies
    out.  Before tile 7 the output component is a placeholder nothing reads (the block is neither stored nor written back). -/
def heldAt (c : Dev nD) : (n : ℕ) → n < cfg0.N → Vec F S4x1024 .f32 × Vec F S4x1024 .f32
  | 0, hn => (outView.read (Elt F) outView.junk, accFirst c (grid0.coords ⟨0, hn⟩) (xBuf ⟨0, hn⟩) (xBuf_whole ⟨0, hn⟩) (oBuf ⟨0, hn⟩) (oBuf_whole ⟨0, hn⟩) accBuf (Memref.isWhole_whole _) ((atFirst_iff ⟨0, hn⟩).mpr rfl) (fun h => absurd ((atLast_iff ⟨0, hn⟩).mp h) (show ¬((0 : ℕ) = 7) from by decide)) (tile V c 0 ⟨0, hn⟩))
  | n + 1, hn =>
    if h7 : n + 1 = 7 then
      (outLast c (grid0.coords ⟨n + 1, hn⟩) (xBuf ⟨n + 1, hn⟩) (xBuf_whole ⟨n + 1, hn⟩) (oBuf ⟨n + 1, hn⟩) (oBuf_whole ⟨n + 1, hn⟩) accBuf (Memref.isWhole_whole _) (fun h => absurd ((atFirst_iff ⟨n + 1, hn⟩).mp h) (Nat.succ_ne_zero n)) ((atLast_iff ⟨n + 1, hn⟩).mpr h7) (tile V c 0 ⟨n + 1, hn⟩) (heldAt c n (Nat.lt_of_succ_lt hn)).2,
       accLast c (grid0.coords ⟨n + 1, hn⟩) (xBuf ⟨n + 1, hn⟩) (xBuf_whole ⟨n + 1, hn⟩) (oBuf ⟨n + 1, hn⟩) (oBuf_whole ⟨n + 1, hn⟩) accBuf (Memref.isWhole_whole _) (fun h => absurd ((atFirst_iff ⟨n + 1, hn⟩).mp h) (Nat.succ_ne_zero n)) ((atLast_iff ⟨n + 1, hn⟩).mpr h7) (tile V c 0 ⟨n + 1, hn⟩) (heldAt c n (Nat.lt_of_succ_lt hn)).2)
    else
      (outView.read (Elt F) outView.junk,
       accMid c (grid0.coords ⟨n + 1, hn⟩) (xBuf ⟨n + 1, hn⟩) (xBuf_whole ⟨n + 1, hn⟩) (oBuf ⟨n + 1, hn⟩) (oBuf_whole ⟨n + 1, hn⟩) accBuf (Memref.isWhole_whole _) (fun h => absurd ((atFirst_iff ⟨n + 1, hn⟩).mp h) (Nat.succ_ne_zero n)) (fun h => h7 ((atLast_iff ⟨n + 1, hn⟩).mp h)) (tile V c 0 ⟨n + 1, hn⟩) (heldAt c n (Nat.lt_of_succ_lt hn)).2)

/-- `heldAt` at tile 0. -/
theorem heldAt_first (c : Dev nD) (t : Fin cfg0.N) (h0 : t.val = 0) (h7 : ¬t.val = 7) :
    heldAt V c t.val t.isLt = (outView.read (Elt F) outView.junk, accFirst c (grid0.coords t) (xBuf t) (xBuf_whole t) (oBuf t) (oBuf_whole t) accBuf (Memref.isWhole_whole _) ((atFirst_iff t).mpr h0) (fun h => h7 ((atLast_iff t).mp h)) (tile V c 0 t)) := by
  obtain ⟨n, hn⟩ := t
  cases n with
  | zero => exact rfl
  | succ n => exact absurd h0 (Nat.succ_ne_zero n)

/-- `heldAt` at a middle tile: over what the tile before left. -/
theorem heldAt_mid (c : Dev nD) (t : Fin cfg0.N) (h0 : ¬t.val = 0) (h7 : ¬t.val = 7) :
    heldAt V c t.val t.isLt = (outView.read (Elt F) outView.junk, accMid c (grid0.coords t) (xBuf t) (xBuf_whole t) (oBuf t) (oBuf_whole t) accBuf (Memref.isWhole_whole _) (fun h => h0 ((atFirst_iff t).mp h)) (fun h => h7 ((atLast_iff t).mp h)) (tile V c 0 t) (heldAt V c (t.val - 1) (Nat.lt_of_le_of_lt (Nat.sub_le _ _) t.isLt)).2) := by
  obtain ⟨n, hn⟩ := t
  cases n with
  | zero => exact absurd rfl h0
  | succ n => exact (dif_neg h7).trans rfl

/-- `heldAt` at the last tile: over what the tile before left. -/
theorem heldAt_last (c : Dev nD) (t : Fin cfg0.N) (h0 : ¬t.val = 0) (h7 : t.val = 7) :
    heldAt V c t.val t.isLt = (outLast c (grid0.coords t) (xBuf t) (xBuf_whole t) (oBuf t) (oBuf_whole t) accBuf (Memref.isWhole_whole _) (fun h => h0 ((atFirst_iff t).mp h)) ((atLast_iff t).mpr h7) (tile V c 0 t) (heldAt V c (t.val - 1) (Nat.lt_of_le_of_lt (Nat.sub_le _ _) t.isLt)).2, accLast c (grid0.coords t) (xBuf t) (xBuf_whole t) (oBuf t) (oBuf_whole t) accBuf (Memref.isWhole_whole _) (fun h => h0 ((atFirst_iff t).mp h)) ((atLast_iff t).mpr h7) (tile V c 0 t) (heldAt V c (t.val - 1) (Nat.lt_of_le_of_lt (Nat.sub_le _ _) t.isLt)).2) := by
  obtain ⟨n, hn⟩ := t
  cases n with
  | zero => exact absurd rfl h0
  | succ n => exact (dif_pos h7).trans rfl

/-- The region's invariant before tile `n`: at the first tile what the region is entered with; afterwards the accumulator
    at what the tile before left, the later region's scoped buffers at some contents, the random-number register at some state. -/
def Inv (c : Dev nD) : (n : ℕ) → n ≤ cfg0.N → sProp 𝕄
  | 0, _ => Pipeline.ΦA spec0 c
  | n + 1, hn => iprop(iprop(owns (c : Thread nD τ) accBuf fullShare ((heldAt V c n hn).2) ∗ laterScoped (F := F) c) ∗ (∃ r, prngReg c r))

theorem Inv_zero (c : Dev nD) (n : ℕ) (h : n ≤ cfg0.N) (hz : n = 0) : Inv V c n h = Pipeline.ΦA spec0 c := by
  subst hz; rfl

theorem Inv_succ (c : Dev nD) (n : ℕ) (hn : n < cfg0.N) :
    Inv V c (n + 1) hn = iprop(iprop(owns (c : Thread nD τ) accBuf fullShare ((heldAt V c n hn).2) ∗ laterScoped (F := F) c) ∗ (∃ r, prngReg c r)) := rfl

theorem Inv_pos (c : Dev nD) (n : ℕ) (h : n ≤ cfg0.N) (hz : n ≠ 0) :
    Inv V c n h = iprop(iprop(owns (c : Thread nD τ) accBuf fullShare ((heldAt V c (n - 1) (by omega)).2) ∗ laterScoped (F := F) c) ∗ (∃ r, prngReg c r)) := by
  cases n with
  | zero => exact absurd rfl hz
  | succ n => rfl

end Region

/-! ## The proof data -/

/-- The proof data of region 0 at the entry contents `V`. -/
def dat (V : Entry F) (c : Dev nD) : Dat τ (Elt F) Unit ℕ (UR sig nD τ) ℕ cfg0 c where
  A w := V c (Pipeline.arrRef spec0 w)
  after w t := match w with
    | ⟨0, _⟩ => tile V c 0 t
    | ⟨1, _⟩ => (heldAt V c t.val t.isLt).1
  Φ t := Inv V c t.val (Nat.le_of_lt_succ t.isLt)
  q _ := fullShare
  owed _ := 0

theorem A_eq (V : Entry F) (c : Dev nD) (w : Fin cfg0.W) : (dat V c).A w = V c (Pipeline.arrRef spec0 w) := by
  dsimp only [dat]
theorem q_eq (V : Entry F) (c : Dev nD) (w : Fin cfg0.W) : (dat V c).q w = fullShare := by
  dsimp only [dat]
theorem owed_eq (V : Entry F) (c : Dev nD) (t : Fin (cfg0.N + 1)) : (dat V c).owed t = 0 := by
  dsimp only [dat]
theorem recorded_eq (V : Entry F) (c : Dev nD) (t : Fin (cfg0.N + 1)) : (dat V c).recorded t = Set.univ := by
  dsimp only [dat]

section Body
variable (V : Entry F)

theorem Inv_castSucc (c : Dev nD) (t : Fin cfg0.N) :
    (dat V c).Φ t.castSucc = Inv V c t.val (Nat.le_of_lt t.isLt) := by
  dsimp only [dat]; simp only [Fin.coe_castSucc]

theorem after_x (c : Dev nD) (t : Fin cfg0.N) : (dat V c).after 0 t = tile V c 0 t := by dsimp only [dat]
theorem after_out (c : Dev nD) (t : Fin cfg0.N) : (dat V c).after 1 t = (heldAt V c t.val t.isLt).1 := by dsimp only [dat]

theorem before_x (c : Dev nD) (t : Fin cfg0.N) (d) : (dat V c).before 0 t d = tile V c 0 t :=
  xBefore_of V (dat V c) (A_eq V c 0) (after_x V c) t d

/-! ## The body obligation -/

/-- What the body is called with at tile `t`, -/
def bodyPre (c : Dev nD) (t : Fin cfg0.N) : sProp 𝕄 :=
  iprop((dat V c).Φ t.castSucc ∗ (dat V c).owesAt () t.castSucc
    ∗ (∃ d, owns (c : Thread nD τ) (xBuf t) fullShare ((dat V c).before 0 t d))
    ∗ (∃ d, owns (c : Thread nD τ) (oBuf t) fullShare ((dat V c).before 1 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x]
  rw [show (dat V c).owesAt () t.succ = (dat V c).owesAt () t.castSucc from rfl]
  rw [show (dat V c).Φ t.succ = Inv V c (t.val + 1) t.isLt from rfl, Inv_succ]
  have hN : t.val < 8 := lt_of_lt_of_eq t.isLt (show cfg0.N = 8 from N_0)
  rw [show (dat V c).leavesExact 0 t = owns (c : Thread nD τ) (xBuf t) fullShare ((dat V c).after 0 t) from by
    unfold Dat.leavesExact; rw [xLive t], after_x]
  by_cases h0 : t.val = 0
  · have h7 : ¬t.val = 7 := by omega
    rw [Dat.leavesExact_idle (dat V c) 1 t (outIdle t (fun h => h7 ((atLast_iff t).mp h))) (outKept t (fun h => h7 ((atLast_iff t).mp h)))]
    rw [heldAt_first V c t h0 h7]
    unfold accFirst; (try dsimp only)
    rw [Inv_castSucc V c t, Inv_zero V c _ _ h0, entry_eq]
    iintro ⟨⟨⟨HA, HL⟩, Hg⟩, Ho, ⟨%d0, H0⟩, ⟨%d1, H1⟩⟩
    iapply ((runFirst c (grid0.coords t) _ _ _ _ _ _ ((atFirst_iff t).mpr h0) (fun h => h7 ((atLast_iff t).mp h)) (tile V c 0 t)).2.2 _ Set.univ _)
    isplitl [H0]; · iexact H0
    isplitl [H1]; · iexact H1
    isplitl [HA]; · iexact HA
    iintro ⟨H0, H1, ⟨%ea, HA⟩⟩
    isplitl [HA HL Hg]
    · isplitl [HA HL]
      · isplitl [HA]
        · unfold owns; iexists _; isplitr
          swap; · iexact HA
          ipureintro; exact View.read_writes_of_cover _ _ _ _ _ (accCover_first c _ _ _ _ _ _ _ _ _ _)
        iexact HL
      iexact Hg
    isplitl [Ho]; · iexact Ho
    isplitl [H0]; · iexact H0
    iexists _; iexact H1
  · by_cases h7 : t.val = 7
    · rw [show (dat V c).leavesExact 1 t = owns (c : Thread nD τ) (oBuf t) fullShare ((dat V c).after 1 t) from by
        unfold Dat.leavesExact; rw [outLive t ((atLast_iff t).mpr h7)], after_out]
      rw [heldAt_last V c t h0 h7]
      unfold outLast accLast; (try dsimp only)
      rw [Inv_castSucc V c t, Inv_pos V c _ _ h0]
      iintro ⟨⟨⟨HA, HL⟩, Hg⟩, Ho, ⟨%d0, H0⟩, ⟨%d1, H1⟩⟩
      iapply ((runLast c (grid0.coords t) _ _ _ _ _ _ (fun h => h0 ((atFirst_iff t).mp h)) ((atLast_iff t).mpr h7) (tile V c 0 t) _).2.2 Set.univ _)
      isplitl [H0]; · iexact H0
      isplitl [H1]; · iexists _; iexact H1
      isplitl [HA]; · iexact HA
      iintro ⟨H0, ⟨%e1, H1⟩, ⟨%ea, HA⟩⟩
      isplitl [HA HL Hg]
      · isplitl [HA HL]
        · isplitl [HA]
          · unfold owns; iexists _; isplitr
            swap; · iexact HA
            ipureintro; exact View.read_writes_of_cover _ _ _ _ _ (accCover_last c _ _ _ _ _ _ _ _ _ _ _)
          iexact HL
        iexact Hg
      isplitl [Ho]; · iexact Ho
      isplitl [H0]; · iexact H0
      unfold owns; iexists _; isplitr
      swap; · iexact H1
      ipureintro; exact View.read_writes_of_cover _ _ _ _ _ (outCover_last c _ _ _ _ _ _ _ _ _ _ _)
    · rw [Dat.leavesExact_idle (dat V c) 1 t (outIdle t (fun h => h7 ((atLast_iff t).mp h))) (outKept t (fun h => h7 ((atLast_iff t).mp h)))]
      rw [heldAt_mid V c t h0 h7]
      unfold accMid; (try dsimp only)
      rw [Inv_castSucc V c t, Inv_pos V c _ _ h0]
      iintro ⟨⟨⟨HA, HL⟩, Hg⟩, Ho, ⟨%d0, H0⟩, ⟨%d1, H1⟩⟩
      iapply ((runMid c (grid0.coords t) _ _ _ _ _ _ (fun h => h0 ((atFirst_iff t).mp h)) (fun h => h7 ((atLast_iff t).mp h)) (tile V c 0 t) _).2.2 _ Set.univ _)
      isplitl [H0]; · iexact H0
      isplitl [H1]; · iexact H1
      isplitl [HA]; · iexact HA
      iintro ⟨H0, H1, ⟨%ea, HA⟩⟩
      isplitl [HA HL Hg]
      · isplitl [HA HL]
        · isplitl [HA]
          · unfold owns; iexists _; isplitr
            swap; · iexact HA
            ipureintro; exact View.read_writes_of_cover _ _ _ _ _ (accCover_mid c _ _ _ _ _ _ _ _ _ _ _)
          iexact HL
        iexact Hg
      isplitl [Ho]; · iexact Ho
      isplitl [H0]; · iexact H0
      iexists _; iexact H1

end Body

theorem body_obligation (V : Entry F) (c : Dev nD) : BodyObligation (dat (F := F) V c) (defs₀ (F := F)) Variants.none () Set.univ := fun t => by
  rw [bigSep_W0, bigSep_W0]
  exact sound_body V c t

theorem hin (V : Entry F) (c : Dev nD) : (Pipeline.ΦA spec0 c : sProp 𝕄) ⊢ (dat V c).Φ 0 := by
  rw [show (dat V c).Φ 0 = Inv V c 0 (Nat.zero_le _) from rfl, Inv_zero V c 0 _ rfl]
  try exact Idealize.SL.BI.Entails.refl _

/-- After any tile the invariant gives the entry form back: the accumulator's named contents are forgotten. -/
theorem Inv_out (V : Entry F) (c : Dev nD) (t : Fin (cfg0.N + 1)) (ht : t.val ≠ 0) : (dat V c).Φ t ⊢ (Pipeline.ΦA spec0 c : sProp 𝕄) := by
  rw [show (dat V c).Φ t = Inv V c t.val (Nat.le_of_lt_succ t.isLt) from rfl, Inv_pos V c _ _ ht, entry_eq]
  iintro ⟨⟨HA, HL⟩, Hg⟩
  isplitl [HA HL]
  · isplitl [HA]
    · iexists _; iexact HA
    iexact HL
  iexact Hg

theorem hout (V : Entry F) (c : Dev nD) : (dat V c).Φ (Fin.last cfg0.N) ⊢ (Pipeline.ΦA spec0 c : sProp 𝕄) :=
  Inv_out V c _ (by rw [Fin.val_last]; have : cfg0.N = 8 := N_0; omega)

/-! ## The cases' pieces as the body's arithmetic -/

theorem zero2 : (![0, 0] : Fin 2 → Nat) = fun _ => 0 := funext fun a => by fin_cases a <;> rfl
theorem zero3 : (![0, 0, 0] : Fin 3 → Nat) = fun _ => 0 := funext fun a => by fin_cases a <;> rfl

/-- The first tile leaves the zero block plus the tile's column sums. -/
theorem accFirst_eq (c : Dev nD) (i : grid0.Coords) (a1 : Memref sig .tc .vmem S4x512x1024 .f32) (h1 : a1.IsWhole) (a2 : Memref sig .tc .vmem S4x1024 .f32) (h2 : a2.IsWhole) (a3 : Memref sig .tc .vmem S4x1024 .f32) (h3 : a3.IsWhole) (h0 : atFirst i) (h7 : ¬atLast i)
    (x0 : Vec F S4x512x1024 .f32) :
    accFirst c i a1 h1 a2 h2 a3 h3 h0 h7 x0 = k0_pay2 (k0_pay1 (F := F)) x0 := by
  unfold accFirst
  rw [View.read_writes_eq_canon _ _ _ (accCover_first c i a1 h1 a2 h2 a3 h3 h0 h7 x0)]
  unfold runFirst
  dsimp only
  sl_unfold_words
  rw [View.canon_cons_unit_zero (S := S4x1024) zero2, View.readCov_unit_zero (S := S4x1024) _ zero2]
  simp only [View.readAt_eq_ld, h1.read_unread, View.ld_unit_zero (S := S4x512x1024) zero3]

/-- A middle tile adds its column sums onto what the accumulator held. -/
theorem accMid_eq (c : Dev nD) (i : grid0.Coords) (a1 : Memref sig .tc .vmem S4x512x1024 .f32) (h1 : a1.IsWhole) (a2 : Memref sig .tc .vmem S4x1024 .f32) (h2 : a2.IsWhole) (a3 : Memref sig .tc .vmem S4x1024 .f32) (h3 : a3.IsWhole) (h0 : ¬atFirst i) (h7 : ¬atLast i)
    (x0 : Vec F S4x512x1024 .f32) (xa : Vec F S4x1024 .f32) :
    accMid c i a1 h1 a2 h2 a3 h3 h0 h7 x0 xa = k0_pay2 xa x0 := by
  unfold accMid
  rw [View.read_writes_eq_canon _ _ _ (accCover_mid c i a1 h1 a2 h2 a3 h3 h0 h7 x0 xa)]
  unfold runMid
  dsimp only
  try sl_unfold_words
  rw [View.canon_unit_zero zero2]
  simp only [View.readAt_eq_ld, h1.read_unread, h3.read_unread, View.ld_unit_zero (S := S4x512x1024) zero3, View.ld_unit_zero (S := S4x1024) zero2]

/-- So does the last tile, -/
theorem accLast_eq (c : Dev nD) (i : grid0.Coords) (a1 : Memref sig .tc .vmem S4x512x1024 .f32) (h1 : a1.IsWhole) (a2 : Memref sig .tc .vmem S4x1024 .f32) (h2 : a2.IsWhole) (a3 : Memref sig .tc .vmem S4x1024 .f32) (h3 : a3.IsWhole) (h0 : ¬atFirst i) (h7 : atLast i)
    (x0 : Vec F S4x512x1024 .f32) (xa : Vec F S4x1024 .f32) :
    accLast c i a1 h1 a2 h2 a3 h3 h0 h7 x0 xa = k0_pay2 xa x0 := by
  unfold accLast
  rw [View.read_writes_eq_canon _ _ _ (accCover_last c i a1 h1 a2 h2 a3 h3 h0 h7 x0 xa)]
  unfold runLast
  dsimp only
  try sl_unfold_words
  rw [View.canon_unit_zero zero2]
  simp only [View.readAt_eq_ld, h1.read_unread, h3.read_unread, View.ld_unit_zero (S := S4x512x1024) zero3, View.ld_unit_zero (S := S4x1024) zero2]

/-- and the output block gets a copy of the accumulator. -/
theorem outLast_eq (c : Dev nD) (i : grid0.Coords) (a1 : Memref sig .tc .vmem S4x512x1024 .f32) (h1 : a1.IsWhole) (a2 : Memref sig .tc .vmem S4x1024 .f32) (h2 : a2.IsWhole) (a3 : Memref sig .tc .vmem S4x1024 .f32) (h3 : a3.IsWhole) (h0 : ¬atFirst i) (h7 : atLast i)
    (x0 : Vec F S4x512x1024 .f32) (xa : Vec F S4x1024 .f32) :
    outLast c i a1 h1 a2 h2 a3 h3 h0 h7 x0 xa = k0_pay2 xa x0 := by
  unfold outLast
  rw [View.read_writes_eq_canon _ _ _ (outCover_last c i a1 h1 a2 h2 a3 h3 h0 h7 x0 xa)]
  unfold runLast
  dsimp only
  try sl_unfold_words
  rw [View.canon_unit_zero zero2, View.readCov_unit_zero (S := S4x1024) _ zero2]
  simp only [View.readAt_eq_ld, h1.read_unread, h3.read_unread, View.ld_unit_zero (S := S4x512x1024) zero3, View.ld_unit_zero (S := S4x1024) zero2]

/-! ## The accumulator is the running column sum -/

/-- The accumulator after tile `n` as the body's arithmetic: the zero block, then each tile's column sums added. -/
def colAcc (V : Entry F) (c : Dev nD) : (n : ℕ) → n < cfg0.N → Vec F S4x1024 .f32
  | 0, h => k0_pay2 (k0_pay1 (F := F)) (tile V c 0 ⟨0, h⟩)
  | n + 1, h => k0_pay2 (colAcc V c n (Nat.lt_of_succ_lt h)) (tile V c 0 ⟨n + 1, h⟩)

/-- What the accumulator is left holding, tile by tile, is that chain. -/
theorem heldAt_acc (V : Entry F) (c : Dev nD) : ∀ (n : ℕ) (h : n < cfg0.N), (heldAt V c n h).2 = colAcc V c n h
  | 0, h => by
    rw [heldAt_first V c ⟨0, h⟩ rfl (show ¬((0 : ℕ) = 7) from by decide)]
    dsimp only
    exact accFirst_eq c (grid0.coords ⟨0, h⟩) (xBuf ⟨0, h⟩) (xBuf_whole ⟨0, h⟩) (oBuf ⟨0, h⟩) (oBuf_whole ⟨0, h⟩) accBuf (Memref.isWhole_whole _) _ _ (tile V c 0 ⟨0, h⟩)
  | n + 1, h => by
    by_cases h7 : n + 1 = 7
    · rw [heldAt_last V c ⟨n + 1, h⟩ (Nat.succ_ne_zero n) h7]
      dsimp only
      rw [accLast_eq]
      show k0_pay2 (heldAt V c n _).2 _ = k0_pay2 (colAcc V c n _) _
      rw [heldAt_acc V c n]
    · rw [heldAt_mid V c ⟨n + 1, h⟩ (Nat.succ_ne_zero n) h7]
      dsimp only
      rw [accMid_eq]
      show k0_pay2 (heldAt V c n _).2 _ = k0_pay2 (colAcc V c n _) _
      rw [heldAt_acc V c n]

theorem lt7 : (7 : ℕ) < cfg0.N := by rw [show cfg0.N = 8 from N_0]; decide

/-- The chain after the last tile, as contents of the output array (whose one block is the whole array). -/
abbrev total (V : Entry F) (c : Dev nD) : Buf (Elt F) ((c : Thread nD τ).loc main_v4) := colAcc V c 7 lt7

/-- The output block after the last tile holds it. -/
theorem heldAt_out (V : Entry F) (c : Dev nD) (t : Fin cfg0.N) (h7 : t.val = 7) : (heldAt V c t.val t.isLt).1 = total V c := by
  obtain ⟨n, hn⟩ := t
  have h7' : n = 7 := h7
  subst h7'
  rw [heldAt_last V c ⟨7, hn⟩ (show ¬((7 : ℕ) = 0) from by decide) rfl]
  dsimp only
  rw [outLast_eq, heldAt_acc]
  rfl

/-- The one write-back, at tile 7, writes it: block (0, 0) of the output array is the array. -/
theorem flushed_eq (V : Entry F) (c : Dev nD) (t : Fin cfg0.N) (hf : (cfg0.win 1).flush t = true) :
    (dat V c).flushed 1 t = ((cfg0.win 1).blk t).view.read (Elt F) (total V c) := by
  have hN : cfg0.N = 8 := N_0
  have h7 : t.val = 7 := by have := (flush0_1 t).mp hf; have := t.isLt; omega
  obtain rfl : t = t0_7 := Fin.ext h7
  show (cfg0.win 1).cut (grid0.coords t0_7) ((dat V c).after 1 t0_7) = _
  rw [after_out, heldAt_out V c t0_7 rfl]
  have hz' : (fun a => win0_1.index t0_7 a * main_v4.ty.shape.size a) = fun _ => 0 := funext fun a => by fin_cases a <;> decide
  exact (Memref.read_access_unit_zero (Elt F) main_v4 hz' (fun a => by rw [congrFun hz' a]; simp) (total V c)).symm

/-- So the output array ends holding the chain after the last tile. -/
theorem arr_eq_total (V : Entry F) (c : Dev nD) : (dat V c).arrAt 1 cfg0.N = total V c :=
  (dat V c).arrAt_eq_of_cover 1 (total V c) (flushed_eq V c) fun i =>
    ⟨t0_7, (flush0_1 t0_7).mpr rfl, by
      show i ∈ ((View.whole main_v4).slice (win0_1.rect t0_7)).set
      rw [View.set_slice_whole, Rect.mem_set_unit]
      intro a
      have h0 : (i 0 : Nat) < 4 := (i 0).isLt
      have h1 : (i 1 : Nat) < 1024 := (i 1).isLt
      match a with
      | ⟨0, _⟩ => show win0_1.index t0_7 0 * win0_1.size 0 ≤ (i 0 : Nat) ∧ (i 0 : Nat) < win0_1.index t0_7 0 * win0_1.size 0 + win0_1.xsize (grid0.coords t0_7) 0
                  rw [show win0_1.index t0_7 0 * win0_1.size 0 = 0 from by decide +kernel, show win0_1.xsize (grid0.coords t0_7) 0 = 4 from by decide +kernel]; omega
      | ⟨1, _⟩ => show win0_1.index t0_7 1 * win0_1.size 1 ≤ (i 1 : Nat) ∧ (i 1 : Nat) < win0_1.index t0_7 1 * win0_1.size 1 + win0_1.xsize (grid0.coords t0_7) 1
                  rw [show win0_1.index t0_7 1 * win0_1.size 1 = 0 from by decide +kernel, show win0_1.xsize (grid0.coords t0_7) 1 = 1024 from by decide +kernel]; omega⟩

/-! ## At the exact reals: the chain is the sum over the sequence axis -/

section Exact
open Idealize.ShloMosaic.ValueIdx

/-- The x window's block at tile `t` is rows `512 t … 512 t + 511` of x. -/
theorem tile_apply (V : Entry F) (c : Dev nD) (t : Fin cfg0.N) (x : S4x512x1024.Idx) (k : S4x4096x1024.Idx)
    (hk0 : (k 0).val = (x 0).val) (hk1 : (k 1).val = 512 * t.val + (x 1).val) (hk2 : (k 2).val = (x 2).val) :
    (tile V c 0 t : Vec F S4x512x1024 .f32) x = (V c main_arg0 : S4x4096x1024.Idx → Elt F .f32) k := by
  have hi : win0_0.index t 0 = 0 ∧ win0_0.index t 1 = t.val ∧ win0_0.index t 2 = 0 := by
    rcases fin_N0 t with rfl | rfl | rfl | rfl | rfl | rfl | rfl | rfl <;> decide
  unfold tile
  rw [View.read_apply]
  show V c main_arg0 _ = V c main_arg0 _
  congr 1
  funext a
  apply Fin.ext
  match a with
  | ⟨0, _⟩ => show win0_0.index t 0 * 4 + 1 * (x 0).val = (k 0).val; rw [hi.1, hk0]; omega
  | ⟨1, _⟩ => show win0_0.index t 1 * 512 + 1 * (x 1).val = (k 1).val; rw [hi.2.1, hk1]; omega
  | ⟨2, _⟩ => show win0_0.index t 2 * 1024 + 1 * (x 2).val = (k 2).val; rw [hi.2.2, hk2]; omega

/-- The x array and its tiles at the exact reals, at their literal types. -/
abbrev xarr (V : Entry Ideal) (c : Dev nD) : S4x4096x1024.Idx → EReal := V c main_arg0
abbrev xtile (V : Entry Ideal) (c : Dev nD) (t : Fin cfg0.N) : S4x512x1024.Idx → EReal := tile V c 0 t

/-- x at batch entry `b`, sequence position `k` and feature `e`; zero past the sequence's end. -/
def xAt (x : S4x4096x1024.Idx → EReal) (b : Fin 4) (e : Fin 1024) (k : ℕ) : EReal :=
  if h : k < 4096 then x (ix3 b ⟨k, h⟩ e) else 0

/-- The zero block is zero. -/
theorem pay1_apply (b : Fin 4) (e : Fin 1024) : (k0_pay1 (F := Ideal) : S4x1024.Idx → EReal) (ix2 b e) = 0 := by
  unfold k0_pay1
  refine (congrFun (shapeCast_self _ _) (ix2 b e)).trans ?_
  exact Ideal.ofBits_zero_f32

/-- One accumulation step at an entry: what was there plus the tile's sum down its 512 rows. -/
theorem pay2_apply (xa : S4x1024.Idx → EReal) (x0 : S4x512x1024.Idx → EReal) (b : Fin 4) (e : Fin 1024) :
    (k0_pay2 (F := Ideal) xa x0 : S4x1024.Idx → EReal) (ix2 b e) = xa (ix2 b e) + ∑ r : Fin 512, x0 (ix3 b r e) := by
  unfold k0_pay2
  refine (congrFun (shapeCast_self _ _) (ix2 b e)).trans ?_
  refine congrArg (fun z => xa (ix2 b e) + z) ?_
  exact (Ideal.multiReduction_add_single (φ := .f32) x0 _ reduces_S4x512x1024_S4x1024 _ _ (ix2 b e)).trans
    (Finset.sum_congr rfl fun k _ => congrArg x0 (funext fun ax => Fin.ext (by
      match ax with
      | ⟨0, _⟩ => rfl
      | ⟨1, _⟩ => rfl
      | ⟨2, _⟩ => rfl)))

/-- A tile's sum down its rows is x summed over the tile's 512 sequence positions. -/
theorem tile_sum (V : Entry Ideal) (c : Dev nD) (t : Fin cfg0.N) (b : Fin 4) (e : Fin 1024) :
    ∑ r : Fin 512, xtile V c t (ix3 b r e) = ∑ r ∈ Finset.range 512, xAt (xarr V c) b e (512 * t.val + r) := by
  rw [← Fin.sum_univ_eq_sum_range (fun r => xAt (xarr V c) b e (512 * t.val + r)) 512]
  refine Finset.sum_congr rfl fun r _ => ?_
  have hN : cfg0.N = 8 := N_0
  have hlt : 512 * t.val + r.val < 4096 := by have := t.isLt; have := r.isLt; omega
  unfold xAt
  rw [dif_pos hlt]
  exact tile_apply V c t (ix3 b r e) (ix3 b ⟨512 * t.val + r.val, hlt⟩ e) rfl rfl rfl

/-- After tile `n` the accumulator holds x summed over the first `512 (n + 1)` sequence positions. -/
theorem colAcc_apply (V : Entry Ideal) (c : Dev nD) (b : Fin 4) (e : Fin 1024) :
    ∀ (n : ℕ) (h : n < cfg0.N), (colAcc V c n h : S4x1024.Idx → EReal) (ix2 b e) = ∑ k ∈ Finset.range (512 * (n + 1)), xAt (xarr V c) b e k
  | 0, h => by
    show (k0_pay2 (F := Ideal) (k0_pay1 (F := Ideal)) (xtile V c ⟨0, h⟩) : S4x1024.Idx → EReal) (ix2 b e) = _
    refine (pay2_apply (k0_pay1 (F := Ideal)) (xtile V c ⟨0, h⟩) b e).trans ?_
    rw [pay1_apply, zero_add, tile_sum]
    refine Finset.sum_congr rfl fun r _ => ?_
    show xAt (xarr V c) b e (512 * 0 + r) = _
    rw [Nat.mul_zero, Nat.zero_add]
  | n + 1, h => by
    show (k0_pay2 (F := Ideal) (colAcc V c n (Nat.lt_of_succ_lt h)) (xtile V c ⟨n + 1, h⟩) : S4x1024.Idx → EReal) (ix2 b e) = _
    refine (pay2_apply (colAcc V c n (Nat.lt_of_succ_lt h)) (xtile V c ⟨n + 1, h⟩) b e).trans ?_
    rw [colAcc_apply V c b e n (Nat.lt_of_succ_lt h), tile_sum]
    rw [show 512 * (n + 1 + 1) = 512 * (n + 1) + 512 from by omega, Finset.sum_range_add]

/-- After the last tile: the sum over the whole sequence. -/
theorem total_apply (V : Entry Ideal) (c : Dev nD) (b : Fin 4) (e : Fin 1024) :
    (colAcc V c 7 lt7 : S4x1024.Idx → EReal) (ix2 b e) = ∑ k : Fin 4096, xarr V c (ix3 b k e) := by
  rw [colAcc_apply V c b e 7 lt7, show 512 * (7 + 1) = 4096 from rfl,
    ← Fin.sum_univ_eq_sum_range (fun k => xAt (xarr V c) b e k) 4096]
  refine Finset.sum_congr rfl fun k _ => ?_
  unfold xAt
  rw [dif_pos k.isLt]

/-- At the exact reals the output array ends holding the column sums of the x array the region found. -/
theorem final (V : Entry Ideal) (c : Dev nD) :
    ((dat (F := Ideal) V c).arrAt 1 cfg0.N : S4x1024.Idx → EReal) = Cert.Spec.xsum (V c main_arg0) :=
  (arr_eq_total V c).trans (funext fun (j : S4x1024.Idx) =>
    (congrArg (colAcc V c 7 lt7 : S4x1024.Idx → EReal) (eq_ix2 j)).trans (total_apply V c (j 0) (j 1)))

end Exact

end Cert.Kernel.Sum

end
-- ==== Proof.KbBcast.lean ====
/-
  Region 1 of the kernel's program: one small matrix product, then the same rows written at every sequence
  position.  At the first tile the column sums (one row per batch entry) are multiplied by the combined weight
  into a scratch buffer; every tile of the output then receives that buffer's rows, repeated down the tile.
-/
import proofs.«110568_j7017976561954_1_alg».proof.Proof.Gen.Kernel.Launch
import proofs.«110568_j7017976561954_1_alg».proof.Proof.Gen.Kernel.Skeleton
import proofs.«110568_j7017976561954_1_alg».proof.Proof.Gen.Kernel.Points
import proofs.«110568_j7017976561954_1_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueLayout
import Idealize.ShloMosaic.PureOps.Ideal.Laws

set_option maxRecDepth 16384

noncomputable section

namespace Cert.Kernel.Bcast

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The contents a core's buffers hold when the region is entered. -/
abbrev Entry (F : FTy → Type) : Type := (c : Dev nD) → (b : Ref sig .tc) → Buf (Elt F) ((c : Thread nD τ).loc b)

/-! ## The branch of the body -/

/-- The body's one condition, from the grid coordinate: "this is the first tile". -/
abbrev isFirst (i : grid1.Coords) : Prop :=
  (Scalar.cmpi .ne (Scalar.extui (Scalar.cmpi .eq (BitVec.ofNat 32 (i 0).val) 0#32)) 0#32) = 1#1

/-- It holds at tile 0 and at no other of the eight: decided over the grid. -/
theorem isFirst_iff : ∀ t : Fin cfg1.N, isFirst (grid1.coords t) ↔ t.val % 8 = 0 :=
  (by decide +kernel : ∀ t : Fin grid1.N, isFirst (grid1.coords t) ↔ t.val % 8 = 0)

/-! ## The body on any whole buffers -/

/-- The scratch that holds the product's rows from the first tile on. -/
abbrev rowsBuf : Memref sig .tc .vmem S4x1024 .f32 := Memref.whole cc1_scratch0

set_option maxHeartbeats 1000000 in
/-- The first tile: the two operands are read whole, their product is stored over the whole scratch, read back
    and repeated down the output tile.  The pieces each written buffer ends with are found by running the body. -/
noncomputable def runFirst (c : Dev nD) (i : grid1.Coords)
    (arg1 : Memref sig .tc .vmem S4x1024 .f32) (harg1 : arg1.IsWhole)
    (arg2 : Memref sig .tc .vmem S1024x1024 .f32) (harg2 : arg2.IsWhole)
    (arg3 : Memref sig .tc .vmem S4x512x1024 .f32) (harg3 : arg3.IsWhole)
    (arg4 : Memref sig .tc .vmem S4x1024 .f32) (harg4 : arg4.IsWhole) (hc : isFirst i)
    (x0 : Vec F S4x1024 .f32) (x1 : Vec F S1024x1024 .f32) :
    Σ' (Lout : List (View.Piece (Elt F) S4x512x1024 .f32)), { Lrows : List (View.Piece (Elt F) S4x1024 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f Lout)
                ∗ (∃ f, arg4.view.loc (c : Thread nD τ) ↦[arg4.view.set]{fullShare} arg4.view.writes (Elt F) f Lrows)) -∗ K ⟨⟩))
          ⊢ wp frame (wpE (defs₀ (F := F)) Variants.none c none) E (cc1__bcast_kernel i arg1 harg1 arg2 harg2 arg3 harg3 arg4 harg4) K } := by
  refine ⟨?_, ?_, fun E K => ?run⟩
  case run =>
    simp only [cc1__bcast_kernel_eq_skeleton]; unfold cc1__bcast_kernel_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

set_option maxHeartbeats 1000000 in
/-- A later tile: the scratch is read and its rows repeated down the output tile; nothing else is touched. -/
noncomputable def runLater (c : Dev nD) (i : grid1.Coords)
    (arg1 : Memref sig .tc .vmem S4x1024 .f32) (harg1 : arg1.IsWhole)
    (arg2 : Memref sig .tc .vmem S1024x1024 .f32) (harg2 : arg2.IsWhole)
    (arg3 : Memref sig .tc .vmem S4x512x1024 .f32) (harg3 : arg3.IsWhole)
    (arg4 : Memref sig .tc .vmem S4x1024 .f32) (harg4 : arg4.IsWhole) (hc : ¬isFirst i)
    (xs : Vec F S4x1024 .f32) :
    { Lout : List (View.Piece (Elt F) S4x512x1024 .f32) //
      ∀ (E : Set ℕ) (K : PUnit → sProp 𝕄),
        iprop((∃ d, owns (c : Thread nD τ) arg3 fullShare d) ∗ owns (c : Thread nD τ) arg4 fullShare xs
            ∗ (iprop((∃ f, arg3.view.loc (c : Thread nD τ) ↦[arg3.view.set]{fullShare} arg3.view.writes (Elt F) f Lout)
                ∗ owns (c : Thread nD τ) arg4 fullShare xs) -∗ K ⟨⟩))
          ⊢ wp frame (wpE (defs₀ (F := F)) Variants.none c none) E (cc1__bcast_kernel i arg1 harg1 arg2 harg2 arg3 harg3 arg4 harg4) K } := by
  refine ⟨?_, fun E K => ?run⟩
  case run =>
    simp only [cc1__bcast_kernel_eq_skeleton]; unfold cc1__bcast_kernel_skel
    unfold owns
    iintro ⟨⟨%d2, %f2, -, H2⟩, ⟨%f3, %hf3, H3⟩, Hk⟩
    obtain rfl := harg4.eq_unread hf3
    sl_exec (disch := first | exact hc)
    sl_step
    iapply Hk
    isplitl [H2]; · iexists _; iexact H2
    iexists _; isplitr; · ipureintro; exact harg4.read_unread _
    iexact H3

/-! ## What the runs leave, as values -/

theorem hz2 : (![0, 0] : Fin 2 → Nat) = fun _ => 0 := by funext a; fin_cases a <;> rfl
theorem hz3 : (![0, 0, 0] : Fin 3 → Nat) = fun _ => 0 := by funext a; fin_cases a <;> rfl

/-- The first tile leaves in the scratch the product of what the two operand buffers held. -/
theorem rows_first (c : Dev nD) (i : grid1.Coords)
    (arg1 : Memref sig .tc .vmem S4x1024 .f32) (harg1 : arg1.IsWhole)
    (arg2 : Memref sig .tc .vmem S1024x1024 .f32) (harg2 : arg2.IsWhole)
    (arg3 : Memref sig .tc .vmem S4x512x1024 .f32) (harg3 : arg3.IsWhole)
    (arg4 : Memref sig .tc .vmem S4x1024 .f32) (harg4 : arg4.IsWhole) (hc : isFirst i)
    (x0 : Vec F S4x1024 .f32) (x1 : Vec F S1024x1024 .f32) :
    View.canon (runFirst c i arg1 harg1 arg2 harg2 arg3 harg3 arg4 harg4 hc x0 x1).2.1 = k1_pay1 x0 x1 := by
  unfold runFirst
  dsimp only
  sl_unfold_words
  rw [View.canon_unit_zero (S := S4x1024) hz2]
  simp only [View.readAt_eq_ld, harg1.read_unread, harg2.read_unread, View.ld_unit_zero (S := S4x1024) hz2,
    View.ld_unit_zero (S := S1024x1024) hz2]

/-- And in the output tile those rows, repeated. -/
theorem out_first (c : Dev nD) (i : grid1.Coords)
    (arg1 : Memref sig .tc .vmem S4x1024 .f32) (harg1 : arg1.IsWhole)
    (arg2 : Memref sig .tc .vmem S1024x1024 .f32) (harg2 : arg2.IsWhole)
    (arg3 : Memref sig .tc .vmem S4x512x1024 .f32) (harg3 : arg3.IsWhole)
    (arg4 : Memref sig .tc .vmem S4x1024 .f32) (harg4 : arg4.IsWhole) (hc : isFirst i)
    (x0 : Vec F S4x1024 .f32) (x1 : Vec F S1024x1024 .f32) :
    View.canon (runFirst c i arg1 harg1 arg2 harg2 arg3 harg3 arg4 harg4 hc x0 x1).1 = k1_pay2 (k1_pay1 x0 x1) := by
  unfold runFirst
  dsimp only
  sl_unfold_words
  rw [View.canon_unit_zero (S := S4x512x1024) hz3]
  simp only [View.readCov_unit_zero (S := S4x1024) _ hz2, View.readAt_eq_ld, harg1.read_unread, harg2.read_unread,
    View.ld_unit_zero (S := S4x1024) hz2, View.ld_unit_zero (S := S1024x1024) hz2]

/-- A later tile leaves in the output tile the rows the scratch held, repeated. -/
theorem out_later (c : Dev nD) (i : grid1.Coords)
    (arg1 : Memref sig .tc .vmem S4x1024 .f32) (harg1 : arg1.IsWhole)
    (arg2 : Memref sig .tc .vmem S1024x1024 .f32) (harg2 : arg2.IsWhole)
    (arg3 : Memref sig .tc .vmem S4x512x1024 .f32) (harg3 : arg3.IsWhole)
    (arg4 : Memref sig .tc .vmem S4x1024 .f32) (harg4 : arg4.IsWhole) (hc : ¬isFirst i)
    (xs : Vec F S4x1024 .f32) :
    View.canon (runLater c i arg1 harg1 arg2 harg2 arg3 harg3 arg4 harg4 hc xs).1 = k1_pay2 xs := by
  unfold runLater
  dsimp only
  sl_unfold_words
  rw [View.canon_unit_zero (S := S4x512x1024) hz3]
  simp only [View.readAt_eq_ld, harg4.read_unread, View.ld_unit_zero (S := S4x1024) hz2]

/-- Each run's one store into a buffer is through the whole-buffer rectangle, so it covers the buffer. -/
theorem cover_rows_first (c : Dev nD) (i : grid1.Coords)
    (arg1 : Memref sig .tc .vmem S4x1024 .f32) (harg1 : arg1.IsWhole)
    (arg2 : Memref sig .tc .vmem S1024x1024 .f32) (harg2 : arg2.IsWhole)
    (arg3 : Memref sig .tc .vmem S4x512x1024 .f32) (harg3 : arg3.IsWhole)
    (arg4 : Memref sig .tc .vmem S4x1024 .f32) (harg4 : arg4.IsWhole) (hc : isFirst i)
    (x0 : Vec F S4x1024 .f32) (x1 : Vec F S1024x1024 .f32) (y : S4x1024.Idx) :
    ∃ pc ∈ (runFirst c i arg1 harg1 arg2 harg2 arg3 harg3 arg4 harg4 hc x0 x1).2.1, y ∈ pc.1.set :=
  View.cover_of_tiledL (runFirst c i arg1 harg1 arg2 harg2 arg3 harg3 arg4 harg4 hc x0 x1).2.1 S4x1024.size (by sl_kernel_rfl) y

theorem cover_out_first (c : Dev nD) (i : grid1.Coords)
    (arg1 : Memref sig .tc .vmem S4x1024 .f32) (harg1 : arg1.IsWhole)
    (arg2 : Memref sig .tc .vmem S1024x1024 .f32) (harg2 : arg2.IsWhole)
    (arg3 : Memref sig .tc .vmem S4x512x1024 .f32) (harg3 : arg3.IsWhole)
    (arg4 : Memref sig .tc .vmem S4x1024 .f32) (harg4 : arg4.IsWhole) (hc : isFirst i)
    (x0 : Vec F S4x1024 .f32) (x1 : Vec F S1024x1024 .f32) (y : S4x512x1024.Idx) :
    ∃ pc ∈ (runFirst c i arg1 harg1 arg2 harg2 arg3 harg3 arg4 harg4 hc x0 x1).1, y ∈ pc.1.set :=
  View.cover_of_tiledL (runFirst c i arg1 harg1 arg2 harg2 arg3 harg3 arg4 harg4 hc x0 x1).1 S4x512x1024.size (by sl_kernel_rfl) y

theorem cover_out_later (c : Dev nD) (i : grid1.Coords)
    (arg1 : Memref sig .tc .vmem S4x1024 .f32) (harg1 : arg1.IsWhole)
    (arg2 : Memref sig .tc .vmem S1024x1024 .f32) (harg2 : arg2.IsWhole)
    (arg3 : Memref sig .tc .vmem S4x512x1024 .f32) (harg3 : arg3.IsWhole)
    (arg4 : Memref sig .tc .vmem S4x1024 .f32) (harg4 : arg4.IsWhole) (hc : ¬isFirst i)
    (xs : Vec F S4x1024 .f32) (y : S4x512x1024.Idx) :
    ∃ pc ∈ (runLater c i arg1 harg1 arg2 harg2 arg3 harg3 arg4 harg4 hc xs).1, y ∈ pc.1.set :=
  View.cover_of_tiledL (runLater c i arg1 harg1 arg2 harg2 arg3 harg3 arg4 harg4 hc xs).1 S4x512x1024.size (by sl_kernel_rfl) y

/-! ## The windows' blocks -/

/-- Window `w`'s block at tile `t`, read off its array as the region finds it. -/
def iblk (V : Entry F) (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The two operands are fetched at the first tile only, and their block index never moves: at every tile the
    staging buffer of each holds the operand's block, for any proof data over the entry contents whose body
    leaves the block in place. -/
theorem before_in0_of (V : Entry F) {c : Dev nD} (dat : Dat τ (Elt F) Unit ℕ (UR sig nD τ) ℕ cfg1 c)
    (hA : dat.A 0 = V c (Pipeline.arrRef spec1 0)) (hafter : ∀ t, dat.after 0 t = iblk V c 0 t)
    (t : Fin cfg1.N) (d) : dat.before 0 t d = iblk V c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

theorem before_in1_of (V : Entry F) {c : Dev nD} (dat : Dat τ (Elt F) Unit ℕ (UR sig nD τ) ℕ cfg1 c)
    (hA : dat.A 1 = V c (Pipeline.arrRef spec1 1)) (hafter : ∀ t, dat.after 1 t = iblk V c 1 t)
    (t : Fin cfg1.N) (d) : dat.before 1 t d = iblk V c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)

/-! ## The carried rows and the invariant -/

/-- The first tile. -/
def p0 : Fin cfg1.N := ⟨0, by have h : cfg1.N = 8 := N_1; omega⟩

/-- The rows the scratch holds from the first tile on: the first operand times the second. -/
def rows (V : Entry F) (c : Dev nD) : Vec F S4x1024 .f32 := k1_pay1 (iblk V c 0 p0) (iblk V c 1 p0)

/-- The region's invariant with the scratch as a memref owned at some contents. -/
theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_scratch0), ((c : Thread nD τ).loc cc0_scratch0) ↦{fullShare} f)
          ∗ (∃ d, owns (c : Thread nD τ) rowsBuf fullShare d)) ∗ (∃ r, prngReg c r)) := by
  unfold Pipeline.ΦA; rw [scopedRest1_eq]; simp only [rowsBuf, owns_whole]; try rfl

/-- Before tile `n`: at the first the region's own invariant (the scratch at anything); afterwards the scratch at
    the product's rows, the other region's buffers at anything, the generator register at some state. -/
def Inv (V : Entry F) (c : Dev nD) : ℕ → sProp 𝕄
  | 0 => Pipeline.ΦA spec1 c
  | _ + 1 => iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_scratch0), ((c : Thread nD τ).loc cc0_scratch0) ↦{fullShare} f)
          ∗ owns (c : Thread nD τ) rowsBuf fullShare (rows V c)) ∗ (∃ r, prngReg c r))

theorem Inv_zero (V : Entry F) (c : Dev nD) (n : ℕ) (hz : n = 0) : Inv V c n = Pipeline.ΦA spec1 c := by
  subst hz; rfl

theorem Inv_succ (V : Entry F) (c : Dev nD) (n : ℕ) :
    Inv V c (n + 1) = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_scratch0), ((c : Thread nD τ).loc cc0_scratch0) ↦{fullShare} f)
          ∗ owns (c : Thread nD τ) rowsBuf fullShare (rows V c)) ∗ (∃ r, prngReg c r)) := rfl

theorem Inv_pos (V : Entry F) (c : Dev nD) (n : ℕ) (hz : n ≠ 0) : Inv V c n = Inv V c (n - 1 + 1) := by
  cases n with
  | zero => exact absurd rfl hz
  | succ n => rfl

/-! ## The proof data -/

/-- The proof data of region 1 at the entry contents `V`: the arrays as found; after the body each operand's
    buffer at its block and the output's at the product's rows repeated; the invariant above; nothing owed. -/
def dat (V : Entry F) (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => k1_pay2 (rows V c)
  Φ t := Inv V c t.val
  q _ := fullShare
  owed _ := 0

theorem A_eq (V : Entry F) (c : Dev nD) (w : Fin cfg1.W) : (dat V c).A w = V c (Pipeline.arrRef spec1 w) := by
  dsimp only [dat]
theorem q_eq (V : Entry F) (c : Dev nD) (w : Fin cfg1.W) : (dat V c).q w = fullShare := by
  dsimp only [dat]
theorem owed_eq (V : Entry F) (c : Dev nD) (t : Fin (cfg1.N + 1)) : (dat V c).owed t = 0 := by
  dsimp only [dat]
theorem recorded_eq (V : Entry F) (c : Dev nD) (t : Fin (cfg1.N + 1)) : (dat V c).recorded t = Set.univ := by
  dsimp only [dat]

theorem after_0 (V : Entry F) (c : Dev nD) (t : Fin cfg1.N) : (dat V c).after 0 t = iblk V c 0 t := by dsimp only [dat]
theorem after_1 (V : Entry F) (c : Dev nD) (t : Fin cfg1.N) : (dat V c).after 1 t = iblk V c 1 t := by dsimp only [dat]
theorem after_2 (V : Entry F) (c : Dev nD) (t : Fin cfg1.N) : (dat V c).after 2 t = k1_pay2 (rows V c) := by dsimp only [dat]

theorem before_0 (V : Entry F) (c : Dev nD) (t : Fin cfg1.N) (d) : (dat V c).before 0 t d = iblk V c 0 t :=
  before_in0_of V (dat V c) (A_eq V c 0) (after_0 V c) t d
theorem before_1 (V : Entry F) (c : Dev nD) (t : Fin cfg1.N) (d) : (dat V c).before 1 t d = iblk V c 1 t :=
  before_in1_of V (dat V c) (A_eq V c 1) (after_1 V c) t d

theorem Phi_castSucc (V : Entry F) (c : Dev nD) (t : Fin cfg1.N) : (dat V c).Φ t.castSucc = Inv V c t.val := by
  dsimp only [dat]; simp only [Fin.coe_castSucc]

/-! ## The body obligation, at a generic tile -/

/-- Each window's current staging memref at tile `t`, spelled as the pipeline passes it, and its wholeness. -/
abbrev m0 (t : Fin cfg1.N) : Memref sig .tc .vmem S4x1024 .f32 := win1_0.stage (cfg1.slots t 0)
abbrev hm0 (t : Fin cfg1.N) : (m0 t).IsWhole := hstage1_0 ((cfg1.slots t 0).cast nbuf1_0)
abbrev m1 (t : Fin cfg1.N) : Memref sig .tc .vmem S1024x1024 .f32 := win1_1.stage (cfg1.slots t 1)
abbrev hm1 (t : Fin cfg1.N) : (m1 t).IsWhole := hstage1_1 ((cfg1.slots t 1).cast nbuf1_1)
abbrev m2 (t : Fin cfg1.N) : Memref sig .tc .vmem S4x512x1024 .f32 := win1_2.stage (cfg1.slots t 2)
abbrev hm2 (t : Fin cfg1.N) : (m2 t).IsWhole := hstage1_2 ((cfg1.slots t 2).cast nbuf1_2)

/-- What the body is called with at tile `t`, the windows one by one, -/
def bodyPre (V : Entry F) (c : Dev nD) (t : Fin cfg1.N) : sProp 𝕄 :=
  iprop((dat V c).Φ t.castSucc ∗ (dat V c).owesAt () t.castSucc
    ∗ (∃ d, owns (c : Thread nD τ) (m0 t) fullShare ((dat V c).before 0 t d))
    ∗ (∃ d, owns (c : Thread nD τ) (m1 t) fullShare ((dat V c).before 1 t d))
    ∗ (∃ d, owns (c : Thread nD τ) (m2 t) fullShare ((dat V c).before 2 t d)))

/-- and what it returns. -/
def bodyPost (V : Entry F) (c : Dev nD) (t : Fin cfg1.N) : sProp 𝕄 :=
  iprop((dat V c).Φ t.succ ∗ (dat V c).owesAt () t.succ
    ∗ owns (c : Thread nD τ) (m0 t) fullShare ((dat V c).after 0 t)
    ∗ owns (c : Thread nD τ) (m1 t) fullShare ((dat V c).after 1 t)
    ∗ owns (c : Thread nD τ) (m2 t) fullShare ((dat V c).after 2 t))

set_option maxHeartbeats 4800000 in
/-- The body at any tile.  At the first the operands' buffers hold their blocks, the scratch and the output tile
    anything: the first run applies, and leaves the scratch at the product's rows.  At a later tile the invariant
    hands the scratch at those rows and the later run leaves it so; the operands' buffers pass through unread. -/
theorem sound_body (V : Entry F) (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = Inv V c (t.val + 1) from rfl, Inv_succ, Phi_castSucc, after_0, after_1, after_2]
  have hN : t.val < 8 := lt_of_lt_of_eq t.isLt (show cfg1.N = 8 from N_1)
  by_cases h0 : t.val % 8 = 0
  · have hz : t.val = 0 := by omega
    obtain rfl : t = p0 := Fin.ext hz
    rw [Inv_zero V c _ hz, PhiA_eq]
    iintro ⟨⟨⟨Ha, Hb, Hc, Hd, HS⟩, Hg⟩, Ho, ⟨%d0, H0⟩, ⟨%d1, H1⟩, ⟨%d2, H2⟩⟩
    iapply ((runFirst c (grid1.coords p0) _ _ _ _ _ _ _ _ ((isFirst_iff p0).mpr h0) (iblk V c 0 p0) (iblk V c 1 p0)).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [Ha Hb Hc Hd HS Hg]
    · isplitl [Ha Hb Hc Hd HS]
      · isplitl [Ha]; · iexact Ha
        isplitl [Hb]; · iexact Hb
        isplitl [Hc]; · iexact Hc
        isplitl [Hd]; · iexact Hd
        unfold owns; iexists _; isplitr
        swap; · iexact HS
        ipureintro
        exact (View.read_writes_eq_canon _ _ _ (cover_rows_first c _ _ _ _ _ _ _ _ _ _ _ _)).trans
          (rows_first c _ _ _ _ _ _ _ _ _ _ _ _)
      iexact Hg
    isplitl [Ho]; · iexact Ho
    isplitl [H0]; · iexact H0
    isplitl [H1]; · iexact H1
    unfold owns; iexists _; isplitr
    swap; · iexact H2
    ipureintro
    exact (View.read_writes_eq_canon _ _ _ (cover_out_first c _ _ _ _ _ _ _ _ _ _ _ _)).trans
      (out_first c _ _ _ _ _ _ _ _ _ _ _ _)
  · have hz : t.val ≠ 0 := by omega
    rw [Inv_pos V c _ hz, Inv_succ]
    iintro ⟨⟨⟨Ha, Hb, Hc, Hd, HS⟩, Hg⟩, Ho, ⟨%d0, H0⟩, ⟨%d1, H1⟩, ⟨%d2, H2⟩⟩
    iapply ((runLater c (grid1.coords t) _ _ _ _ _ _ _ _ (fun h => h0 ((isFirst_iff t).mp h)) (rows V c)).2 Set.univ _)
    isplitl [H2]; · iexists _; iexact H2
    isplitl [HS]; · iexact HS
    iintro ⟨⟨%e2, H2⟩, HS⟩
    isplitl [Ha Hb Hc Hd HS Hg]
    · isplitl [Ha Hb Hc Hd HS]
      · isplitl [Ha]; · iexact Ha
        isplitl [Hb]; · iexact Hb
        isplitl [Hc]; · iexact Hc
        isplitl [Hd]; · iexact Hd
        iexact HS
      iexact Hg
    isplitl [Ho]; · iexact Ho
    isplitl [H0]; · iexact H0
    isplitl [H1]; · iexact H1
    unfold owns; iexists _; isplitr
    swap; · iexact H2
    ipureintro
    exact (View.read_writes_eq_canon _ _ _ (cover_out_later c _ _ _ _ _ _ _ _ _ _ _)).trans
      (out_later c _ _ _ _ _ _ _ _ _ _ _)

/-- The library's body obligation, at every tile. -/
theorem body_obligation (V : Entry F) (c : Dev nD) : BodyObligation (dat (F := F) V c) (defs₀ (F := F)) Variants.none () Set.univ := fun t => by
  rw [bigSep_W1, bigSep_W1]
  exact sound_body V c t

/-- What the launch hands the region is the invariant before the first tile. -/
theorem hin (V : Entry F) (c : Dev nD) : (Pipeline.ΦA spec1 c : sProp 𝕄) ⊢ (dat V c).Φ 0 := by
  rw [show (dat V c).Φ 0 = Inv V c 0 from rfl, Inv_zero V c 0 rfl]
  try exact Idealize.SL.BI.Entails.refl _

/-- After the last tile the invariant gives the region's own back: what the scratch holds is forgotten. -/
theorem hout (V : Entry F) (c : Dev nD) : (dat V c).Φ (Fin.last cfg1.N) ⊢ (Pipeline.ΦA spec1 c : sProp 𝕄) := by
  rw [show (dat V c).Φ (Fin.last cfg1.N) = Inv V c (Fin.last cfg1.N).val from rfl,
    Inv_pos V c _ (by rw [Fin.val_last]; have h : cfg1.N = 8 := N_1; omega), Inv_succ, PhiA_eq]
  iintro ⟨⟨Ha, Hb, Hc, Hd, HS⟩, Hg⟩
  isplitl [Ha Hb Hc Hd HS]
  · isplitl [Ha]; · iexact Ha
    isplitl [Hb]; · iexact Hb
    isplitl [Hc]; · iexact Hc
    isplitl [Hd]; · iexact Hd
    iexists _; iexact HS
  iexact Hg

/-! ## The value at the exact reals -/

section Value
open Idealize.ShloMosaic.ValueIdx

/-- The arrays the region finds in its two operands, at their literal types. -/
abbrev lhsArr (V : Entry F) (c : Dev nD) : Vec F S4x1024 .f32 := V c main_v4
abbrev rhsArr (V : Entry F) (c : Dev nD) : Vec F S1024x1024 .f32 := V c main_v3

/-- The printed index maps, decided over the grid: the operands' block index is always zero; the output's
    block index is the tile's number on the sequence axis and zero on the others. -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 3) = 0 ∧ win1_2.index t (1 : Fin 3) = t.val ∧ win1_2.index t (2 : Fin 3) = 0 :=
  (by decide +kernel : ∀ t : Fin grid1.N, _)

/-- Each operand's block is its whole array. -/
theorem iblk0_apply (V : Entry F) (c : Dev nD) (t : Fin cfg1.N) (j : S4x1024.Idx) :
    iblk V c 0 t j = lhsArr V c j := by
  obtain ⟨e0, e1, -⟩ := idx_facts t
  show V c main_v4 (((cfg1.win 0).blk t).view.emb j) = V c main_v4 j
  refine congrArg (V c main_v4) ?_
  funext a; apply Fin.ext
  match a with
  | ⟨0, _⟩ => show win1_0.index t (0 : Fin 2) * 4 + 1 * (j 0).val = (j 0).val; omega
  | ⟨1, _⟩ => show win1_0.index t (1 : Fin 2) * 1024 + 1 * (j 1).val = (j 1).val; omega

theorem iblk1_apply (V : Entry F) (c : Dev nD) (t : Fin cfg1.N) (j : S1024x1024.Idx) :
    iblk V c 1 t j = rhsArr V c j := by
  obtain ⟨-, -, e0, e1, -⟩ := idx_facts t
  show V c main_v3 (((cfg1.win 1).blk t).view.emb j) = V c main_v3 j
  refine congrArg (V c main_v3) ?_
  funext a; apply Fin.ext
  match a with
  | ⟨0, _⟩ => show win1_1.index t (0 : Fin 2) * 1024 + 1 * (j 0).val = (j 0).val; omega
  | ⟨1, _⟩ => show win1_1.index t (1 : Fin 2) * 1024 + 1 * (j 1).val = (j 1).val; omega

/-- So the carried rows are the product of the two arrays as found. -/
theorem rows_eq (V : Entry F) (c : Dev nD) : rows V c = k1_pay1 (lhsArr V c) (rhsArr V c) := by
  unfold rows
  exact congrArg₂ (k1_pay1 (F := F)) (funext (iblk0_apply V c p0)) (funext (iblk1_apply V c p0))

/-- The rows repeated down a tile read, at (b, r, e), the row vector's entry (b, e). -/
theorem pay2_apply (X : Vec F S4x1024 .f32) (b : Fin 4) (r : Fin 512) (e : Fin 1024) :
    k1_pay2 X (ix3 b r e) = X (ix2 b e) := by
  unfold k1_pay2
  show broadcastTo S4x512x1024 (shapeCast S4x1x1024 (shapeCast S4x1x1024 X _) _) _ (ix3 b r e) = X (ix2 b e)
  refine (broadcastTo_apply _ _ (ix3 b r e) (ix3 b (0 : Fin 1) e) fun a => ?_).trans ?_
  · match a with
    | ⟨0, _⟩ => rfl
    | ⟨1, _⟩ => rfl
    | ⟨2, _⟩ => rfl
  · refine (congrFun (shapeCast_self _ _) _).trans ?_
    exact shapeCast_apply X _ (ix3 b (0 : Fin 1) e) (ix2 b e) (by
      rw [Shape.rowMajor_val_two, Shape.rowMajor_val_three]
      show b.val * 1024 + e.val = (b.val * 1 + 0) * 1024 + e.val
      omega)

/-- The matrix product's index maps, axis by axis. -/
theorem lhs_ax0 (i : S4x1024.Idx) (q : dot_S4x1024_S1024x1024_S4x1024_1_0_0_1_n_n.contr.Idx) :
    (dot_S4x1024_S1024x1024_S4x1024_1_0_0_1_n_n.lhsIdx i q 0).val = (i 0).val := by
  unfold DotDims.lhsIdx
  rw [dif_neg (show ¬(0 : Fin S4x1024.rank) ∈ dot_S4x1024_S1024x1024_S4x1024_1_0_0_1_n_n.lhsBatch by decide), dif_pos (show (0 : Fin S4x1024.rank) ∈ dot_S4x1024_S1024x1024_S4x1024_1_0_0_1_n_n.lhsNonContracting by decide)]
  rfl
theorem lhs_ax1 (i : S4x1024.Idx) (q : dot_S4x1024_S1024x1024_S4x1024_1_0_0_1_n_n.contr.Idx) :
    (dot_S4x1024_S1024x1024_S4x1024_1_0_0_1_n_n.lhsIdx i q 1).val = (q ⟨0, by decide⟩).val :=
  dot_S4x1024_S1024x1024_S4x1024_1_0_0_1_n_n.lhsIdx_val_of_single rfl i q
theorem rhs_ax0 (i : S4x1024.Idx) (q : dot_S4x1024_S1024x1024_S4x1024_1_0_0_1_n_n.contr.Idx) :
    (dot_S4x1024_S1024x1024_S4x1024_1_0_0_1_n_n.rhsIdx i q 0).val = (q ⟨0, by decide⟩).val :=
  dot_S4x1024_S1024x1024_S4x1024_1_0_0_1_n_n.rhsIdx_val_of_single rfl i q
theorem rhs_ax1 (i : S4x1024.Idx) (q : dot_S4x1024_S1024x1024_S4x1024_1_0_0_1_n_n.contr.Idx) :
    (dot_S4x1024_S1024x1024_S4x1024_1_0_0_1_n_n.rhsIdx i q 1).val = (i 1).val := by
  unfold DotDims.rhsIdx
  rw [dif_neg (show ¬(1 : Fin S1024x1024.rank) ∈ dot_S4x1024_S1024x1024_S4x1024_1_0_0_1_n_n.rhsBatch by decide), dif_pos (show (1 : Fin S1024x1024.rank) ∈ dot_S4x1024_S1024x1024_S4x1024_1_0_0_1_n_n.rhsNonContracting by decide)]
  rfl

/-- At the exact reals the product into a zero accumulator is the sum over the contracted index. -/
theorem pay1_apply (x0 : S4x1024.Idx → EReal) (x1 : S1024x1024.Idx → EReal) (b : Fin 4) (e : Fin 1024) :
    k1_pay1 (F := Ideal) x0 x1 (ix2 b e) = ∑ k : Fin 1024, x0 (ix2 b k) * x1 (ix2 k e) := by
  unfold k1_pay1
  show shapeCast S4x1024 (FloatOps.matmul dot_S4x1024_S1024x1024_S4x1024_1_0_0_1_n_n none (shapeCast S4x1024 x0 _) (shapeCast S1024x1024 x1 _) (constant (F := Ideal) S4x1024 .f32 0x00000000#32)) _ (ix2 b e) = _
  refine (congrFun (shapeCast_self _ _) _).trans ?_
  refine (Ideal.matmul_constant_zero_apply _ _ _ _ _).trans ?_
  rw [shapeCast_self, shapeCast_self, ← Equiv.sum_comp (contrEquiv1 dot_S4x1024_S1024x1024_S4x1024_1_0_0_1_n_n 1024 rfl rfl).symm]
  refine Finset.sum_congr rfl fun k _ => ?_
  have hk := contrEquiv1_symm_val dot_S4x1024_S1024x1024_S4x1024_1_0_0_1_n_n 1024 rfl rfl k
  have el : dot_S4x1024_S1024x1024_S4x1024_1_0_0_1_n_n.lhsIdx (ix2 b e) ((contrEquiv1 dot_S4x1024_S1024x1024_S4x1024_1_0_0_1_n_n 1024 rfl rfl).symm k) = ix2 b k := funext fun a => Fin.ext (by
    match a with
    | ⟨0, _⟩ => exact lhs_ax0 _ _
    | ⟨1, _⟩ => exact (lhs_ax1 _ _).trans hk)
  have er : dot_S4x1024_S1024x1024_S4x1024_1_0_0_1_n_n.rhsIdx (ix2 b e) ((contrEquiv1 dot_S4x1024_S1024x1024_S4x1024_1_0_0_1_n_n 1024 rfl rfl).symm k) = ix2 k e := funext fun a => Fin.ext (by
    match a with
    | ⟨0, _⟩ => exact (rhs_ax0 _ _).trans hk
    | ⟨1, _⟩ => exact rhs_ax1 _ _)
  rw [el, er]

/-- The same two arrays as functions into the extended reals. -/
abbrev lhsR (V : Entry Ideal) (c : Dev nD) : S4x1024.Idx → EReal := V c main_v4
abbrev rhsR (V : Entry Ideal) (c : Dev nD) : S1024x1024.Idx → EReal := V c main_v3

/-- What a tile writes back, at (b, r, e) of the tile, is the target at the array index under it: the value does
    not depend on the row, and the tile lies at zero offset on the batch and feature axes. -/
theorem flushed_at (V : Entry Ideal) (c : Dev nD) (t : Fin cfg1.N) (b : Fin 4) (r : Fin 512) (e : Fin 1024) :
    k1_pay2 (F := Ideal) (k1_pay1 (F := Ideal) (lhsArr V c) (rhsArr V c)) (ix3 b r e)
      = Cert.Spec.bcast (V c main_v4) (V c main_v3) (((cfg1.win 2).blk t).view.emb (ix3 b r e)) := by
  obtain ⟨-, -, -, -, e0, -, e2⟩ := idx_facts t
  refine (pay2_apply _ b r e).trans ?_
  refine (pay1_apply _ _ b e).trans ?_
  have h0 : (((cfg1.win 2).blk t).view.emb (ix3 b r e)) 0 = b :=
    Fin.ext (by show win1_2.index t (0 : Fin 3) * 4 + 1 * b.val = b.val; omega)
  have h2 : (((cfg1.win 2).blk t).view.emb (ix3 b r e)) 2 = e :=
    Fin.ext (by show win1_2.index t (2 : Fin 3) * 1024 + 1 * e.val = e.val; omega)
  show _ = ∑ k : Fin 1024, lhsR V c (ix2 ((((cfg1.win 2).blk t).view.emb (ix3 b r e)) 0) k)
      * rhsR V c (ix2 k ((((cfg1.win 2).blk t).view.emb (ix3 b r e)) 2))
  rw [h0, h2]

/-- WHAT TILE `t` WRITES BACK is block `t` of the target. -/
theorem flushed_eq (V : Entry Ideal) (c : Dev nD) (t : Fin cfg1.N) :
    (dat (F := Ideal) V c).flushed 2 t
      = ((cfg1.win 2).blk t).view.read (Elt Ideal) (Cert.Spec.bcast (V c main_v4) (V c main_v3)) := by
  show (cfg1.win 2).cut (grid1.coords t) ((dat (F := Ideal) V c).after 2 t) = _
  rw [after_2, rows_eq]
  refine funext fun (j : S4x512x1024.Idx) => ?_
  obtain ⟨b, r, e, rfl⟩ : ∃ (b : Fin 4) (r : Fin 512) (e : Fin 1024), j = ix3 b r e := ⟨j 0, j 1, j 2, eq_ix3 j⟩
  exact flushed_at V c t b r e

/-- An index of the array is in tile `t`'s block iff each coordinate is in the block's range on its axis. -/
theorem mem_blk (t : Fin cfg1.N) (i : S4x4096x1024.Idx) :
    i ∈ ((cfg1.win 2).blk t).view.set ↔ ∀ a : Fin 3, win1_2.index t a * S4x512x1024.size a ≤ (i a).val
      ∧ (i a).val < win1_2.index t a * S4x512x1024.size a + S4x512x1024.size a := by
  show i ∈ ((View.whole main_v5).slice (win1_2.rect t)).set ↔ _
  rw [View.set_slice_whole, Rect.mem_set_unit]
  exact Iff.rfl

/-- The eight tiles cover the array: row `r` of the sequence lies in tile `r / 512`. -/
theorem covered (i : S4x4096x1024.Idx) :
    ∃ t : Fin cfg1.N, (cfg1.win 2).flush t = true ∧ i ∈ ((cfg1.win 2).blk t).view.set := by
  have hN : cfg1.N = 8 := N_1
  have h0 : (i 0).val < 4 := (i 0).isLt
  have h1 : (i 1).val < 4096 := (i 1).isLt
  have h2 : (i 2).val < 1024 := (i 2).isLt
  have hq : (i 1).val / 512 < cfg1.N := by omega
  obtain ⟨-, -, -, -, e0, e1, e2⟩ := idx_facts ⟨(i 1).val / 512, hq⟩
  have e1' : win1_2.index ⟨(i 1).val / 512, hq⟩ (1 : Fin 3) = (i 1).val / 512 := e1
  refine ⟨⟨(i 1).val / 512, hq⟩, flush1_2 _, ?_⟩
  rw [mem_blk]
  intro a
  match a with
  | ⟨0, _⟩ =>
    show win1_2.index ⟨(i 1).val / 512, hq⟩ (0 : Fin 3) * 4 ≤ (i 0).val
      ∧ (i 0).val < win1_2.index ⟨(i 1).val / 512, hq⟩ (0 : Fin 3) * 4 + 4
    omega
  | ⟨1, _⟩ =>
    show win1_2.index ⟨(i 1).val / 512, hq⟩ (1 : Fin 3) * 512 ≤ (i 1).val
      ∧ (i 1).val < win1_2.index ⟨(i 1).val / 512, hq⟩ (1 : Fin 3) * 512 + 512
    omega
  | ⟨2, _⟩ =>
    show win1_2.index ⟨(i 1).val / 512, hq⟩ (2 : Fin 3) * 1024 ≤ (i 2).val
      ∧ (i 2).val < win1_2.index ⟨(i 1).val / 512, hq⟩ (2 : Fin 3) * 1024 + 1024
    omega

/-- At the exact reals the output array ends holding, at every sequence position, the rows the region found in
    its first operand times the matrix it found in its second. -/
theorem final (V : Entry Ideal) (c : Dev nD) :
    ((dat (F := Ideal) V c).arrAt 2 cfg1.N : S4x4096x1024.Idx → EReal) = Cert.Spec.bcast (V c main_v4) (V c main_v3) :=
  (dat (F := Ideal) V c).arrAt_eq_of_cover 2 _ (fun t _ => flushed_eq V c t) covered

end Value

end Cert.Kernel.Bcast

end
-- ==== Proof.KbLaunch.lean ====
/-
  The kernel's program from launch to return: the host lines that build the combined weight, the streaming
  column sum (region 0), the product-and-repeat (region 1).  Between two items a core holds every unscoped
  buffer at contents that are NAMED: the launch memory, then the host lines' results, then region 0's arrays at
  what its write-backs leave, then region 1's.  Every weakly fair execution ends with the three arguments as
  launched and the result array at what region 1's write-backs leave in it.
-/
import proofs.«110568_j7017976561954_1_alg».proof.Proof.Gen.Kernel.Regions
import proofs.«110568_j7017976561954_1_alg».proof.Proof.KbSum
import proofs.«110568_j7017976561954_1_alg».proof.Proof.KbBcast

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the host lines (region 0's entry). -/
abbrev W1 : Dev nD → Valuation τ sig (Elt F) := fun c => StableHlo.after hostOps0 (W0 m c)
/-- The same read at the core's references. -/
abbrev V1 : Sum.Entry F := fun c b => W1 m c b
/-- At region 0's exit: its arrays at what its write-backs leave, every other buffer as entered. -/
def W2 (c : Dev nD) : Valuation τ sig (Elt F) :=
  Pipeline.withArrays spec0 c (W1 m c) fun w => (Sum.dat (V1 m) c).arrAt w cfg0.N
theorem W2_arr (c : Dev nD) (w : Fin cfg0.W) :
    W2 m c (Proc.devRef .tc (Pipeline.arrRef spec0 w)) = (Sum.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the core's references (region 1's entry). -/
abbrev V2 : Bcast.Entry F := fun c b => W2 m c b
theorem hF0 (c : Dev nD) (w : Fin cfg0.W) : (Sum.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit. -/
def W3 (c : Dev nD) : Valuation τ sig (Elt F) :=
  Pipeline.withArrays spec1 c (W2 m c) fun w => (Bcast.dat (V2 m) c).arrAt w cfg1.N
theorem W3_arr (c : Dev nD) (w : Fin cfg1.W) :
    W3 m c (Proc.devRef .tc (Pipeline.arrRef spec1 w)) = (Bcast.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : Bcast.Entry F := fun c b => W3 m c b
theorem hF1 (c : Dev nD) (w : Fin cfg1.W) : (Bcast.dat (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ### No item writes an argument -/

theorem W1_of (c : Dev nD) (r : Ref sig .tc) (h : r ∉ hostOps0_W) : W1 m c (Proc.devRef .tc r) = m ((c : Thread nD τ).loc r) :=
  V1_of m c r h

/-- x is region 0's input: a pipeline never writes an input array. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((Sum.dat (V1 m) c).arrAt_in 0 rfl _).trans (Sum.A_eq (V1 m) c 0))
    _ = m ((c : Thread nD τ).loc main_arg0) := W1_of m c main_arg0 (by decide)
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = m ((c : Thread nD τ).loc main_arg1) := W1_of m c main_arg1 (by decide)
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := W1_of m c main_arg2 (by decide)
/-- The result array is region 1's output window. -/
theorem W3_main_v5 (c : Dev nD) : W3 m c (Proc.devRef .tc main_v5) = (Bcast.dat (V2 m) c).arrAt 2 cfg1.N :=
  W3_arr m c 2

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Sum.dat (V1 m) c
  | ⟨1, _⟩ => fun c => Bcast.dat (V2 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- The host lines as an item. -/
abbrev hseg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

/-! ## The regions as items -/

theorem recSum (c : Dev nD) (t : Fin (cfg0.N + 1)) : (Sum.dat (V1 m) c).recorded t = Set.univ := Sum.recorded_eq (V1 m) c t
theorem recBcast (c : Dev nD) (t : Fin (cfg1.N + 1)) : (Bcast.dat (V2 m) c).recorded t = Set.univ := Bcast.recorded_eq (V2 m) c t

set_option backward.isDefEq.respectTransparency.types false in
/-- Region 0: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Sum.body_obligation (V1 m) c).loose
  hwaits := Pipeline.hwaits_of_owed_zero _ _ _ _ L lv 0 fun c t => Sum.owed_eq (V1 m) c t
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun w => Sum.q_eq (V1 m) c w) (V1 m c) fun w => Sum.A_eq (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 0 c).owed 0 = 0 from Sum.owed_eq (V1 m) c 0]
      icases HO with ⟨%W, HO⟩; iexists W; isplitr
      · ipureintro; intro x _; exact Or.inl (by rw [show (pdats m 0 c).recorded 0 = Set.univ from recSum m c 0]; trivial)
      iexact HO
    isplitl [Hp]; · iexact Hp
    iexact Hrest
  hin c := by
    refine (show _ ⊢ (Pipeline.ΦA spec0 c : sProp 𝕄) from ?_).trans (Sum.hin (V1 m) c)
    unfold Pipeline.ΦA
    iintro ⟨Hp, -, Hr⟩
    isplitl [Hr]; · iexact Hr
    iexact Hp
  hout c := by
    refine (Sum.hout (V1 m) c).trans (show (Pipeline.ΦA spec0 c : sProp 𝕄) ⊢ _ from ?_)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => Sum.q_eq (V1 m) c w)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 0 c).owed (Fin.last _) = 0 from Sum.owed_eq (V1 m) c _]
    icases HO with ⟨%W, -, HO⟩; iexists W; iexact HO

set_option backward.isDefEq.respectTransparency.types false in
/-- Region 1: entered from every unscoped buffer at `W2`, left at `W3` (what the launch reads at the end). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Bcast.body_obligation (V2 m) c).loose
  hwaits := Pipeline.hwaits_of_owed_zero _ _ _ _ L lv 1 fun c t => Bcast.owed_eq (V2 m) c t
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun w => Bcast.q_eq (V2 m) c w) (V2 m c) fun w => Bcast.A_eq (V2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 1 c).owed 0 = 0 from Bcast.owed_eq (V2 m) c 0]
      icases HO with ⟨%W, HO⟩; iexists W; isplitr
      · ipureintro; intro x _; exact Or.inl (by rw [show (pdats m 1 c).recorded 0 = Set.univ from recBcast m c 0]; trivial)
      iexact HO
    isplitl [Hp]; · iexact Hp
    iexact Hrest
  hin c := by
    refine (show _ ⊢ (Pipeline.ΦA spec1 c : sProp 𝕄) from ?_).trans (Bcast.hin (V2 m) c)
    unfold Pipeline.ΦA
    iintro ⟨Hp, -, Hr⟩
    isplitl [Hr]; · iexact Hr
    iexact Hp
  hout c := by
    refine (Bcast.hout (V2 m) c).trans (show (Pipeline.ΦA spec1 c : sProp 𝕄) ⊢ _ from ?_)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => Bcast.q_eq (V2 m) c w)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats m 1 c).owed (Fin.last _) = 0 from Bcast.owed_eq (V2 m) c _]
    icases HO with ⟨%W, -, HO⟩; iexists W; iexact HO

/-! ## @main as items, and the launch -/

abbrev segs : List (Pipeline.Seg (pcfgs (F := F)) adm (pdats m) () defs₀ 𝒱₀ L lv) :=
  [ .host (hseg m), .region (reg0 m), .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    the result array at what region 1's write-backs leave and the three arguments as launched. -/
theorem run_main : θ_run defs (onTc (τ := τ) (main (F := F))) ⟨m, fun _ => 0, ρ⟩ (fun r => ∀ c : Dev nD,
      r.2.mem ((c.tc : Thread nD τ).loc main_v5) = (Bcast.dat (V2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v5 (by decide))).trans (W3_main_v5 m c),
       (h c _ (mem_uc main_arg0 (by decide))).trans (W3_main_arg0 m c),
       (h c _ (mem_uc main_arg1 (by decide))).trans (W3_main_arg1 m c),
       (h c _ (mem_uc main_arg2 (by decide))).trans (W3_main_arg2 m c)⟩)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.Kernel.Whole

end
-- ==== Proof.KiSum.lean ====
/-
  Region 0 of the kernel's program: the streaming column sum.  The grid walks the eight sequence tiles of x;
  a scratch accumulator is zeroed at the first tile, gains each tile's column sums, and is copied to the
  output block at the last tile.
-/
import proofs.«110568_j7017976561954_1_alg».proof.Proof.Gen.KernelIdeal.Launch
import proofs.«110568_j7017976561954_1_alg».proof.Proof.Gen.KernelIdeal.Skeleton
import proofs.«110568_j7017976561954_1_alg».proof.Proof.Gen.KernelIdeal.Points
import proofs.«110568_j7017976561954_1_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.PureOps.Ideal.Laws
import Mathlib.Data.Fintype.BigOperators
import Mathlib.Algebra.BigOperators.Group.Finset.Basic

set_option maxRecDepth 16384

noncomputable section

namespace Cert.KernelIdeal.Sum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The contents a core's buffers hold when the region is entered. -/
abbrev Entry (F : FTy → Type) : Type := (c : Dev nD) → (b : Ref sig .tc) → Buf (Elt F) ((c : Thread nD τ).loc b)

/-! ## The two conditionals of the body, in closed form over the grid -/

/-- The body's first conditional: the tile index is 0 (the accumulator is zeroed). -/
abbrev atFirst (i : grid0.Coords) : Prop :=
  (Scalar.cmpi .ne (Scalar.extui (Scalar.cmpi .eq (BitVec.ofNat 32 (i 0).val) 0#32)) 0#32) = 1#1
/-- It holds at tile 0 only. -/
theorem atFirst_iff : ∀ t : Fin cfg0.N, atFirst (grid0.coords t) ↔ t.val = 0 :=
  (by decide +kernel : ∀ t : Fin grid0.N, atFirst (grid0.coords t) ↔ t.val = 0)

/-- The body's second conditional: the tile index is 7 (the accumulator is copied out). -/
abbrev atLast (i : grid0.Coords) : Prop := k0_cond2 i = 1#1
/-- It holds at tile 7 only. -/
theorem atLast_iff : ∀ t : Fin cfg0.N, atLast (grid0.coords t) ↔ t.val = 7 :=
  (by decide +kernel : ∀ t : Fin grid0.N, atLast (grid0.coords t) ↔ t.val = 7)

/-! ## Where the two windows are stored into -/

/-- The x window is staged at every tile. -/
theorem xLive : ∀ t : Fin cfg0.N, cfg0.idle 0 (grid0.coords t) = false := by decide +kernel
/-- Before the last tile nothing is stored into the output block, -/
theorem outIdle : ∀ t : Fin cfg0.N, ¬atLast (grid0.coords t) → cfg0.idle 1 (grid0.coords t) = true := by decide +kernel
/-- and it is not written back there; -/
theorem outKept : ∀ t : Fin cfg0.N, ¬atLast (grid0.coords t) → (cfg0.win 1).flush t = false := by decide +kernel
/-- at the last tile it is stored. -/
theorem outLive : ∀ t : Fin cfg0.N, atLast (grid0.coords t) → cfg0.idle 1 (grid0.coords t) = false := by decide +kernel

/-! ## The buffers the body touches -/

/-- The x window's current staging buffer at tile `t`, and the output block's. -/
abbrev xBuf (t : Fin cfg0.N) : Memref sig .tc .vmem S4x512x1024 .f32 := win0_0.stage (cfg0.slots t 0)
abbrev xBuf_whole (t : Fin cfg0.N) : (xBuf t).IsWhole := hstage0_0 ((cfg0.slots t 0).cast nbuf0_0)
abbrev oBuf (t : Fin cfg0.N) : Memref sig .tc .vmem S4x1024 .f32 := win0_1.stage (cfg0.slots t 1)
abbrev oBuf_whole (t : Fin cfg0.N) : (oBuf t).IsWhole := hstage0_1 ((cfg0.slots t 1).cast nbuf0_1)
/-- The accumulator: a scratch buffer of one row per batch entry, kept from tile to tile. -/
abbrev accBuf : Memref sig .tc .vmem S4x1024 .f32 := Memref.whole cc0_scratch0
abbrev accView : View sig .tc .vmem S4x1024 .f32 := accBuf.view
/-- The view through which the output block's contents are stated. -/
abbrev outView : View sig .tc .vmem S4x1024 .f32 := (Memref.whole cc0_stg1_0 : Memref sig .tc .vmem S4x1024 .f32).view

/-- The scoped buffers of the later region, each at some contents: they pass through this region untouched. -/
def laterScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- What the region is entered with: the accumulator at some contents, the later region's scoped buffers, the random-number register. -/
theorem entry_eq (c : Dev nD) :
    (Pipeline.ΦA spec0 c : sProp 𝕄)
      = iprop(iprop((∃ d, owns (c : Thread nD τ) accBuf fullShare d) ∗ laterScoped (F := F) c) ∗ (∃ r, prngReg c r)) := by
  unfold Pipeline.ΦA laterScoped; rw [scopedRest0_eq]; simp only [accBuf, owns_whole]; try rfl

/-! ## The body on any whole buffers, case by case

Each run is a pair: the pieces the body's stores leave in the buffers it writes, and the proof that from the buffers'
contents before the body it reaches the continuation with those pieces written. -/

set_option maxHeartbeats 1000000 in
/-- The first tile (zeroing taken, copy-out not taken): the x buffer at `x0`, the output block at any `xo` handed
    back untouched, the accumulator at anything; it ends at its pieces. -/
noncomputable def runFirst (c : Dev nD) (i : grid0.Coords) (arg1 : Memref sig .tc .vmem S4x512x1024 .f32) (harg1 : arg1.IsWhole) (arg2 : Memref sig .tc .vmem S4x1024 .f32) (harg2 : arg2.IsWhole) (arg3 : Memref sig .tc .vmem S4x1024 .f32) (harg3 : arg3.IsWhole) (h0 : atFirst i) (h7 : ¬atLast i)
    (x0 : Vec F S4x512x1024 .f32) :
    Σ' (LO : List (View.Piece (Elt F) S4x1024 .f32)), { LA : List (View.Piece (Elt F) S4x1024 .f32) //
      ∀ (xo : Vec F S4x1024 .f32) (E : Set ℕ) (K : PUnit → sProp 𝕄),
        iprop(owns (c : Thread nD τ) arg1 fullShare x0 ∗ owns (c : Thread nD τ) arg2 fullShare xo ∗ (∃ d, owns (c : Thread nD τ) arg3 fullShare d)
            ∗ (iprop(owns (c : Thread nD τ) arg1 fullShare x0 ∗ owns (c : Thread nD τ) arg2 fullShare xo ∗ (∃ f, arg3.view.loc (c : Thread nD τ) ↦[arg3.view.set]{fullShare} arg3.view.writes (Elt F) f LA)) -∗ K ⟨⟩))
          ⊢ wp frame (wpE (defs₀ (F := F)) Variants.none c none) E (cc0__sum_kernel i arg1 harg1 arg2 harg2 arg3 harg3) K } := by
  refine ⟨[], ?_, fun xo E K => ?run⟩
  case run =>
    simp only [cc0__sum_kernel_eq_skeleton]; unfold cc0__sum_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact h0 | exact h7)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- A middle tile (neither conditional taken): the accumulator at what the tile before left, `xa`. -/
noncomputable def runMid (c : Dev nD) (i : grid0.Coords) (arg1 : Memref sig .tc .vmem S4x512x1024 .f32) (harg1 : arg1.IsWhole) (arg2 : Memref sig .tc .vmem S4x1024 .f32) (harg2 : arg2.IsWhole) (arg3 : Memref sig .tc .vmem S4x1024 .f32) (harg3 : arg3.IsWhole) (h0 : ¬atFirst i) (h7 : ¬atLast i)
    (x0 : Vec F S4x512x1024 .f32) (xa : Vec F S4x1024 .f32) :
    Σ' (LO : List (View.Piece (Elt F) S4x1024 .f32)), { LA : List (View.Piece (Elt F) S4x1024 .f32) //
      ∀ (xo : Vec F S4x1024 .f32) (E : Set ℕ) (K : PUnit → sProp 𝕄),
        iprop(owns (c : Thread nD τ) arg1 fullShare x0 ∗ owns (c : Thread nD τ) arg2 fullShare xo ∗ owns (c : Thread nD τ) arg3 fullShare xa
            ∗ (iprop(owns (c : Thread nD τ) arg1 fullShare x0 ∗ owns (c : Thread nD τ) arg2 fullShare xo ∗ (∃ f, arg3.view.loc (c : Thread nD τ) ↦[arg3.view.set]{fullShare} arg3.view.writes (Elt F) f LA)) -∗ K ⟨⟩))
          ⊢ wp frame (wpE (defs₀ (F := F)) Variants.none c none) E (cc0__sum_kernel i arg1 harg1 arg2 harg2 arg3 harg3) K } := by
  refine ⟨[], ?_, fun xo E K => ?run⟩
  case run =>
    simp only [cc0__sum_kernel_eq_skeleton]; unfold cc0__sum_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact h0 | exact h7)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- The last tile (copy-out taken): the output block at anything; it ends at its pieces too. -/
noncomputable def runLast (c : Dev nD) (i : grid0.Coords) (arg1 : Memref sig .tc .vmem S4x512x1024 .f32) (harg1 : arg1.IsWhole) (arg2 : Memref sig .tc .vmem S4x1024 .f32) (harg2 : arg2.IsWhole) (arg3 : Memref sig .tc .vmem S4x1024 .f32) (harg3 : arg3.IsWhole) (h0 : ¬atFirst i) (h7 : atLast i)
    (x0 : Vec F S4x512x1024 .f32) (xa : Vec F S4x1024 .f32) :
    Σ' (LO : List (View.Piece (Elt F) S4x1024 .f32)), { LA : List (View.Piece (Elt F) S4x1024 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xa
            ∗ (iprop(owns (c : Thread nD τ) arg1 fullShare x0 ∗ (∃ f, arg2.view.loc (c : Thread nD τ) ↦[arg2.view.set]{fullShare} arg2.view.writes (Elt F) f LO) ∗ (∃ f, arg3.view.loc (c : Thread nD τ) ↦[arg3.view.set]{fullShare} arg3.view.writes (Elt F) f LA)) -∗ K ⟨⟩))
          ⊢ wp frame (wpE (defs₀ (F := F)) Variants.none c none) E (cc0__sum_kernel i arg1 harg1 arg2 harg2 arg3 harg3) K } := by
  refine ⟨?_, ?_, fun E K => ?run⟩
  case run =>
    simp only [cc0__sum_kernel_eq_skeleton]; unfold cc0__sum_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact h0 | exact h7)
    sl_step
    iapply Hk
    isplitl [H0]
    · iexists _; isplitr; · ipureintro; exact harg1.read_unread _
      iexact H0
    isplitl [H1]; · iexists _; iexact H1
    iexists _; iexact HS0

/-! ## What each case leaves: the accumulator, and at the last tile the output block -/

/-- Each case's stores into the accumulator cover it. -/
theorem accCover_first (c : Dev nD) (i : grid0.Coords) (arg1 : Memref sig .tc .vmem S4x512x1024 .f32) (harg1 : arg1.IsWhole) (arg2 : Memref sig .tc .vmem S4x1024 .f32) (harg2 : arg2.IsWhole) (arg3 : Memref sig .tc .vmem S4x1024 .f32) (harg3 : arg3.IsWhole) (h0 : atFirst i) (h7 : ¬atLast i)
    (x0 : Vec F S4x512x1024 .f32) (y : S4x1024.Idx) :
    ∃ pc ∈ (runFirst c i arg1 harg1 arg2 harg2 arg3 harg3 h0 h7 x0).2.1, y ∈ pc.1.set :=
  View.cover_of_tiledL (runFirst c i arg1 harg1 arg2 harg2 arg3 harg3 h0 h7 x0).2.1 S4x1024.size (by sl_kernel_rfl) y

theorem accCover_mid (c : Dev nD) (i : grid0.Coords) (arg1 : Memref sig .tc .vmem S4x512x1024 .f32) (harg1 : arg1.IsWhole) (arg2 : Memref sig .tc .vmem S4x1024 .f32) (harg2 : arg2.IsWhole) (arg3 : Memref sig .tc .vmem S4x1024 .f32) (harg3 : arg3.IsWhole) (h0 : ¬atFirst i) (h7 : ¬atLast i)
    (x0 : Vec F S4x512x1024 .f32) (xa : Vec F S4x1024 .f32) (y : S4x1024.Idx) :
    ∃ pc ∈ (runMid c i arg1 harg1 arg2 harg2 arg3 harg3 h0 h7 x0 xa).2.1, y ∈ pc.1.set :=
  View.cover_of_tiledL (runMid c i arg1 harg1 arg2 harg2 arg3 harg3 h0 h7 x0 xa).2.1 S4x1024.size (by sl_kernel_rfl) y

theorem accCover_last (c : Dev nD) (i : grid0.Coords) (arg1 : Memref sig .tc .vmem S4x512x1024 .f32) (harg1 : arg1.IsWhole) (arg2 : Memref sig .tc .vmem S4x1024 .f32) (harg2 : arg2.IsWhole) (arg3 : Memref sig .tc .vmem S4x1024 .f32) (harg3 : arg3.IsWhole) (h0 : ¬atFirst i) (h7 : atLast i)
    (x0 : Vec F S4x512x1024 .f32) (xa : Vec F S4x1024 .f32) (y : S4x1024.Idx) :
    ∃ pc ∈ (runLast c i arg1 harg1 arg2 harg2 arg3 harg3 h0 h7 x0 xa).2.1, y ∈ pc.1.set :=
  View.cover_of_tiledL (runLast c i arg1 harg1 arg2 harg2 arg3 harg3 h0 h7 x0 xa).2.1 S4x1024.size (by sl_kernel_rfl) y

/-- The last tile's store into the output block covers it. -/
theorem outCover_last (c : Dev nD) (i : grid0.Coords) (arg1 : Memref sig .tc .vmem S4x512x1024 .f32) (harg1 : arg1.IsWhole) (arg2 : Memref sig .tc .vmem S4x1024 .f32) (harg2 : arg2.IsWhole) (arg3 : Memref sig .tc .vmem S4x1024 .f32) (harg3 : arg3.IsWhole) (h0 : ¬atFirst i) (h7 : atLast i)
    (x0 : Vec F S4x512x1024 .f32) (xa : Vec F S4x1024 .f32) (y : S4x1024.Idx) :
    ∃ pc ∈ (runLast c i arg1 harg1 arg2 harg2 arg3 harg3 h0 h7 x0 xa).1, y ∈ pc.1.set :=
  View.cover_of_tiledL (runLast c i arg1 harg1 arg2 harg2 arg3 harg3 h0 h7 x0 xa).1 S4x1024.size (by sl_kernel_rfl) y

/-- The accumulator after the first tile: its pieces read back. -/
def accFirst (c : Dev nD) (i : grid0.Coords) (arg1 : Memref sig .tc .vmem S4x512x1024 .f32) (harg1 : arg1.IsWhole) (arg2 : Memref sig .tc .vmem S4x1024 .f32) (harg2 : arg2.IsWhole) (arg3 : Memref sig .tc .vmem S4x1024 .f32) (harg3 : arg3.IsWhole) (h0 : atFirst i) (h7 : ¬atLast i)
    (x0 : Vec F S4x512x1024 .f32) : Vec F S4x1024 .f32 :=
  accView.read (Elt F) (accView.writes (Elt F) accView.junk (runFirst c i arg1 harg1 arg2 harg2 arg3 harg3 h0 h7 x0).2.1)

/-- The accumulator after a middle tile. -/
def accMid (c : Dev nD) (i : grid0.Coords) (arg1 : Memref sig .tc .vmem S4x512x1024 .f32) (harg1 : arg1.IsWhole) (arg2 : Memref sig .tc .vmem S4x1024 .f32) (harg2 : arg2.IsWhole) (arg3 : Memref sig .tc .vmem S4x1024 .f32) (harg3 : arg3.IsWhole) (h0 : ¬atFirst i) (h7 : ¬atLast i)
    (x0 : Vec F S4x512x1024 .f32) (xa : Vec F S4x1024 .f32) : Vec F S4x1024 .f32 :=
  accView.read (Elt F) (accView.writes (Elt F) accView.junk (runMid c i arg1 harg1 arg2 harg2 arg3 harg3 h0 h7 x0 xa).2.1)

/-- The accumulator after the last tile, -/
def accLast (c : Dev nD) (i : grid0.Coords) (arg1 : Memref sig .tc .vmem S4x512x1024 .f32) (harg1 : arg1.IsWhole) (arg2 : Memref sig .tc .vmem S4x1024 .f32) (harg2 : arg2.IsWhole) (arg3 : Memref sig .tc .vmem S4x1024 .f32) (harg3 : arg3.IsWhole) (h0 : ¬atFirst i) (h7 : atLast i)
    (x0 : Vec F S4x512x1024 .f32) (xa : Vec F S4x1024 .f32) : Vec F S4x1024 .f32 :=
  accView.read (Elt F) (accView.writes (Elt F) accView.junk (runLast c i arg1 harg1 arg2 harg2 arg3 harg3 h0 h7 x0 xa).2.1)

/-- and the output block. -/
def outLast (c : Dev nD) (i : grid0.Coords) (arg1 : Memref sig .tc .vmem S4x512x1024 .f32) (harg1 : arg1.IsWhole) (arg2 : Memref sig .tc .vmem S4x1024 .f32) (harg2 : arg2.IsWhole) (arg3 : Memref sig .tc .vmem S4x1024 .f32) (harg3 : arg3.IsWhole) (h0 : ¬atFirst i) (h7 : atLast i)
    (x0 : Vec F S4x512x1024 .f32) (xa : Vec F S4x1024 .f32) : Vec F S4x1024 .f32 :=
  outView.read (Elt F) (outView.writes (Elt F) outView.junk (runLast c i arg1 harg1 arg2 harg2 arg3 harg3 h0 h7 x0 xa).1)

/-! ## The tiles of x and the running accumulator -/

section Region
variable (V : Entry F)

/-- Window `w`'s block at tile `t`, read off its array as the region finds it. -/
def tile (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's current staging buffer holds tile `t` of x when the body runs there, for any proof data whose
    array is the entry contents and whose body leaves the tile in place. -/
theorem xBefore_of {c : Dev nD} (dat : Dat τ (Elt F) Unit ℕ (UR sig nD τ) ℕ cfg0 c) (hA : dat.A 0 = V c (Pipeline.arrRef spec0 0))
    (hafter : ∀ t, dat.after 0 t = tile V c 0 t) (t : Fin cfg0.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- THE ACCUMULATION. What the output block and the accumulator hold after the body at tile `n` (the pair: output
    block, accumulator): tile 0 starts from zero, tile `n + 1` continues from what tile `n` left, tile 7 also copies
    out.  Before tile 7 the output component is a placeholder nothing reads (the block is neither stored nor written back). -/
def heldAt (c : Dev nD) : (n : ℕ) → n < cfg0.N → Vec F S4x1024 .f32 × Vec F S4x1024 .f32
  | 0, hn => (outView.read (Elt F) outView.junk, accFirst c (grid0.coords ⟨0, hn⟩) (xBuf ⟨0, hn⟩) (xBuf_whole ⟨0, hn⟩) (oBuf ⟨0, hn⟩) (oBuf_whole ⟨0, hn⟩) accBuf (Memref.isWhole_whole _) ((atFirst_iff ⟨0, hn⟩).mpr rfl) (fun h => absurd ((atLast_iff ⟨0, hn⟩).mp h) (show ¬((0 : ℕ) = 7) from by decide)) (tile V c 0 ⟨0, hn⟩))
  | n + 1, hn =>
    if h7 : n + 1 = 7 then
      (outLast c (grid0.coords ⟨n + 1, hn⟩) (xBuf ⟨n + 1, hn⟩) (xBuf_whole ⟨n + 1, hn⟩) (oBuf ⟨n + 1, hn⟩) (oBuf_whole ⟨n + 1, hn⟩) accBuf (Memref.isWhole_whole _) (fun h => absurd ((atFirst_iff ⟨n + 1, hn⟩).mp h) (Nat.succ_ne_zero n)) ((atLast_iff ⟨n + 1, hn⟩).mpr h7) (tile V c 0 ⟨n + 1, hn⟩) (heldAt c n (Nat.lt_of_succ_lt hn)).2,
       accLast c (grid0.coords ⟨n + 1, hn⟩) (xBuf ⟨n + 1, hn⟩) (xBuf_whole ⟨n + 1, hn⟩) (oBuf ⟨n + 1, hn⟩) (oBuf_whole ⟨n + 1, hn⟩) accBuf (Memref.isWhole_whole _) (fun h => absurd ((atFirst_iff ⟨n + 1, hn⟩).mp h) (Nat.succ_ne_zero n)) ((atLast_iff ⟨n + 1, hn⟩).mpr h7) (tile V c 0 ⟨n + 1, hn⟩) (heldAt c n (Nat.lt_of_succ_lt hn)).2)
    else
      (outView.read (Elt F) outView.junk,
       accMid c (grid0.coords ⟨n + 1, hn⟩) (xBuf ⟨n + 1, hn⟩) (xBuf_whole ⟨n + 1, hn⟩) (oBuf ⟨n + 1, hn⟩) (oBuf_whole ⟨n + 1, hn⟩) accBuf (Memref.isWhole_whole _) (fun h => absurd ((atFirst_iff ⟨n + 1, hn⟩).mp h) (Nat.succ_ne_zero n)) (fun h => h7 ((atLast_iff ⟨n + 1, hn⟩).mp h)) (tile V c 0 ⟨n + 1, hn⟩) (heldAt c n (Nat.lt_of_succ_lt hn)).2)

/-- `heldAt` at tile 0. -/
theorem heldAt_first (c : Dev nD) (t : Fin cfg0.N) (h0 : t.val = 0) (h7 : ¬t.val = 7) :
    heldAt V c t.val t.isLt = (outView.read (Elt F) outView.junk, accFirst c (grid0.coords t) (xBuf t) (xBuf_whole t) (oBuf t) (oBuf_whole t) accBuf (Memref.isWhole_whole _) ((atFirst_iff t).mpr h0) (fun h => h7 ((atLast_iff t).mp h)) (tile V c 0 t)) := by
  obtain ⟨n, hn⟩ := t
  cases n with
  | zero => exact rfl
  | succ n => exact absurd h0 (Nat.succ_ne_zero n)

/-- `heldAt` at a middle tile: over what the tile before left. -/
theorem heldAt_mid (c : Dev nD) (t : Fin cfg0.N) (h0 : ¬t.val = 0) (h7 : ¬t.val = 7) :
    heldAt V c t.val t.isLt = (outView.read (Elt F) outView.junk, accMid c (grid0.coords t) (xBuf t) (xBuf_whole t) (oBuf t) (oBuf_whole t) accBuf (Memref.isWhole_whole _) (fun h => h0 ((atFirst_iff t).mp h)) (fun h => h7 ((atLast_iff t).mp h)) (tile V c 0 t) (heldAt V c (t.val - 1) (Nat.lt_of_le_of_lt (Nat.sub_le _ _) t.isLt)).2) := by
  obtain ⟨n, hn⟩ := t
  cases n with
  | zero => exact absurd rfl h0
  | succ n => exact (dif_neg h7).trans rfl

/-- `heldAt` at the last tile: over what the tile before left. -/
theorem heldAt_last (c : Dev nD) (t : Fin cfg0.N) (h0 : ¬t.val = 0) (h7 : t.val = 7) :
    heldAt V c t.val t.isLt = (outLast c (grid0.coords t) (xBuf t) (xBuf_whole t) (oBuf t) (oBuf_whole t) accBuf (Memref.isWhole_whole _) (fun h => h0 ((atFirst_iff t).mp h)) ((atLast_iff t).mpr h7) (tile V c 0 t) (heldAt V c (t.val - 1) (Nat.lt_of_le_of_lt (Nat.sub_le _ _) t.isLt)).2, accLast c (grid0.coords t) (xBuf t) (xBuf_whole t) (oBuf t) (oBuf_whole t) accBuf (Memref.isWhole_whole _) (fun h => h0 ((atFirst_iff t).mp h)) ((atLast_iff t).mpr h7) (tile V c 0 t) (heldAt V c (t.val - 1) (Nat.lt_of_le_of_lt (Nat.sub_le _ _) t.isLt)).2) := by
  obtain ⟨n, hn⟩ := t
  cases n with
  | zero => exact absurd rfl h0
  | succ n => exact (dif_pos h7).trans rfl

/-- The region's invariant before tile `n`: at the first tile what the region is entered with; afterwards the accumulator
    at what the tile before left, the later region's scoped buffers at some contents, the random-number register at some state. -/
def Inv (c : Dev nD) : (n : ℕ) → n ≤ cfg0.N → sProp 𝕄
  | 0, _ => Pipeline.ΦA spec0 c
  | n + 1, hn => iprop(iprop(owns (c : Thread nD τ) accBuf fullShare ((heldAt V c n hn).2) ∗ laterScoped (F := F) c) ∗ (∃ r, prngReg c r))

theorem Inv_zero (c : Dev nD) (n : ℕ) (h : n ≤ cfg0.N) (hz : n = 0) : Inv V c n h = Pipeline.ΦA spec0 c := by
  subst hz; rfl

theorem Inv_succ (c : Dev nD) (n : ℕ) (hn : n < cfg0.N) :
    Inv V c (n + 1) hn = iprop(iprop(owns (c : Thread nD τ) accBuf fullShare ((heldAt V c n hn).2) ∗ laterScoped (F := F) c) ∗ (∃ r, prngReg c r)) := rfl

theorem Inv_pos (c : Dev nD) (n : ℕ) (h : n ≤ cfg0.N) (hz : n ≠ 0) :
    Inv V c n h = iprop(iprop(owns (c : Thread nD τ) accBuf fullShare ((heldAt V c (n - 1) (by omega)).2) ∗ laterScoped (F := F) c) ∗ (∃ r, prngReg c r)) := by
  cases n with
  | zero => exact absurd rfl hz
  | succ n => rfl

end Region

/-! ## The proof data -/

/-- The proof data of region 0 at the entry contents `V`. -/
def dat (V : Entry F) (c : Dev nD) : Dat τ (Elt F) Unit ℕ (UR sig nD τ) ℕ cfg0 c where
  A w := V c (Pipeline.arrRef spec0 w)
  after w t := match w with
    | ⟨0, _⟩ => tile V c 0 t
    | ⟨1, _⟩ => (heldAt V c t.val t.isLt).1
  Φ t := Inv V c t.val (Nat.le_of_lt_succ t.isLt)
  q _ := fullShare
  owed _ := 0

theorem A_eq (V : Entry F) (c : Dev nD) (w : Fin cfg0.W) : (dat V c).A w = V c (Pipeline.arrRef spec0 w) := by
  dsimp only [dat]
theorem q_eq (V : Entry F) (c : Dev nD) (w : Fin cfg0.W) : (dat V c).q w = fullShare := by
  dsimp only [dat]
theorem owed_eq (V : Entry F) (c : Dev nD) (t : Fin (cfg0.N + 1)) : (dat V c).owed t = 0 := by
  dsimp only [dat]
theorem recorded_eq (V : Entry F) (c : Dev nD) (t : Fin (cfg0.N + 1)) : (dat V c).recorded t = Set.univ := by
  dsimp only [dat]

section Body
variable (V : Entry F)

theorem Inv_castSucc (c : Dev nD) (t : Fin cfg0.N) :
    (dat V c).Φ t.castSucc = Inv V c t.val (Nat.le_of_lt t.isLt) := by
  dsimp only [dat]; simp only [Fin.coe_castSucc]

theorem after_x (c : Dev nD) (t : Fin cfg0.N) : (dat V c).after 0 t = tile V c 0 t := by dsimp only [dat]
theorem after_out (c : Dev nD) (t : Fin cfg0.N) : (dat V c).after 1 t = (heldAt V c t.val t.isLt).1 := by dsimp only [dat]

theorem before_x (c : Dev nD) (t : Fin cfg0.N) (d) : (dat V c).before 0 t d = tile V c 0 t :=
  xBefore_of V (dat V c) (A_eq V c 0) (after_x V c) t d

/-! ## The body obligation -/

/-- What the body is called with at tile `t`, -/
def bodyPre (c : Dev nD) (t : Fin cfg0.N) : sProp 𝕄 :=
  iprop((dat V c).Φ t.castSucc ∗ (dat V c).owesAt () t.castSucc
    ∗ (∃ d, owns (c : Thread nD τ) (xBuf t) fullShare ((dat V c).before 0 t d))
    ∗ (∃ d, owns (c : Thread nD τ) (oBuf t) fullShare ((dat V c).before 1 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x]
  rw [show (dat V c).owesAt () t.succ = (dat V c).owesAt () t.castSucc from rfl]
  rw [show (dat V c).Φ t.succ = Inv V c (t.val + 1) t.isLt from rfl, Inv_succ]
  have hN : t.val < 8 := lt_of_lt_of_eq t.isLt (show cfg0.N = 8 from N_0)
  rw [show (dat V c).leavesExact 0 t = owns (c : Thread nD τ) (xBuf t) fullShare ((dat V c).after 0 t) from by
    unfold Dat.leavesExact; rw [xLive t], after_x]
  by_cases h0 : t.val = 0
  · have h7 : ¬t.val = 7 := by omega
    rw [Dat.leavesExact_idle (dat V c) 1 t (outIdle t (fun h => h7 ((atLast_iff t).mp h))) (outKept t (fun h => h7 ((atLast_iff t).mp h)))]
    rw [heldAt_first V c t h0 h7]
    unfold accFirst; (try dsimp only)
    rw [Inv_castSucc V c t, Inv_zero V c _ _ h0, entry_eq]
    iintro ⟨⟨⟨HA, HL⟩, Hg⟩, Ho, ⟨%d0, H0⟩, ⟨%d1, H1⟩⟩
    iapply ((runFirst c (grid0.coords t) _ _ _ _ _ _ ((atFirst_iff t).mpr h0) (fun h => h7 ((atLast_iff t).mp h)) (tile V c 0 t)).2.2 _ Set.univ _)
    isplitl [H0]; · iexact H0
    isplitl [H1]; · iexact H1
    isplitl [HA]; · iexact HA
    iintro ⟨H0, H1, ⟨%ea, HA⟩⟩
    isplitl [HA HL Hg]
    · isplitl [HA HL]
      · isplitl [HA]
        · unfold owns; iexists _; isplitr
          swap; · iexact HA
          ipureintro; exact View.read_writes_of_cover _ _ _ _ _ (accCover_first c _ _ _ _ _ _ _ _ _ _)
        iexact HL
      iexact Hg
    isplitl [Ho]; · iexact Ho
    isplitl [H0]; · iexact H0
    iexists _; iexact H1
  · by_cases h7 : t.val = 7
    · rw [show (dat V c).leavesExact 1 t = owns (c : Thread nD τ) (oBuf t) fullShare ((dat V c).after 1 t) from by
        unfold Dat.leavesExact; rw [outLive t ((atLast_iff t).mpr h7)], after_out]
      rw [heldAt_last V c t h0 h7]
      unfold outLast accLast; (try dsimp only)
      rw [Inv_castSucc V c t, Inv_pos V c _ _ h0]
      iintro ⟨⟨⟨HA, HL⟩, Hg⟩, Ho, ⟨%d0, H0⟩, ⟨%d1, H1⟩⟩
      iapply ((runLast c (grid0.coords t) _ _ _ _ _ _ (fun h => h0 ((atFirst_iff t).mp h)) ((atLast_iff t).mpr h7) (tile V c 0 t) _).2.2 Set.univ _)
      isplitl [H0]; · iexact H0
      isplitl [H1]; · iexists _; iexact H1
      isplitl [HA]; · iexact HA
      iintro ⟨H0, ⟨%e1, H1⟩, ⟨%ea, HA⟩⟩
      isplitl [HA HL Hg]
      · isplitl [HA HL]
        · isplitl [HA]
          · unfold owns; iexists _; isplitr
            swap; · iexact HA
            ipureintro; exact View.read_writes_of_cover _ _ _ _ _ (accCover_last c _ _ _ _ _ _ _ _ _ _ _)
          iexact HL
        iexact Hg
      isplitl [Ho]; · iexact Ho
      isplitl [H0]; · iexact H0
      unfold owns; iexists _; isplitr
      swap; · iexact H1
      ipureintro; exact View.read_writes_of_cover _ _ _ _ _ (outCover_last c _ _ _ _ _ _ _ _ _ _ _)
    · rw [Dat.leavesExact_idle (dat V c) 1 t (outIdle t (fun h => h7 ((atLast_iff t).mp h))) (outKept t (fun h => h7 ((atLast_iff t).mp h)))]
      rw [heldAt_mid V c t h0 h7]
      unfold accMid; (try dsimp only)
      rw [Inv_castSucc V c t, Inv_pos V c _ _ h0]
      iintro ⟨⟨⟨HA, HL⟩, Hg⟩, Ho, ⟨%d0, H0⟩, ⟨%d1, H1⟩⟩
      iapply ((runMid c (grid0.coords t) _ _ _ _ _ _ (fun h => h0 ((atFirst_iff t).mp h)) (fun h => h7 ((atLast_iff t).mp h)) (tile V c 0 t) _).2.2 _ Set.univ _)
      isplitl [H0]; · iexact H0
      isplitl [H1]; · iexact H1
      isplitl [HA]; · iexact HA
      iintro ⟨H0, H1, ⟨%ea, HA⟩⟩
      isplitl [HA HL Hg]
      · isplitl [HA HL]
        · isplitl [HA]
          · unfold owns; iexists _; isplitr
            swap; · iexact HA
            ipureintro; exact View.read_writes_of_cover _ _ _ _ _ (accCover_mid c _ _ _ _ _ _ _ _ _ _ _)
          iexact HL
        iexact Hg
      isplitl [Ho]; · iexact Ho
      isplitl [H0]; · iexact H0
      iexists _; iexact H1

end Body

theorem body_obligation (V : Entry F) (c : Dev nD) : BodyObligation (dat (F := F) V c) (defs₀ (F := F)) Variants.none () Set.univ := fun t => by
  rw [bigSep_W0, bigSep_W0]
  exact sound_body V c t

theorem hin (V : Entry F) (c : Dev nD) : (Pipeline.ΦA spec0 c : sProp 𝕄) ⊢ (dat V c).Φ 0 := by
  rw [show (dat V c).Φ 0 = Inv V c 0 (Nat.zero_le _) from rfl, Inv_zero V c 0 _ rfl]
  try exact Idealize.SL.BI.Entails.refl _

/-- After any tile the invariant gives the entry form back: the accumulator's named contents are forgotten. -/
theorem Inv_out (V : Entry F) (c : Dev nD) (t : Fin (cfg0.N + 1)) (ht : t.val ≠ 0) : (dat V c).Φ t ⊢ (Pipeline.ΦA spec0 c : sProp 𝕄) := by
  rw [show (dat V c).Φ t = Inv V c t.val (Nat.le_of_lt_succ t.isLt) from rfl, Inv_pos V c _ _ ht, entry_eq]
  iintro ⟨⟨HA, HL⟩, Hg⟩
  isplitl [HA HL]
  · isplitl [HA]
    · iexists _; iexact HA
    iexact HL
  iexact Hg

theorem hout (V : Entry F) (c : Dev nD) : (dat V c).Φ (Fin.last cfg0.N) ⊢ (Pipeline.ΦA spec0 c : sProp 𝕄) :=
  Inv_out V c _ (by rw [Fin.val_last]; have : cfg0.N = 8 := N_0; omega)

/-! ## The cases' pieces as the body's arithmetic -/

theorem zero2 : (![0, 0] : Fin 2 → Nat) = fun _ => 0 := funext fun a => by fin_cases a <;> rfl
theorem zero3 : (![0, 0, 0] : Fin 3 → Nat) = fun _ => 0 := funext fun a => by fin_cases a <;> rfl

/-- The first tile leaves the zero block plus the tile's column sums. -/
theorem accFirst_eq (c : Dev nD) (i : grid0.Coords) (a1 : Memref sig .tc .vmem S4x512x1024 .f32) (h1 : a1.IsWhole) (a2 : Memref sig .tc .vmem S4x1024 .f32) (h2 : a2.IsWhole) (a3 : Memref sig .tc .vmem S4x1024 .f32) (h3 : a3.IsWhole) (h0 : atFirst i) (h7 : ¬atLast i)
    (x0 : Vec F S4x512x1024 .f32) :
    accFirst c i a1 h1 a2 h2 a3 h3 h0 h7 x0 = k0_pay2 (k0_pay1 (F := F)) x0 := by
  unfold accFirst
  rw [View.read_writes_eq_canon _ _ _ (accCover_first c i a1 h1 a2 h2 a3 h3 h0 h7 x0)]
  unfold runFirst
  dsimp only
  sl_unfold_words
  rw [View.canon_cons_unit_zero (S := S4x1024) zero2, View.readCov_unit_zero (S := S4x1024) _ zero2]
  simp only [View.readAt_eq_ld, h1.read_unread, View.ld_unit_zero (S := S4x512x1024) zero3]

/-- A middle tile adds its column sums onto what the accumulator held. -/
theorem accMid_eq (c : Dev nD) (i : grid0.Coords) (a1 : Memref sig .tc .vmem S4x512x1024 .f32) (h1 : a1.IsWhole) (a2 : Memref sig .tc .vmem S4x1024 .f32) (h2 : a2.IsWhole) (a3 : Memref sig .tc .vmem S4x1024 .f32) (h3 : a3.IsWhole) (h0 : ¬atFirst i) (h7 : ¬atLast i)
    (x0 : Vec F S4x512x1024 .f32) (xa : Vec F S4x1024 .f32) :
    accMid c i a1 h1 a2 h2 a3 h3 h0 h7 x0 xa = k0_pay2 xa x0 := by
  unfold accMid
  rw [View.read_writes_eq_canon _ _ _ (accCover_mid c i a1 h1 a2 h2 a3 h3 h0 h7 x0 xa)]
  unfold runMid
  dsimp only
  try sl_unfold_words
  rw [View.canon_unit_zero zero2]
  simp only [View.readAt_eq_ld, h1.read_unread, h3.read_unread, View.ld_unit_zero (S := S4x512x1024) zero3, View.ld_unit_zero (S := S4x1024) zero2]

/-- So does the last tile, -/
theorem accLast_eq (c : Dev nD) (i : grid0.Coords) (a1 : Memref sig .tc .vmem S4x512x1024 .f32) (h1 : a1.IsWhole) (a2 : Memref sig .tc .vmem S4x1024 .f32) (h2 : a2.IsWhole) (a3 : Memref sig .tc .vmem S4x1024 .f32) (h3 : a3.IsWhole) (h0 : ¬atFirst i) (h7 : atLast i)
    (x0 : Vec F S4x512x1024 .f32) (xa : Vec F S4x1024 .f32) :
    accLast c i a1 h1 a2 h2 a3 h3 h0 h7 x0 xa = k0_pay2 xa x0 := by
  unfold accLast
  rw [View.read_writes_eq_canon _ _ _ (accCover_last c i a1 h1 a2 h2 a3 h3 h0 h7 x0 xa)]
  unfold runLast
  dsimp only
  try sl_unfold_words
  rw [View.canon_unit_zero zero2]
  simp only [View.readAt_eq_ld, h1.read_unread, h3.read_unread, View.ld_unit_zero (S := S4x512x1024) zero3, View.ld_unit_zero (S := S4x1024) zero2]

/-- and the output block gets a copy of the accumulator. -/
theorem outLast_eq (c : Dev nD) (i : grid0.Coords) (a1 : Memref sig .tc .vmem S4x512x1024 .f32) (h1 : a1.IsWhole) (a2 : Memref sig .tc .vmem S4x1024 .f32) (h2 : a2.IsWhole) (a3 : Memref sig .tc .vmem S4x1024 .f32) (h3 : a3.IsWhole) (h0 : ¬atFirst i) (h7 : atLast i)
    (x0 : Vec F S4x512x1024 .f32) (xa : Vec F S4x1024 .f32) :
    outLast c i a1 h1 a2 h2 a3 h3 h0 h7 x0 xa = k0_pay2 xa x0 := by
  unfold outLast
  rw [View.read_writes_eq_canon _ _ _ (outCover_last c i a1 h1 a2 h2 a3 h3 h0 h7 x0 xa)]
  unfold runLast
  dsimp only
  try sl_unfold_words
  rw [View.canon_unit_zero zero2, View.readCov_unit_zero (S := S4x1024) _ zero2]
  simp only [View.readAt_eq_ld, h1.read_unread, h3.read_unread, View.ld_unit_zero (S := S4x512x1024) zero3, View.ld_unit_zero (S := S4x1024) zero2]

/-! ## The accumulator is the running column sum -/

/-- The accumulator after tile `n` as the body's arithmetic: the zero block, then each tile's column sums added. -/
def colAcc (V : Entry F) (c : Dev nD) : (n : ℕ) → n < cfg0.N → Vec F S4x1024 .f32
  | 0, h => k0_pay2 (k0_pay1 (F := F)) (tile V c 0 ⟨0, h⟩)
  | n + 1, h => k0_pay2 (colAcc V c n (Nat.lt_of_succ_lt h)) (tile V c 0 ⟨n + 1, h⟩)

/-- What the accumulator is left holding, tile by tile, is that chain. -/
theorem heldAt_acc (V : Entry F) (c : Dev nD) : ∀ (n : ℕ) (h : n < cfg0.N), (heldAt V c n h).2 = colAcc V c n h
  | 0, h => by
    rw [heldAt_first V c ⟨0, h⟩ rfl (show ¬((0 : ℕ) = 7) from by decide)]
    dsimp only
    exact accFirst_eq c (grid0.coords ⟨0, h⟩) (xBuf ⟨0, h⟩) (xBuf_whole ⟨0, h⟩) (oBuf ⟨0, h⟩) (oBuf_whole ⟨0, h⟩) accBuf (Memref.isWhole_whole _) _ _ (tile V c 0 ⟨0, h⟩)
  | n + 1, h => by
    by_cases h7 : n + 1 = 7
    · rw [heldAt_last V c ⟨n + 1, h⟩ (Nat.succ_ne_zero n) h7]
      dsimp only
      rw [accLast_eq]
      show k0_pay2 (heldAt V c n _).2 _ = k0_pay2 (colAcc V c n _) _
      rw [heldAt_acc V c n]
    · rw [heldAt_mid V c ⟨n + 1, h⟩ (Nat.succ_ne_zero n) h7]
      dsimp only
      rw [accMid_eq]
      show k0_pay2 (heldAt V c n _).2 _ = k0_pay2 (colAcc V c n _) _
      rw [heldAt_acc V c n]

theorem lt7 : (7 : ℕ) < cfg0.N := by rw [show cfg0.N = 8 from N_0]; decide

/-- The chain after the last tile, as contents of the output array (whose one block is the whole array). -/
abbrev total (V : Entry F) (c : Dev nD) : Buf (Elt F) ((c : Thread nD τ).loc main_v4) := colAcc V c 7 lt7

/-- The output block after the last tile holds it. -/
theorem heldAt_out (V : Entry F) (c : Dev nD) (t : Fin cfg0.N) (h7 : t.val = 7) : (heldAt V c t.val t.isLt).1 = total V c := by
  obtain ⟨n, hn⟩ := t
  have h7' : n = 7 := h7
  subst h7'
  rw [heldAt_last V c ⟨7, hn⟩ (show ¬((7 : ℕ) = 0) from by decide) rfl]
  dsimp only
  rw [outLast_eq, heldAt_acc]
  rfl

/-- The one write-back, at tile 7, writes it: block (0, 0) of the output array is the array. -/
theorem flushed_eq (V : Entry F) (c : Dev nD) (t : Fin cfg0.N) (hf : (cfg0.win 1).flush t = true) :
    (dat V c).flushed 1 t = ((cfg0.win 1).blk t).view.read (Elt F) (total V c) := by
  have hN : cfg0.N = 8 := N_0
  have h7 : t.val = 7 := by have := (flush0_1 t).mp hf; have := t.isLt; omega
  obtain rfl : t = t0_7 := Fin.ext h7
  show (cfg0.win 1).cut (grid0.coords t0_7) ((dat V c).after 1 t0_7) = _
  rw [after_out, heldAt_out V c t0_7 rfl]
  have hz' : (fun a => win0_1.index t0_7 a * main_v4.ty.shape.size a) = fun _ => 0 := funext fun a => by fin_cases a <;> decide
  exact (Memref.read_access_unit_zero (Elt F) main_v4 hz' (fun a => by rw [congrFun hz' a]; simp) (total V c)).symm

/-- So the output array ends holding the chain after the last tile. -/
theorem arr_eq_total (V : Entry F) (c : Dev nD) : (dat V c).arrAt 1 cfg0.N = total V c :=
  (dat V c).arrAt_eq_of_cover 1 (total V c) (flushed_eq V c) fun i =>
    ⟨t0_7, (flush0_1 t0_7).mpr rfl, by
      show i ∈ ((View.whole main_v4).slice (win0_1.rect t0_7)).set
      rw [View.set_slice_whole, Rect.mem_set_unit]
      intro a
      have h0 : (i 0 : Nat) < 4 := (i 0).isLt
      have h1 : (i 1 : Nat) < 1024 := (i 1).isLt
      match a with
      | ⟨0, _⟩ => show win0_1.index t0_7 0 * win0_1.size 0 ≤ (i 0 : Nat) ∧ (i 0 : Nat) < win0_1.index t0_7 0 * win0_1.size 0 + win0_1.xsize (grid0.coords t0_7) 0
                  rw [show win0_1.index t0_7 0 * win0_1.size 0 = 0 from by decide +kernel, show win0_1.xsize (grid0.coords t0_7) 0 = 4 from by decide +kernel]; omega
      | ⟨1, _⟩ => show win0_1.index t0_7 1 * win0_1.size 1 ≤ (i 1 : Nat) ∧ (i 1 : Nat) < win0_1.index t0_7 1 * win0_1.size 1 + win0_1.xsize (grid0.coords t0_7) 1
                  rw [show win0_1.index t0_7 1 * win0_1.size 1 = 0 from by decide +kernel, show win0_1.xsize (grid0.coords t0_7) 1 = 1024 from by decide +kernel]; omega⟩

/-! ## At the exact reals: the chain is the sum over the sequence axis -/

section Exact
open Idealize.ShloMosaic.ValueIdx

/-- The x window's block at tile `t` is rows `512 t … 512 t + 511` of x. -/
theorem tile_apply (V : Entry F) (c : Dev nD) (t : Fin cfg0.N) (x : S4x512x1024.Idx) (k : S4x4096x1024.Idx)
    (hk0 : (k 0).val = (x 0).val) (hk1 : (k 1).val = 512 * t.val + (x 1).val) (hk2 : (k 2).val = (x 2).val) :
    (tile V c 0 t : Vec F S4x512x1024 .f32) x = (V c main_arg0 : S4x4096x1024.Idx → Elt F .f32) k := by
  have hi : win0_0.index t 0 = 0 ∧ win0_0.index t 1 = t.val ∧ win0_0.index t 2 = 0 := by
    rcases fin_N0 t with rfl | rfl | rfl | rfl | rfl | rfl | rfl | rfl <;> decide
  unfold tile
  rw [View.read_apply]
  show V c main_arg0 _ = V c main_arg0 _
  congr 1
  funext a
  apply Fin.ext
  match a with
  | ⟨0, _⟩ => show win0_0.index t 0 * 4 + 1 * (x 0).val = (k 0).val; rw [hi.1, hk0]; omega
  | ⟨1, _⟩ => show win0_0.index t 1 * 512 + 1 * (x 1).val = (k 1).val; rw [hi.2.1, hk1]; omega
  | ⟨2, _⟩ => show win0_0.index t 2 * 1024 + 1 * (x 2).val = (k 2).val; rw [hi.2.2, hk2]; omega

/-- The x array and its tiles at the exact reals, at their literal types. -/
abbrev xarr (V : Entry Ideal) (c : Dev nD) : S4x4096x1024.Idx → EReal := V c main_arg0
abbrev xtile (V : Entry Ideal) (c : Dev nD) (t : Fin cfg0.N) : S4x512x1024.Idx → EReal := tile V c 0 t

/-- x at batch entry `b`, sequence position `k` and feature `e`; zero past the sequence's end. -/
def xAt (x : S4x4096x1024.Idx → EReal) (b : Fin 4) (e : Fin 1024) (k : ℕ) : EReal :=
  if h : k < 4096 then x (ix3 b ⟨k, h⟩ e) else 0

/-- The zero block is zero. -/
theorem pay1_apply (b : Fin 4) (e : Fin 1024) : (k0_pay1 (F := Ideal) : S4x1024.Idx → EReal) (ix2 b e) = 0 := by
  unfold k0_pay1
  refine (congrFun (shapeCast_self _ _) (ix2 b e)).trans ?_
  exact Ideal.ofBits_zero_f32

/-- One accumulation step at an entry: what was there plus the tile's sum down its 512 rows. -/
theorem pay2_apply (xa : S4x1024.Idx → EReal) (x0 : S4x512x1024.Idx → EReal) (b : Fin 4) (e : Fin 1024) :
    (k0_pay2 (F := Ideal) xa x0 : S4x1024.Idx → EReal) (ix2 b e) = xa (ix2 b e) + ∑ r : Fin 512, x0 (ix3 b r e) := by
  unfold k0_pay2
  refine (congrFun (shapeCast_self _ _) (ix2 b e)).trans ?_
  refine congrArg (fun z => xa (ix2 b e) + z) ?_
  exact (Ideal.multiReduction_add_single (φ := .f32) x0 _ reduces_S4x512x1024_S4x1024 _ _ (ix2 b e)).trans
    (Finset.sum_congr rfl fun k _ => congrArg x0 (funext fun ax => Fin.ext (by
      match ax with
      | ⟨0, _⟩ => rfl
      | ⟨1, _⟩ => rfl
      | ⟨2, _⟩ => rfl)))

/-- A tile's sum down its rows is x summed over the tile's 512 sequence positions. -/
theorem tile_sum (V : Entry Ideal) (c : Dev nD) (t : Fin cfg0.N) (b : Fin 4) (e : Fin 1024) :
    ∑ r : Fin 512, xtile V c t (ix3 b r e) = ∑ r ∈ Finset.range 512, xAt (xarr V c) b e (512 * t.val + r) := by
  rw [← Fin.sum_univ_eq_sum_range (fun r => xAt (xarr V c) b e (512 * t.val + r)) 512]
  refine Finset.sum_congr rfl fun r _ => ?_
  have hN : cfg0.N = 8 := N_0
  have hlt : 512 * t.val + r.val < 4096 := by have := t.isLt; have := r.isLt; omega
  unfold xAt
  rw [dif_pos hlt]
  exact tile_apply V c t (ix3 b r e) (ix3 b ⟨512 * t.val + r.val, hlt⟩ e) rfl rfl rfl

/-- After tile `n` the accumulator holds x summed over the first `512 (n + 1)` sequence positions. -/
theorem colAcc_apply (V : Entry Ideal) (c : Dev nD) (b : Fin 4) (e : Fin 1024) :
    ∀ (n : ℕ) (h : n < cfg0.N), (colAcc V c n h : S4x1024.Idx → EReal) (ix2 b e) = ∑ k ∈ Finset.range (512 * (n + 1)), xAt (xarr V c) b e k
  | 0, h => by
    show (k0_pay2 (F := Ideal) (k0_pay1 (F := Ideal)) (xtile V c ⟨0, h⟩) : S4x1024.Idx → EReal) (ix2 b e) = _
    refine (pay2_apply (k0_pay1 (F := Ideal)) (xtile V c ⟨0, h⟩) b e).trans ?_
    rw [pay1_apply, zero_add, tile_sum]
    refine Finset.sum_congr rfl fun r _ => ?_
    show xAt (xarr V c) b e (512 * 0 + r) = _
    rw [Nat.mul_zero, Nat.zero_add]
  | n + 1, h => by
    show (k0_pay2 (F := Ideal) (colAcc V c n (Nat.lt_of_succ_lt h)) (xtile V c ⟨n + 1, h⟩) : S4x1024.Idx → EReal) (ix2 b e) = _
    refine (pay2_apply (colAcc V c n (Nat.lt_of_succ_lt h)) (xtile V c ⟨n + 1, h⟩) b e).trans ?_
    rw [colAcc_apply V c b e n (Nat.lt_of_succ_lt h), tile_sum]
    rw [show 512 * (n + 1 + 1) = 512 * (n + 1) + 512 from by omega, Finset.sum_range_add]

/-- After the last tile: the sum over the whole sequence. -/
theorem total_apply (V : Entry Ideal) (c : Dev nD) (b : Fin 4) (e : Fin 1024) :
    (colAcc V c 7 lt7 : S4x1024.Idx → EReal) (ix2 b e) = ∑ k : Fin 4096, xarr V c (ix3 b k e) := by
  rw [colAcc_apply V c b e 7 lt7, show 512 * (7 + 1) = 4096 from rfl,
    ← Fin.sum_univ_eq_sum_range (fun k => xAt (xarr V c) b e k) 4096]
  refine Finset.sum_congr rfl fun k _ => ?_
  unfold xAt
  rw [dif_pos k.isLt]

/-- At the exact reals the output array ends holding the column sums of the x array the region found. -/
theorem final (V : Entry Ideal) (c : Dev nD) :
    ((dat (F := Ideal) V c).arrAt 1 cfg0.N : S4x1024.Idx → EReal) = Cert.Spec.xsum (V c main_arg0) :=
  (arr_eq_total V c).trans (funext fun (j : S4x1024.Idx) =>
    (congrArg (colAcc V c 7 lt7 : S4x1024.Idx → EReal) (eq_ix2 j)).trans (total_apply V c (j 0) (j 1)))

end Exact

end Cert.KernelIdeal.Sum

end
-- ==== Proof.KiBcast.lean ====
/-
  Region 1 of the kernel's program: one small matrix product, then the same rows written at every sequence
  position.  At the first tile the column sums (one row per batch entry) are multiplied by the combined weight
  into a scratch buffer; every tile of the output then receives that buffer's rows, repeated down the tile.
-/
import proofs.«110568_j7017976561954_1_alg».proof.Proof.Gen.KernelIdeal.Launch
import proofs.«110568_j7017976561954_1_alg».proof.Proof.Gen.KernelIdeal.Skeleton
import proofs.«110568_j7017976561954_1_alg».proof.Proof.Gen.KernelIdeal.Points
import proofs.«110568_j7017976561954_1_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueLayout
import Idealize.ShloMosaic.PureOps.Ideal.Laws

set_option maxRecDepth 16384

noncomputable section

namespace Cert.KernelIdeal.Bcast

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The contents a core's buffers hold when the region is entered. -/
abbrev Entry (F : FTy → Type) : Type := (c : Dev nD) → (b : Ref sig .tc) → Buf (Elt F) ((c : Thread nD τ).loc b)

/-! ## The branch of the body -/

/-- The body's one condition, from the grid coordinate: "this is the first tile". -/
abbrev isFirst (i : grid1.Coords) : Prop :=
  (Scalar.cmpi .ne (Scalar.extui (Scalar.cmpi .eq (BitVec.ofNat 32 (i 0).val) 0#32)) 0#32) = 1#1

/-- It holds at tile 0 and at no other of the eight: decided over the grid. -/
theorem isFirst_iff : ∀ t : Fin cfg1.N, isFirst (grid1.coords t) ↔ t.val % 8 = 0 :=
  (by decide +kernel : ∀ t : Fin grid1.N, isFirst (grid1.coords t) ↔ t.val % 8 = 0)

/-! ## The body on any whole buffers -/

/-- The scratch that holds the product's rows from the first tile on. -/
abbrev rowsBuf : Memref sig .tc .vmem S4x1024 .f32 := Memref.whole cc1_scratch0

set_option maxHeartbeats 1000000 in
/-- The first tile: the two operands are read whole, their product is stored over the whole scratch, read back
    and repeated down the output tile.  The pieces each written buffer ends with are found by running the body. -/
noncomputable def runFirst (c : Dev nD) (i : grid1.Coords)
    (arg1 : Memref sig .tc .vmem S4x1024 .f32) (harg1 : arg1.IsWhole)
    (arg2 : Memref sig .tc .vmem S1024x1024 .f32) (harg2 : arg2.IsWhole)
    (arg3 : Memref sig .tc .vmem S4x512x1024 .f32) (harg3 : arg3.IsWhole)
    (arg4 : Memref sig .tc .vmem S4x1024 .f32) (harg4 : arg4.IsWhole) (hc : isFirst i)
    (x0 : Vec F S4x1024 .f32) (x1 : Vec F S1024x1024 .f32) :
    Σ' (Lout : List (View.Piece (Elt F) S4x512x1024 .f32)), { Lrows : List (View.Piece (Elt F) S4x1024 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f Lout)
                ∗ (∃ f, arg4.view.loc (c : Thread nD τ) ↦[arg4.view.set]{fullShare} arg4.view.writes (Elt F) f Lrows)) -∗ K ⟨⟩))
          ⊢ wp frame (wpE (defs₀ (F := F)) Variants.none c none) E (cc1__bcast_kernel i arg1 harg1 arg2 harg2 arg3 harg3 arg4 harg4) K } := by
  refine ⟨?_, ?_, fun E K => ?run⟩
  case run =>
    simp only [cc1__bcast_kernel_eq_skeleton]; unfold cc1__bcast_kernel_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

set_option maxHeartbeats 1000000 in
/-- A later tile: the scratch is read and its rows repeated down the output tile; nothing else is touched. -/
noncomputable def runLater (c : Dev nD) (i : grid1.Coords)
    (arg1 : Memref sig .tc .vmem S4x1024 .f32) (harg1 : arg1.IsWhole)
    (arg2 : Memref sig .tc .vmem S1024x1024 .f32) (harg2 : arg2.IsWhole)
    (arg3 : Memref sig .tc .vmem S4x512x1024 .f32) (harg3 : arg3.IsWhole)
    (arg4 : Memref sig .tc .vmem S4x1024 .f32) (harg4 : arg4.IsWhole) (hc : ¬isFirst i)
    (xs : Vec F S4x1024 .f32) :
    { Lout : List (View.Piece (Elt F) S4x512x1024 .f32) //
      ∀ (E : Set ℕ) (K : PUnit → sProp 𝕄),
        iprop((∃ d, owns (c : Thread nD τ) arg3 fullShare d) ∗ owns (c : Thread nD τ) arg4 fullShare xs
            ∗ (iprop((∃ f, arg3.view.loc (c : Thread nD τ) ↦[arg3.view.set]{fullShare} arg3.view.writes (Elt F) f Lout)
                ∗ owns (c : Thread nD τ) arg4 fullShare xs) -∗ K ⟨⟩))
          ⊢ wp frame (wpE (defs₀ (F := F)) Variants.none c none) E (cc1__bcast_kernel i arg1 harg1 arg2 harg2 arg3 harg3 arg4 harg4) K } := by
  refine ⟨?_, fun E K => ?run⟩
  case run =>
    simp only [cc1__bcast_kernel_eq_skeleton]; unfold cc1__bcast_kernel_skel
    unfold owns
    iintro ⟨⟨%d2, %f2, -, H2⟩, ⟨%f3, %hf3, H3⟩, Hk⟩
    obtain rfl := harg4.eq_unread hf3
    sl_exec (disch := first | exact hc)
    sl_step
    iapply Hk
    isplitl [H2]; · iexists _; iexact H2
    iexists _; isplitr; · ipureintro; exact harg4.read_unread _
    iexact H3

/-! ## What the runs leave, as values -/

theorem hz2 : (![0, 0] : Fin 2 → Nat) = fun _ => 0 := by funext a; fin_cases a <;> rfl
theorem hz3 : (![0, 0, 0] : Fin 3 → Nat) = fun _ => 0 := by funext a; fin_cases a <;> rfl

/-- The first tile leaves in the scratch the product of what the two operand buffers held. -/
theorem rows_first (c : Dev nD) (i : grid1.Coords)
    (arg1 : Memref sig .tc .vmem S4x1024 .f32) (harg1 : arg1.IsWhole)
    (arg2 : Memref sig .tc .vmem S1024x1024 .f32) (harg2 : arg2.IsWhole)
    (arg3 : Memref sig .tc .vmem S4x512x1024 .f32) (harg3 : arg3.IsWhole)
    (arg4 : Memref sig .tc .vmem S4x1024 .f32) (harg4 : arg4.IsWhole) (hc : isFirst i)
    (x0 : Vec F S4x1024 .f32) (x1 : Vec F S1024x1024 .f32) :
    View.canon (runFirst c i arg1 harg1 arg2 harg2 arg3 harg3 arg4 harg4 hc x0 x1).2.1 = k1_pay1 x0 x1 := by
  unfold runFirst
  dsimp only
  sl_unfold_words
  rw [View.canon_unit_zero (S := S4x1024) hz2]
  simp only [View.readAt_eq_ld, harg1.read_unread, harg2.read_unread, View.ld_unit_zero (S := S4x1024) hz2,
    View.ld_unit_zero (S := S1024x1024) hz2]

/-- And in the output tile those rows, repeated. -/
theorem out_first (c : Dev nD) (i : grid1.Coords)
    (arg1 : Memref sig .tc .vmem S4x1024 .f32) (harg1 : arg1.IsWhole)
    (arg2 : Memref sig .tc .vmem S1024x1024 .f32) (harg2 : arg2.IsWhole)
    (arg3 : Memref sig .tc .vmem S4x512x1024 .f32) (harg3 : arg3.IsWhole)
    (arg4 : Memref sig .tc .vmem S4x1024 .f32) (harg4 : arg4.IsWhole) (hc : isFirst i)
    (x0 : Vec F S4x1024 .f32) (x1 : Vec F S1024x1024 .f32) :
    View.canon (runFirst c i arg1 harg1 arg2 harg2 arg3 harg3 arg4 harg4 hc x0 x1).1 = k1_pay2 (k1_pay1 x0 x1) := by
  unfold runFirst
  dsimp only
  sl_unfold_words
  rw [View.canon_unit_zero (S := S4x512x1024) hz3]
  simp only [View.readCov_unit_zero (S := S4x1024) _ hz2, View.readAt_eq_ld, harg1.read_unread, harg2.read_unread,
    View.ld_unit_zero (S := S4x1024) hz2, View.ld_unit_zero (S := S1024x1024) hz2]

/-- A later tile leaves in the output tile the rows the scratch held, repeated. -/
theorem out_later (c : Dev nD) (i : grid1.Coords)
    (arg1 : Memref sig .tc .vmem S4x1024 .f32) (harg1 : arg1.IsWhole)
    (arg2 : Memref sig .tc .vmem S1024x1024 .f32) (harg2 : arg2.IsWhole)
    (arg3 : Memref sig .tc .vmem S4x512x1024 .f32) (harg3 : arg3.IsWhole)
    (arg4 : Memref sig .tc .vmem S4x1024 .f32) (harg4 : arg4.IsWhole) (hc : ¬isFirst i)
    (xs : Vec F S4x1024 .f32) :
    View.canon (runLater c i arg1 harg1 arg2 harg2 arg3 harg3 arg4 harg4 hc xs).1 = k1_pay2 xs := by
  unfold runLater
  dsimp only
  sl_unfold_words
  rw [View.canon_unit_zero (S := S4x512x1024) hz3]
  simp only [View.readAt_eq_ld, harg4.read_unread, View.ld_unit_zero (S := S4x1024) hz2]

/-- Each run's one store into a buffer is through the whole-buffer rectangle, so it covers the buffer. -/
theorem cover_rows_first (c : Dev nD) (i : grid1.Coords)
    (arg1 : Memref sig .tc .vmem S4x1024 .f32) (harg1 : arg1.IsWhole)
    (arg2 : Memref sig .tc .vmem S1024x1024 .f32) (harg2 : arg2.IsWhole)
    (arg3 : Memref sig .tc .vmem S4x512x1024 .f32) (harg3 : arg3.IsWhole)
    (arg4 : Memref sig .tc .vmem S4x1024 .f32) (harg4 : arg4.IsWhole) (hc : isFirst i)
    (x0 : Vec F S4x1024 .f32) (x1 : Vec F S1024x1024 .f32) (y : S4x1024.Idx) :
    ∃ pc ∈ (runFirst c i arg1 harg1 arg2 harg2 arg3 harg3 arg4 harg4 hc x0 x1).2.1, y ∈ pc.1.set :=
  View.cover_of_tiledL (runFirst c i arg1 harg1 arg2 harg2 arg3 harg3 arg4 harg4 hc x0 x1).2.1 S4x1024.size (by sl_kernel_rfl) y

theorem cover_out_first (c : Dev nD) (i : grid1.Coords)
    (arg1 : Memref sig .tc .vmem S4x1024 .f32) (harg1 : arg1.IsWhole)
    (arg2 : Memref sig .tc .vmem S1024x1024 .f32) (harg2 : arg2.IsWhole)
    (arg3 : Memref sig .tc .vmem S4x512x1024 .f32) (harg3 : arg3.IsWhole)
    (arg4 : Memref sig .tc .vmem S4x1024 .f32) (harg4 : arg4.IsWhole) (hc : isFirst i)
    (x0 : Vec F S4x1024 .f32) (x1 : Vec F S1024x1024 .f32) (y : S4x512x1024.Idx) :
    ∃ pc ∈ (runFirst c i arg1 harg1 arg2 harg2 arg3 harg3 arg4 harg4 hc x0 x1).1, y ∈ pc.1.set :=
  View.cover_of_tiledL (runFirst c i arg1 harg1 arg2 harg2 arg3 harg3 arg4 harg4 hc x0 x1).1 S4x512x1024.size (by sl_kernel_rfl) y

theorem cover_out_later (c : Dev nD) (i : grid1.Coords)
    (arg1 : Memref sig .tc .vmem S4x1024 .f32) (harg1 : arg1.IsWhole)
    (arg2 : Memref sig .tc .vmem S1024x1024 .f32) (harg2 : arg2.IsWhole)
    (arg3 : Memref sig .tc .vmem S4x512x1024 .f32) (harg3 : arg3.IsWhole)
    (arg4 : Memref sig .tc .vmem S4x1024 .f32) (harg4 : arg4.IsWhole) (hc : ¬isFirst i)
    (xs : Vec F S4x1024 .f32) (y : S4x512x1024.Idx) :
    ∃ pc ∈ (runLater c i arg1 harg1 arg2 harg2 arg3 harg3 arg4 harg4 hc xs).1, y ∈ pc.1.set :=
  View.cover_of_tiledL (runLater c i arg1 harg1 arg2 harg2 arg3 harg3 arg4 harg4 hc xs).1 S4x512x1024.size (by sl_kernel_rfl) y

/-! ## The windows' blocks -/

/-- Window `w`'s block at tile `t`, read off its array as the region finds it. -/
def iblk (V : Entry F) (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The two operands are fetched at the first tile only, and their block index never moves: at every tile the
    staging buffer of each holds the operand's block, for any proof data over the entry contents whose body
    leaves the block in place. -/
theorem before_in0_of (V : Entry F) {c : Dev nD} (dat : Dat τ (Elt F) Unit ℕ (UR sig nD τ) ℕ cfg1 c)
    (hA : dat.A 0 = V c (Pipeline.arrRef spec1 0)) (hafter : ∀ t, dat.after 0 t = iblk V c 0 t)
    (t : Fin cfg1.N) (d) : dat.before 0 t d = iblk V c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

theorem before_in1_of (V : Entry F) {c : Dev nD} (dat : Dat τ (Elt F) Unit ℕ (UR sig nD τ) ℕ cfg1 c)
    (hA : dat.A 1 = V c (Pipeline.arrRef spec1 1)) (hafter : ∀ t, dat.after 1 t = iblk V c 1 t)
    (t : Fin cfg1.N) (d) : dat.before 1 t d = iblk V c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)

/-! ## The carried rows and the invariant -/

/-- The first tile. -/
def p0 : Fin cfg1.N := ⟨0, by have h : cfg1.N = 8 := N_1; omega⟩

/-- The rows the scratch holds from the first tile on: the first operand times the second. -/
def rows (V : Entry F) (c : Dev nD) : Vec F S4x1024 .f32 := k1_pay1 (iblk V c 0 p0) (iblk V c 1 p0)

/-- The region's invariant with the scratch as a memref owned at some contents. -/
theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_scratch0), ((c : Thread nD τ).loc cc0_scratch0) ↦{fullShare} f)
          ∗ (∃ d, owns (c : Thread nD τ) rowsBuf fullShare d)) ∗ (∃ r, prngReg c r)) := by
  unfold Pipeline.ΦA; rw [scopedRest1_eq]; simp only [rowsBuf, owns_whole]; try rfl

/-- Before tile `n`: at the first the region's own invariant (the scratch at anything); afterwards the scratch at
    the product's rows, the other region's buffers at anything, the generator register at some state. -/
def Inv (V : Entry F) (c : Dev nD) : ℕ → sProp 𝕄
  | 0 => Pipeline.ΦA spec1 c
  | _ + 1 => iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_scratch0), ((c : Thread nD τ).loc cc0_scratch0) ↦{fullShare} f)
          ∗ owns (c : Thread nD τ) rowsBuf fullShare (rows V c)) ∗ (∃ r, prngReg c r))

theorem Inv_zero (V : Entry F) (c : Dev nD) (n : ℕ) (hz : n = 0) : Inv V c n = Pipeline.ΦA spec1 c := by
  subst hz; rfl

theorem Inv_succ (V : Entry F) (c : Dev nD) (n : ℕ) :
    Inv V c (n + 1) = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_scratch0), ((c : Thread nD τ).loc cc0_scratch0) ↦{fullShare} f)
          ∗ owns (c : Thread nD τ) rowsBuf fullShare (rows V c)) ∗ (∃ r, prngReg c r)) := rfl

theorem Inv_pos (V : Entry F) (c : Dev nD) (n : ℕ) (hz : n ≠ 0) : Inv V c n = Inv V c (n - 1 + 1) := by
  cases n with
  | zero => exact absurd rfl hz
  | succ n => rfl

/-! ## The proof data -/

/-- The proof data of region 1 at the entry contents `V`: the arrays as found; after the body each operand's
    buffer at its block and the output's at the product's rows repeated; the invariant above; nothing owed. -/
def dat (V : Entry F) (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => k1_pay2 (rows V c)
  Φ t := Inv V c t.val
  q _ := fullShare
  owed _ := 0

theorem A_eq (V : Entry F) (c : Dev nD) (w : Fin cfg1.W) : (dat V c).A w = V c (Pipeline.arrRef spec1 w) := by
  dsimp only [dat]
theorem q_eq (V : Entry F) (c : Dev nD) (w : Fin cfg1.W) : (dat V c).q w = fullShare := by
  dsimp only [dat]
theorem owed_eq (V : Entry F) (c : Dev nD) (t : Fin (cfg1.N + 1)) : (dat V c).owed t = 0 := by
  dsimp only [dat]
theorem recorded_eq (V : Entry F) (c : Dev nD) (t : Fin (cfg1.N + 1)) : (dat V c).recorded t = Set.univ := by
  dsimp only [dat]

theorem after_0 (V : Entry F) (c : Dev nD) (t : Fin cfg1.N) : (dat V c).after 0 t = iblk V c 0 t := by dsimp only [dat]
theorem after_1 (V : Entry F) (c : Dev nD) (t : Fin cfg1.N) : (dat V c).after 1 t = iblk V c 1 t := by dsimp only [dat]
theorem after_2 (V : Entry F) (c : Dev nD) (t : Fin cfg1.N) : (dat V c).after 2 t = k1_pay2 (rows V c) := by dsimp only [dat]

theorem before_0 (V : Entry F) (c : Dev nD) (t : Fin cfg1.N) (d) : (dat V c).before 0 t d = iblk V c 0 t :=
  before_in0_of V (dat V c) (A_eq V c 0) (after_0 V c) t d
theorem before_1 (V : Entry F) (c : Dev nD) (t : Fin cfg1.N) (d) : (dat V c).before 1 t d = iblk V c 1 t :=
  before_in1_of V (dat V c) (A_eq V c 1) (after_1 V c) t d

theorem Phi_castSucc (V : Entry F) (c : Dev nD) (t : Fin cfg1.N) : (dat V c).Φ t.castSucc = Inv V c t.val := by
  dsimp only [dat]; simp only [Fin.coe_castSucc]

/-! ## The body obligation, at a generic tile -/

/-- Each window's current staging memref at tile `t`, spelled as the pipeline passes it, and its wholeness. -/
abbrev m0 (t : Fin cfg1.N) : Memref sig .tc .vmem S4x1024 .f32 := win1_0.stage (cfg1.slots t 0)
abbrev hm0 (t : Fin cfg1.N) : (m0 t).IsWhole := hstage1_0 ((cfg1.slots t 0).cast nbuf1_0)
abbrev m1 (t : Fin cfg1.N) : Memref sig .tc .vmem S1024x1024 .f32 := win1_1.stage (cfg1.slots t 1)
abbrev hm1 (t : Fin cfg1.N) : (m1 t).IsWhole := hstage1_1 ((cfg1.slots t 1).cast nbuf1_1)
abbrev m2 (t : Fin cfg1.N) : Memref sig .tc .vmem S4x512x1024 .f32 := win1_2.stage (cfg1.slots t 2)
abbrev hm2 (t : Fin cfg1.N) : (m2 t).IsWhole := hstage1_2 ((cfg1.slots t 2).cast nbuf1_2)

/-- What the body is called with at tile `t`, the windows one by one, -/
def bodyPre (V : Entry F) (c : Dev nD) (t : Fin cfg1.N) : sProp 𝕄 :=
  iprop((dat V c).Φ t.castSucc ∗ (dat V c).owesAt () t.castSucc
    ∗ (∃ d, owns (c : Thread nD τ) (m0 t) fullShare ((dat V c).before 0 t d))
    ∗ (∃ d, owns (c : Thread nD τ) (m1 t) fullShare ((dat V c).before 1 t d))
    ∗ (∃ d, owns (c : Thread nD τ) (m2 t) fullShare ((dat V c).before 2 t d)))

/-- and what it returns. -/
def bodyPost (V : Entry F) (c : Dev nD) (t : Fin cfg1.N) : sProp 𝕄 :=
  iprop((dat V c).Φ t.succ ∗ (dat V c).owesAt () t.succ
    ∗ owns (c : Thread nD τ) (m0 t) fullShare ((dat V c).after 0 t)
    ∗ owns (c : Thread nD τ) (m1 t) fullShare ((dat V c).after 1 t)
    ∗ owns (c : Thread nD τ) (m2 t) fullShare ((dat V c).after 2 t))

set_option maxHeartbeats 4800000 in
/-- The body at any tile.  At the first the operands' buffers hold their blocks, the scratch and the output tile
    anything: the first run applies, and leaves the scratch at the product's rows.  At a later tile the invariant
    hands the scratch at those rows and the later run leaves it so; the operands' buffers pass through unread. -/
theorem sound_body (V : Entry F) (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = Inv V c (t.val + 1) from rfl, Inv_succ, Phi_castSucc, after_0, after_1, after_2]
  have hN : t.val < 8 := lt_of_lt_of_eq t.isLt (show cfg1.N = 8 from N_1)
  by_cases h0 : t.val % 8 = 0
  · have hz : t.val = 0 := by omega
    obtain rfl : t = p0 := Fin.ext hz
    rw [Inv_zero V c _ hz, PhiA_eq]
    iintro ⟨⟨⟨Ha, Hb, Hc, Hd, HS⟩, Hg⟩, Ho, ⟨%d0, H0⟩, ⟨%d1, H1⟩, ⟨%d2, H2⟩⟩
    iapply ((runFirst c (grid1.coords p0) _ _ _ _ _ _ _ _ ((isFirst_iff p0).mpr h0) (iblk V c 0 p0) (iblk V c 1 p0)).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [Ha Hb Hc Hd HS Hg]
    · isplitl [Ha Hb Hc Hd HS]
      · isplitl [Ha]; · iexact Ha
        isplitl [Hb]; · iexact Hb
        isplitl [Hc]; · iexact Hc
        isplitl [Hd]; · iexact Hd
        unfold owns; iexists _; isplitr
        swap; · iexact HS
        ipureintro
        exact (View.read_writes_eq_canon _ _ _ (cover_rows_first c _ _ _ _ _ _ _ _ _ _ _ _)).trans
          (rows_first c _ _ _ _ _ _ _ _ _ _ _ _)
      iexact Hg
    isplitl [Ho]; · iexact Ho
    isplitl [H0]; · iexact H0
    isplitl [H1]; · iexact H1
    unfold owns; iexists _; isplitr
    swap; · iexact H2
    ipureintro
    exact (View.read_writes_eq_canon _ _ _ (cover_out_first c _ _ _ _ _ _ _ _ _ _ _ _)).trans
      (out_first c _ _ _ _ _ _ _ _ _ _ _ _)
  · have hz : t.val ≠ 0 := by omega
    rw [Inv_pos V c _ hz, Inv_succ]
    iintro ⟨⟨⟨Ha, Hb, Hc, Hd, HS⟩, Hg⟩, Ho, ⟨%d0, H0⟩, ⟨%d1, H1⟩, ⟨%d2, H2⟩⟩
    iapply ((runLater c (grid1.coords t) _ _ _ _ _ _ _ _ (fun h => h0 ((isFirst_iff t).mp h)) (rows V c)).2 Set.univ _)
    isplitl [H2]; · iexists _; iexact H2
    isplitl [HS]; · iexact HS
    iintro ⟨⟨%e2, H2⟩, HS⟩
    isplitl [Ha Hb Hc Hd HS Hg]
    · isplitl [Ha Hb Hc Hd HS]
      · isplitl [Ha]; · iexact Ha
        isplitl [Hb]; · iexact Hb
        isplitl [Hc]; · iexact Hc
        isplitl [Hd]; · iexact Hd
        iexact HS
      iexact Hg
    isplitl [Ho]; · iexact Ho
    isplitl [H0]; · iexact H0
    isplitl [H1]; · iexact H1
    unfold owns; iexists _; isplitr
    swap; · iexact H2
    ipureintro
    exact (View.read_writes_eq_canon _ _ _ (cover_out_later c _ _ _ _ _ _ _ _ _ _ _)).trans
      (out_later c _ _ _ _ _ _ _ _ _ _ _)

/-- The library's body obligation, at every tile. -/
theorem body_obligation (V : Entry F) (c : Dev nD) : BodyObligation (dat (F := F) V c) (defs₀ (F := F)) Variants.none () Set.univ := fun t => by
  rw [bigSep_W1, bigSep_W1]
  exact sound_body V c t

/-- What the launch hands the region is the invariant before the first tile. -/
theorem hin (V : Entry F) (c : Dev nD) : (Pipeline.ΦA spec1 c : sProp 𝕄) ⊢ (dat V c).Φ 0 := by
  rw [show (dat V c).Φ 0 = Inv V c 0 from rfl, Inv_zero V c 0 rfl]
  try exact Idealize.SL.BI.Entails.refl _

/-- After the last tile the invariant gives the region's own back: what the scratch holds is forgotten. -/
theorem hout (V : Entry F) (c : Dev nD) : (dat V c).Φ (Fin.last cfg1.N) ⊢ (Pipeline.ΦA spec1 c : sProp 𝕄) := by
  rw [show (dat V c).Φ (Fin.last cfg1.N) = Inv V c (Fin.last cfg1.N).val from rfl,
    Inv_pos V c _ (by rw [Fin.val_last]; have h : cfg1.N = 8 := N_1; omega), Inv_succ, PhiA_eq]
  iintro ⟨⟨Ha, Hb, Hc, Hd, HS⟩, Hg⟩
  isplitl [Ha Hb Hc Hd HS]
  · isplitl [Ha]; · iexact Ha
    isplitl [Hb]; · iexact Hb
    isplitl [Hc]; · iexact Hc
    isplitl [Hd]; · iexact Hd
    iexists _; iexact HS
  iexact Hg

/-! ## The value at the exact reals -/

section Value
open Idealize.ShloMosaic.ValueIdx

/-- The arrays the region finds in its two operands, at their literal types. -/
abbrev lhsArr (V : Entry F) (c : Dev nD) : Vec F S4x1024 .f32 := V c main_v4
abbrev rhsArr (V : Entry F) (c : Dev nD) : Vec F S1024x1024 .f32 := V c main_v3

/-- The printed index maps, decided over the grid: the operands' block index is always zero; the output's
    block index is the tile's number on the sequence axis and zero on the others. -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 3) = 0 ∧ win1_2.index t (1 : Fin 3) = t.val ∧ win1_2.index t (2 : Fin 3) = 0 :=
  (by decide +kernel : ∀ t : Fin grid1.N, _)

/-- Each operand's block is its whole array. -/
theorem iblk0_apply (V : Entry F) (c : Dev nD) (t : Fin cfg1.N) (j : S4x1024.Idx) :
    iblk V c 0 t j = lhsArr V c j := by
  obtain ⟨e0, e1, -⟩ := idx_facts t
  show V c main_v4 (((cfg1.win 0).blk t).view.emb j) = V c main_v4 j
  refine congrArg (V c main_v4) ?_
  funext a; apply Fin.ext
  match a with
  | ⟨0, _⟩ => show win1_0.index t (0 : Fin 2) * 4 + 1 * (j 0).val = (j 0).val; omega
  | ⟨1, _⟩ => show win1_0.index t (1 : Fin 2) * 1024 + 1 * (j 1).val = (j 1).val; omega

theorem iblk1_apply (V : Entry F) (c : Dev nD) (t : Fin cfg1.N) (j : S1024x1024.Idx) :
    iblk V c 1 t j = rhsArr V c j := by
  obtain ⟨-, -, e0, e1, -⟩ := idx_facts t
  show V c main_v3 (((cfg1.win 1).blk t).view.emb j) = V c main_v3 j
  refine congrArg (V c main_v3) ?_
  funext a; apply Fin.ext
  match a with
  | ⟨0, _⟩ => show win1_1.index t (0 : Fin 2) * 1024 + 1 * (j 0).val = (j 0).val; omega
  | ⟨1, _⟩ => show win1_1.index t (1 : Fin 2) * 1024 + 1 * (j 1).val = (j 1).val; omega

/-- So the carried rows are the product of the two arrays as found. -/
theorem rows_eq (V : Entry F) (c : Dev nD) : rows V c = k1_pay1 (lhsArr V c) (rhsArr V c) := by
  unfold rows
  exact congrArg₂ (k1_pay1 (F := F)) (funext (iblk0_apply V c p0)) (funext (iblk1_apply V c p0))

/-- The rows repeated down a tile read, at (b, r, e), the row vector's entry (b, e). -/
theorem pay2_apply (X : Vec F S4x1024 .f32) (b : Fin 4) (r : Fin 512) (e : Fin 1024) :
    k1_pay2 X (ix3 b r e) = X (ix2 b e) := by
  unfold k1_pay2
  show broadcastTo S4x512x1024 (shapeCast S4x1x1024 (shapeCast S4x1x1024 X _) _) _ (ix3 b r e) = X (ix2 b e)
  refine (broadcastTo_apply _ _ (ix3 b r e) (ix3 b (0 : Fin 1) e) fun a => ?_).trans ?_
  · match a with
    | ⟨0, _⟩ => rfl
    | ⟨1, _⟩ => rfl
    | ⟨2, _⟩ => rfl
  · refine (congrFun (shapeCast_self _ _) _).trans ?_
    exact shapeCast_apply X _ (ix3 b (0 : Fin 1) e) (ix2 b e) (by
      rw [Shape.rowMajor_val_two, Shape.rowMajor_val_three]
      show b.val * 1024 + e.val = (b.val * 1 + 0) * 1024 + e.val
      omega)

/-- The matrix product's index maps, axis by axis. -/
theorem lhs_ax0 (i : S4x1024.Idx) (q : dot_S4x1024_S1024x1024_S4x1024_1_0_0_1_n_n.contr.Idx) :
    (dot_S4x1024_S1024x1024_S4x1024_1_0_0_1_n_n.lhsIdx i q 0).val = (i 0).val := by
  unfold DotDims.lhsIdx
  rw [dif_neg (show ¬(0 : Fin S4x1024.rank) ∈ dot_S4x1024_S1024x1024_S4x1024_1_0_0_1_n_n.lhsBatch by decide), dif_pos (show (0 : Fin S4x1024.rank) ∈ dot_S4x1024_S1024x1024_S4x1024_1_0_0_1_n_n.lhsNonContracting by decide)]
  rfl
theorem lhs_ax1 (i : S4x1024.Idx) (q : dot_S4x1024_S1024x1024_S4x1024_1_0_0_1_n_n.contr.Idx) :
    (dot_S4x1024_S1024x1024_S4x1024_1_0_0_1_n_n.lhsIdx i q 1).val = (q ⟨0, by decide⟩).val :=
  dot_S4x1024_S1024x1024_S4x1024_1_0_0_1_n_n.lhsIdx_val_of_single rfl i q
theorem rhs_ax0 (i : S4x1024.Idx) (q : dot_S4x1024_S1024x1024_S4x1024_1_0_0_1_n_n.contr.Idx) :
    (dot_S4x1024_S1024x1024_S4x1024_1_0_0_1_n_n.rhsIdx i q 0).val = (q ⟨0, by decide⟩).val :=
  dot_S4x1024_S1024x1024_S4x1024_1_0_0_1_n_n.rhsIdx_val_of_single rfl i q
theorem rhs_ax1 (i : S4x1024.Idx) (q : dot_S4x1024_S1024x1024_S4x1024_1_0_0_1_n_n.contr.Idx) :
    (dot_S4x1024_S1024x1024_S4x1024_1_0_0_1_n_n.rhsIdx i q 1).val = (i 1).val := by
  unfold DotDims.rhsIdx
  rw [dif_neg (show ¬(1 : Fin S1024x1024.rank) ∈ dot_S4x1024_S1024x1024_S4x1024_1_0_0_1_n_n.rhsBatch by decide), dif_pos (show (1 : Fin S1024x1024.rank) ∈ dot_S4x1024_S1024x1024_S4x1024_1_0_0_1_n_n.rhsNonContracting by decide)]
  rfl

/-- At the exact reals the product into a zero accumulator is the sum over the contracted index. -/
theorem pay1_apply (x0 : S4x1024.Idx → EReal) (x1 : S1024x1024.Idx → EReal) (b : Fin 4) (e : Fin 1024) :
    k1_pay1 (F := Ideal) x0 x1 (ix2 b e) = ∑ k : Fin 1024, x0 (ix2 b k) * x1 (ix2 k e) := by
  unfold k1_pay1
  show shapeCast S4x1024 (FloatOps.matmul dot_S4x1024_S1024x1024_S4x1024_1_0_0_1_n_n none (shapeCast S4x1024 x0 _) (shapeCast S1024x1024 x1 _) (constant (F := Ideal) S4x1024 .f32 0x00000000#32)) _ (ix2 b e) = _
  refine (congrFun (shapeCast_self _ _) _).trans ?_
  refine (Ideal.matmul_constant_zero_apply _ _ _ _ _).trans ?_
  rw [shapeCast_self, shapeCast_self, ← Equiv.sum_comp (contrEquiv1 dot_S4x1024_S1024x1024_S4x1024_1_0_0_1_n_n 1024 rfl rfl).symm]
  refine Finset.sum_congr rfl fun k _ => ?_
  have hk := contrEquiv1_symm_val dot_S4x1024_S1024x1024_S4x1024_1_0_0_1_n_n 1024 rfl rfl k
  have el : dot_S4x1024_S1024x1024_S4x1024_1_0_0_1_n_n.lhsIdx (ix2 b e) ((contrEquiv1 dot_S4x1024_S1024x1024_S4x1024_1_0_0_1_n_n 1024 rfl rfl).symm k) = ix2 b k := funext fun a => Fin.ext (by
    match a with
    | ⟨0, _⟩ => exact lhs_ax0 _ _
    | ⟨1, _⟩ => exact (lhs_ax1 _ _).trans hk)
  have er : dot_S4x1024_S1024x1024_S4x1024_1_0_0_1_n_n.rhsIdx (ix2 b e) ((contrEquiv1 dot_S4x1024_S1024x1024_S4x1024_1_0_0_1_n_n 1024 rfl rfl).symm k) = ix2 k e := funext fun a => Fin.ext (by
    match a with
    | ⟨0, _⟩ => exact (rhs_ax0 _ _).trans hk
    | ⟨1, _⟩ => exact rhs_ax1 _ _)
  rw [el, er]

/-- The same two arrays as functions into the extended reals. -/
abbrev lhsR (V : Entry Ideal) (c : Dev nD) : S4x1024.Idx → EReal := V c main_v4
abbrev rhsR (V : Entry Ideal) (c : Dev nD) : S1024x1024.Idx → EReal := V c main_v3

/-- What a tile writes back, at (b, r, e) of the tile, is the target at the array index under it: the value does
    not depend on the row, and the tile lies at zero offset on the batch and feature axes. -/
theorem flushed_at (V : Entry Ideal) (c : Dev nD) (t : Fin cfg1.N) (b : Fin 4) (r : Fin 512) (e : Fin 1024) :
    k1_pay2 (F := Ideal) (k1_pay1 (F := Ideal) (lhsArr V c) (rhsArr V c)) (ix3 b r e)
      = Cert.Spec.bcast (V c main_v4) (V c main_v3) (((cfg1.win 2).blk t).view.emb (ix3 b r e)) := by
  obtain ⟨-, -, -, -, e0, -, e2⟩ := idx_facts t
  refine (pay2_apply _ b r e).trans ?_
  refine (pay1_apply _ _ b e).trans ?_
  have h0 : (((cfg1.win 2).blk t).view.emb (ix3 b r e)) 0 = b :=
    Fin.ext (by show win1_2.index t (0 : Fin 3) * 4 + 1 * b.val = b.val; omega)
  have h2 : (((cfg1.win 2).blk t).view.emb (ix3 b r e)) 2 = e :=
    Fin.ext (by show win1_2.index t (2 : Fin 3) * 1024 + 1 * e.val = e.val; omega)
  show _ = ∑ k : Fin 1024, lhsR V c (ix2 ((((cfg1.win 2).blk t).view.emb (ix3 b r e)) 0) k)
      * rhsR V c (ix2 k ((((cfg1.win 2).blk t).view.emb (ix3 b r e)) 2))
  rw [h0, h2]

/-- WHAT TILE `t` WRITES BACK is block `t` of the target. -/
theorem flushed_eq (V : Entry Ideal) (c : Dev nD) (t : Fin cfg1.N) :
    (dat (F := Ideal) V c).flushed 2 t
      = ((cfg1.win 2).blk t).view.read (Elt Ideal) (Cert.Spec.bcast (V c main_v4) (V c main_v3)) := by
  show (cfg1.win 2).cut (grid1.coords t) ((dat (F := Ideal) V c).after 2 t) = _
  rw [after_2, rows_eq]
  refine funext fun (j : S4x512x1024.Idx) => ?_
  obtain ⟨b, r, e, rfl⟩ : ∃ (b : Fin 4) (r : Fin 512) (e : Fin 1024), j = ix3 b r e := ⟨j 0, j 1, j 2, eq_ix3 j⟩
  exact flushed_at V c t b r e

/-- An index of the array is in tile `t`'s block iff each coordinate is in the block's range on its axis. -/
theorem mem_blk (t : Fin cfg1.N) (i : S4x4096x1024.Idx) :
    i ∈ ((cfg1.win 2).blk t).view.set ↔ ∀ a : Fin 3, win1_2.index t a * S4x512x1024.size a ≤ (i a).val
      ∧ (i a).val < win1_2.index t a * S4x512x1024.size a + S4x512x1024.size a := by
  show i ∈ ((View.whole main_v5).slice (win1_2.rect t)).set ↔ _
  rw [View.set_slice_whole, Rect.mem_set_unit]
  exact Iff.rfl

/-- The eight tiles cover the array: row `r` of the sequence lies in tile `r / 512`. -/
theorem covered (i : S4x4096x1024.Idx) :
    ∃ t : Fin cfg1.N, (cfg1.win 2).flush t = true ∧ i ∈ ((cfg1.win 2).blk t).view.set := by
  have hN : cfg1.N = 8 := N_1
  have h0 : (i 0).val < 4 := (i 0).isLt
  have h1 : (i 1).val < 4096 := (i 1).isLt
  have h2 : (i 2).val < 1024 := (i 2).isLt
  have hq : (i 1).val / 512 < cfg1.N := by omega
  obtain ⟨-, -, -, -, e0, e1, e2⟩ := idx_facts ⟨(i 1).val / 512, hq⟩
  have e1' : win1_2.index ⟨(i 1).val / 512, hq⟩ (1 : Fin 3) = (i 1).val / 512 := e1
  refine ⟨⟨(i 1).val / 512, hq⟩, flush1_2 _, ?_⟩
  rw [mem_blk]
  intro a
  match a with
  | ⟨0, _⟩ =>
    show win1_2.index ⟨(i 1).val / 512, hq⟩ (0 : Fin 3) * 4 ≤ (i 0).val
      ∧ (i 0).val < win1_2.index ⟨(i 1).val / 512, hq⟩ (0 : Fin 3) * 4 + 4
    omega
  | ⟨1, _⟩ =>
    show win1_2.index ⟨(i 1).val / 512, hq⟩ (1 : Fin 3) * 512 ≤ (i 1).val
      ∧ (i 1).val < win1_2.index ⟨(i 1).val / 512, hq⟩ (1 : Fin 3) * 512 + 512
    omega
  | ⟨2, _⟩ =>
    show win1_2.index ⟨(i 1).val / 512, hq⟩ (2 : Fin 3) * 1024 ≤ (i 2).val
      ∧ (i 2).val < win1_2.index ⟨(i 1).val / 512, hq⟩ (2 : Fin 3) * 1024 + 1024
    omega

/-- At the exact reals the output array ends holding, at every sequence position, the rows the region found in
    its first operand times the matrix it found in its second. -/
theorem final (V : Entry Ideal) (c : Dev nD) :
    ((dat (F := Ideal) V c).arrAt 2 cfg1.N : S4x4096x1024.Idx → EReal) = Cert.Spec.bcast (V c main_v4) (V c main_v3) :=
  (dat (F := Ideal) V c).arrAt_eq_of_cover 2 _ (fun t _ => flushed_eq V c t) covered

end Value

end Cert.KernelIdeal.Bcast

end
-- ==== Proof.KiLaunch.lean ====
/-
  The kernel's program from launch to return: the host lines that build the combined weight, the streaming
  column sum (region 0), the product-and-repeat (region 1).  Between two items a core holds every unscoped
  buffer at contents that are NAMED: the launch memory, then the host lines' results, then region 0's arrays at
  what its write-backs leave, then region 1's.  Every weakly fair execution ends with the three arguments as
  launched and the result array at what region 1's write-backs leave in it.
-/
import proofs.«110568_j7017976561954_1_alg».proof.Proof.Gen.KernelIdeal.Regions
import proofs.«110568_j7017976561954_1_alg».proof.Proof.KiSum
import proofs.«110568_j7017976561954_1_alg».proof.Proof.KiBcast

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the host lines (region 0's entry). -/
abbrev W1 : Dev nD → Valuation τ sig (Elt F) := fun c => StableHlo.after hostOps0 (W0 m c)
/-- The same read at the core's references. -/
abbrev V1 : Sum.Entry F := fun c b => W1 m c b
/-- At region 0's exit: its arrays at what its write-backs leave, every other buffer as entered. -/
def W2 (c : Dev nD) : Valuation τ sig (Elt F) :=
  Pipeline.withArrays spec0 c (W1 m c) fun w => (Sum.dat (V1 m) c).arrAt w cfg0.N
theorem W2_arr (c : Dev nD) (w : Fin cfg0.W) :
    W2 m c (Proc.devRef .tc (Pipeline.arrRef spec0 w)) = (Sum.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the core's references (region 1's entry). -/
abbrev V2 : Bcast.Entry F := fun c b => W2 m c b
theorem hF0 (c : Dev nD) (w : Fin cfg0.W) : (Sum.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit. -/
def W3 (c : Dev nD) : Valuation τ sig (Elt F) :=
  Pipeline.withArrays spec1 c (W2 m c) fun w => (Bcast.dat (V2 m) c).arrAt w cfg1.N
theorem W3_arr (c : Dev nD) (w : Fin cfg1.W) :
    W3 m c (Proc.devRef .tc (Pipeline.arrRef spec1 w)) = (Bcast.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : Bcast.Entry F := fun c b => W3 m c b
theorem hF1 (c : Dev nD) (w : Fin cfg1.W) : (Bcast.dat (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ### No item writes an argument -/

theorem W1_of (c : Dev nD) (r : Ref sig .tc) (h : r ∉ hostOps0_W) : W1 m c (Proc.devRef .tc r) = m ((c : Thread nD τ).loc r) :=
  V1_of m c r h

/-- x is region 0's input: a pipeline never writes an input array. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((Sum.dat (V1 m) c).arrAt_in 0 rfl _).trans (Sum.A_eq (V1 m) c 0))
    _ = m ((c : Thread nD τ).loc main_arg0) := W1_of m c main_arg0 (by decide)
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = m ((c : Thread nD τ).loc main_arg1) := W1_of m c main_arg1 (by decide)
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := W1_of m c main_arg2 (by decide)
/-- The result array is region 1's output window. -/
theorem W3_main_v5 (c : Dev nD) : W3 m c (Proc.devRef .tc main_v5) = (Bcast.dat (V2 m) c).arrAt 2 cfg1.N :=
  W3_arr m c 2

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Sum.dat (V1 m) c
  | ⟨1, _⟩ => fun c => Bcast.dat (V2 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- The host lines as an item. -/
abbrev hseg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

/-! ## The regions as items -/

theorem recSum (c : Dev nD) (t : Fin (cfg0.N + 1)) : (Sum.dat (V1 m) c).recorded t = Set.univ := Sum.recorded_eq (V1 m) c t
theorem recBcast (c : Dev nD) (t : Fin (cfg1.N + 1)) : (Bcast.dat (V2 m) c).recorded t = Set.univ := Bcast.recorded_eq (V2 m) c t

set_option backward.isDefEq.respectTransparency.types false in
/-- Region 0: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Sum.body_obligation (V1 m) c).loose
  hwaits := Pipeline.hwaits_of_owed_zero _ _ _ _ L lv 0 fun c t => Sum.owed_eq (V1 m) c t
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun w => Sum.q_eq (V1 m) c w) (V1 m c) fun w => Sum.A_eq (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 0 c).owed 0 = 0 from Sum.owed_eq (V1 m) c 0]
      icases HO with ⟨%W, HO⟩; iexists W; isplitr
      · ipureintro; intro x _; exact Or.inl (by rw [show (pdats m 0 c).recorded 0 = Set.univ from recSum m c 0]; trivial)
      iexact HO
    isplitl [Hp]; · iexact Hp
    iexact Hrest
  hin c := by
    refine (show _ ⊢ (Pipeline.ΦA spec0 c : sProp 𝕄) from ?_).trans (Sum.hin (V1 m) c)
    unfold Pipeline.ΦA
    iintro ⟨Hp, -, Hr⟩
    isplitl [Hr]; · iexact Hr
    iexact Hp
  hout c := by
    refine (Sum.hout (V1 m) c).trans (show (Pipeline.ΦA spec0 c : sProp 𝕄) ⊢ _ from ?_)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => Sum.q_eq (V1 m) c w)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 0 c).owed (Fin.last _) = 0 from Sum.owed_eq (V1 m) c _]
    icases HO with ⟨%W, -, HO⟩; iexists W; iexact HO

set_option backward.isDefEq.respectTransparency.types false in
/-- Region 1: entered from every unscoped buffer at `W2`, left at `W3` (what the launch reads at the end). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Bcast.body_obligation (V2 m) c).loose
  hwaits := Pipeline.hwaits_of_owed_zero _ _ _ _ L lv 1 fun c t => Bcast.owed_eq (V2 m) c t
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun w => Bcast.q_eq (V2 m) c w) (V2 m c) fun w => Bcast.A_eq (V2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 1 c).owed 0 = 0 from Bcast.owed_eq (V2 m) c 0]
      icases HO with ⟨%W, HO⟩; iexists W; isplitr
      · ipureintro; intro x _; exact Or.inl (by rw [show (pdats m 1 c).recorded 0 = Set.univ from recBcast m c 0]; trivial)
      iexact HO
    isplitl [Hp]; · iexact Hp
    iexact Hrest
  hin c := by
    refine (show _ ⊢ (Pipeline.ΦA spec1 c : sProp 𝕄) from ?_).trans (Bcast.hin (V2 m) c)
    unfold Pipeline.ΦA
    iintro ⟨Hp, -, Hr⟩
    isplitl [Hr]; · iexact Hr
    iexact Hp
  hout c := by
    refine (Bcast.hout (V2 m) c).trans (show (Pipeline.ΦA spec1 c : sProp 𝕄) ⊢ _ from ?_)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => Bcast.q_eq (V2 m) c w)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats m 1 c).owed (Fin.last _) = 0 from Bcast.owed_eq (V2 m) c _]
    icases HO with ⟨%W, -, HO⟩; iexists W; iexact HO

/-! ## @main as items, and the launch -/

abbrev segs : List (Pipeline.Seg (pcfgs (F := F)) adm (pdats m) () defs₀ 𝒱₀ L lv) :=
  [ .host (hseg m), .region (reg0 m), .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    the result array at what region 1's write-backs leave and the three arguments as launched. -/
theorem run_main : θ_run defs (onTc (τ := τ) (main (F := F))) ⟨m, fun _ => 0, ρ⟩ (fun r => ∀ c : Dev nD,
      r.2.mem ((c.tc : Thread nD τ).loc main_v5) = (Bcast.dat (V2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v5 (by decide))).trans (W3_main_v5 m c),
       (h c _ (mem_uc main_arg0 (by decide))).trans (W3_main_arg0 m c),
       (h c _ (mem_uc main_arg1 (by decide))).trans (W3_main_arg1 m c),
       (h c _ (mem_uc main_arg2 (by decide))).trans (W3_main_arg2 m c)⟩)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.KernelIdeal.Whole

end
-- ==== Proof.KiWeights.lean ====
/-
  The host lines of the kernel's program build one matrix from the two weight arguments: rows 2048.. of w_qkv
  (the value projection) transposed, times w_o transposed.  Entry (e, o) is ∑ f, w_v[f, e] · w_o[o, f].
-/
import proofs.«110568_j7017976561954_1_alg».proof.Proof.Gen.KernelIdeal.Regions
import proofs.«110568_j7017976561954_1_alg».proof.Proof.Spec
import Idealize.ShloMosaic.Lib.Pipeline.Value
import Idealize.ShloMosaic.Lib.ValueIdx
import Idealize.ShloMosaic.PureOps.Ideal.Laws
import Idealize.ShloMosaic.Lib.StableHlo.Run

set_option maxRecDepth 16384

noncomputable section

namespace Cert.KernelIdeal.Weights

open Idealize.ShloMosaic Idealize.ShloMosaic.TcCoe Idealize.SL.Sem Idealize.ShloMosaic.StableHlo
open Idealize.ShloMosaic.ValueIdx
open Cert.KernelIdeal Cert.KernelIdeal.Gen

/-! ## The combined weight, read at an index -/

theorem lhs_w_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_w_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_w_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_w_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The host lines' term: rows 2048.. of w_qkv transposed, times w_o transposed. -/
def wterm (wq : FVec Ideal S3072x1024 .f32) (wo : FVec Ideal S1024x1024 .f32) : FVec Ideal S1024x1024 .f32 :=
  Host.dotGeneral dot_S1024x1024_S1024x1024_S1024x1024_1_0_0_1_n_n (some .fp32)
    (transpose S1024x1024 [1, 0] (extractStridedSlice S1024x1024 ![2048, 0] wq slices_S3072x1024_S1024x1024_2048_0) transposes_S1024x1024_S1024x1024_1_0)
    (transpose S1024x1024 [1, 0] wo transposes_S1024x1024_S1024x1024_1_0)

/-- Entry (e, o) of the combined weight is ∑ f, w_v[f, e] · w_o[o, f]. -/
theorem wterm_eq (wq : FVec Ideal S3072x1024 .f32) (wo : FVec Ideal S1024x1024 .f32) :
    wterm wq wo = Cert.Spec.wcomb wq wo := by
  funext j
  obtain ⟨p, q, rfl⟩ : ∃ (p : Fin 1024) (q : Fin 1024), j = ix2 p q := ⟨j 0, j 1, eq_ix2 j⟩
  show wterm wq wo (ix2 p q) = ∑ f : Fin 1024, wq (ix2 (Cert.Spec.vrow f) p) * wo (ix2 q f)
  unfold wterm
  simp only [Host.dotGeneral]
  rw [Ideal.dotGeneral_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs_w_0 _ _
    | ⟨1, _⟩ => exact (lhs_w_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs_w_0 _ _).trans hk
    | ⟨1, _⟩ => exact rhs_w_1 _ _)
  rw [el, er]
  rw [transpose_apply [1, 0] _ transposes_S1024x1024_S1024x1024_1_0 (ix2 p k) (ix2 k p) (fun b => match b with
      | ⟨0, _⟩ => rfl
      | ⟨1, _⟩ => rfl),
    transpose_apply [1, 0] wo transposes_S1024x1024_S1024x1024_1_0 (ix2 k q) (ix2 q k) (fun b => match b with
      | ⟨0, _⟩ => rfl
      | ⟨1, _⟩ => rfl),
    extractStridedSlice_apply ![2048, 0] wq slices_S3072x1024_S1024x1024_2048_0 (ix2 k p) (ix2 (Cert.Spec.vrow k) p) (fun a => match a with
      | ⟨0, _⟩ => by show 2048 + k.val = 2048 + k.val; rfl
      | ⟨1, _⟩ => by show p.val = 0 + p.val; omega)]

/-- After the host lines the fourth host buffer holds that term of the launched w_qkv and w_o. -/
theorem after_host (m : (ℓ : Loc nD τ sig) → Buf (Elt Ideal) ℓ) (c : Dev nD) :
    (StableHlo.after hostOps0 (fun b => m (c, b)) (Proc.devRef .tc main_v3) : S1024x1024.Idx → EReal)
      = Cert.Spec.wcomb (m ((c : Thread nD τ).loc main_arg1)) (m ((c : Thread nD τ).loc main_arg2)) := by
  have e : (StableHlo.after hostOps0 (fun b => m (c, b)) (Proc.devRef .tc main_v3) : S1024x1024.Idx → EReal)
      = wterm (m ((c : Thread nD τ).loc main_arg1)) (m ((c : Thread nD τ).loc main_arg2)) := by
    after_results
    rfl
  rw [e, wterm_eq]

end Cert.KernelIdeal.Weights

end
-- ==== Proof.KiValue.lean ====
/-
  What the kernel's program leaves in its result array, at the exact reals, as a function of the three argument
  arrays: the host lines build the combined weight w_vᵀ · w_oᵀ, region 0 the column sums of x, region 1 their
  product repeated at every sequence position.
-/
import proofs.«110568_j7017976561954_1_alg».proof.Proof.KiLaunch
import proofs.«110568_j7017976561954_1_alg».proof.Proof.KiWeights
import Idealize.ShloMosaic.Lib.Pipeline.Value
import Idealize.ShloMosaic.Lib.ValueIdx
import Idealize.ShloMosaic.PureOps.Ideal.Laws
import Idealize.ShloMosaic.Lib.StableHlo.Run

set_option maxRecDepth 16384

noncomputable section

namespace Cert.KernelIdeal.Result

open Idealize.ShloMosaic Idealize.ShloMosaic.TcCoe Idealize.SL.Sem Idealize.ShloMosaic.StableHlo
open Idealize.ShloMosaic.ValueIdx
open Cert.KernelIdeal Cert.KernelIdeal.Gen Cert.KernelIdeal.Whole

/-! ## The result array -/

variable (m : (ℓ : Loc nD τ sig) → Buf (Elt Ideal) ℓ)

/-- Region 0 finds x as launched. -/
theorem V1_x (c : Dev nD) : Whole.V1 m c main_arg0 = m ((c : Thread nD τ).loc main_arg0) := W1_of m c main_arg0 (by decide)

/-- Region 1 finds, in its second operand, the combined weight of the launched w_qkv and w_o. -/
theorem V2_w (c : Dev nD) :
    (Whole.V2 m c main_v3 : S1024x1024.Idx → EReal) = Cert.Spec.wcomb (m ((c : Thread nD τ).loc main_arg1)) (m ((c : Thread nD τ).loc main_arg2)) := by
  have e1 : Whole.V2 m c main_v3 = W1 m c (Proc.devRef .tc main_v3) := W2_of_ne m c main_v3 (by decide)
  rw [e1]
  exact Weights.after_host m c

/-- Region 1 finds, in its first operand, the column sums of the launched x. -/
theorem V2_s (c : Dev nD) :
    (Whole.V2 m c main_v4 : S4x1024.Idx → EReal) = Cert.Spec.xsum (m ((c : Thread nD τ).loc main_arg0)) := by
  have e1 : Whole.V2 m c main_v4 = (Sum.dat (Whole.V1 m) c).arrAt 1 cfg0.N := W2_arr m c 1
  rw [e1, Sum.final (Whole.V1 m) c, V1_x]

/-- The result array ends holding the kernel's function of the launched arguments. -/
theorem result (c : Dev nD) :
    ((Bcast.dat (Whole.V2 m) c).arrAt 2 cfg1.N : S4x4096x1024.Idx → EReal)
      = Cert.Spec.kernelOut (m ((c : Thread nD τ).loc main_arg0)) (m ((c : Thread nD τ).loc main_arg1)) (m ((c : Thread nD τ).loc main_arg2)) := by
  rw [Bcast.final (Whole.V2 m) c, V2_s, V2_w]
  rfl

end Cert.KernelIdeal.Result

end
-- ==== Proof.lean ====
/-
  The layer is multi-head attention with ONE head whose softmax runs over the head axis.  A softmax over an axis
  of length one is the constant 1 on real logits, so the attention weights drop out and every sequence position
  receives the same row: the value projection summed over the sequence, pushed through the output projection.
  The kernel computes exactly that in two passes — the column sums of x (eight tiles added into a scratch
  accumulator), then one product with the combined weight w_vᵀ · w_oᵀ, repeated down every output tile.
  Over the extended reals the two agree on real entries, where the triple sum ∑ e k f, x[b,k,e] · w_v[f,e] · w_o[o,f]
  may be regrouped; the precondition makes every entry real.

  The frames of the two kernel programs come from the run of @main as three items (host lines, region 0,
  region 1) with every buffer's contents named between items; the reference's frame is its run with the result
  dropped; the idealization rewrote nothing, so it is preserved trivially.
-/
import proofs.«110568_j7017976561954_1_alg».proof.Defs
import proofs.«110568_j7017976561954_1_alg».proof.Proof.Gen.Kernel
import proofs.«110568_j7017976561954_1_alg».proof.Proof.Gen.KernelIdeal
import proofs.«110568_j7017976561954_1_alg».proof.Proof.Gen.ReferenceIdeal
import proofs.«110568_j7017976561954_1_alg».proof.Proof.Gen.ReferenceIdeal.Run
import proofs.«110568_j7017976561954_1_alg».proof.Proof.Gen.ReferenceIdeal.Read
import proofs.«110568_j7017976561954_1_alg».proof.Proof.Gen.Pre_finite_inputs
import proofs.«110568_j7017976561954_1_alg».proof.Proof.Spec
import proofs.«110568_j7017976561954_1_alg».proof.Proof.Finite
import proofs.«110568_j7017976561954_1_alg».proof.Proof.RefValue
import proofs.«110568_j7017976561954_1_alg».proof.Proof.KbLaunch
import proofs.«110568_j7017976561954_1_alg».proof.Proof.KiLaunch
import proofs.«110568_j7017976561954_1_alg».proof.Proof.KiValue
import Idealize.ShloMosaic.Adequacy
import Idealize.ShloMosaic.Init

noncomputable section

namespace Cert.Proof

open Idealize.ShloMosaic Idealize.SL.Sem

section
variable [Cert.Kernel.Facts] [Cert.KernelIdeal.Facts] [Cert.ReferenceIdeal.Facts] [Cert.Pre_finite_inputs.Facts]

theorem frame_k : Cert.frame_Kernel := fun m ρ _ => Cert.Kernel.Whole.frame (F := Bits) m ρ

theorem frame_ki : Cert.frame_KernelIdeal := fun m ρ _ => Cert.KernelIdeal.Whole.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the kernel's function of the launched arguments in their result arrays: the kernel's
    by its run, the layer's because its last stage is the regrouped triple sum on real entries. -/
theorem algebraic : Cert.algebraic_KernelIdeal_ReferenceIdeal := by
  intro m ρ m' ρ' hpre hagree
  refine ⟨fun c => Cert.Spec.kernelOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Result.result m c), (h c).2⟩)
      (Cert.KernelIdeal.Whole.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨hx, hq, ho⟩ := Cert.Finite.allReal_of_pre _ _ _ (hpre c)
    rw [Cert.ReferenceIdeal.Read.val_main_v21_eq m' c, (hagree c).1, (hagree c).2.1, (hagree c).2.2,
      Cert.ReferenceIdeal.RefValue.result_eq _ _ _ hx hq]
    exact (Cert.Spec.law _ _ _ hx hq ho).symm

end

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
